-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x2 : Shape := ⟨3, ![4, 8192, 2]⟩
abbrev S_ : Shape := ⟨0, ![]⟩

class Facts : Prop where
  bcast_S_S4x8192x2 : S_.BroadcastsInDim S4x8192x2 (![] : Fin 0 → Fin S4x8192x2.rank)
  reducesTo_S4x8192x2_S_d0_1_2 : S4x8192x2.ReducesTo [0, 1, 2] S_
  h_S_ : 0 < S_.numel

variable [Facts]

def fn {F : FTy → Type} [FloatOps F] (main_arg0 : FVec F S4x8192x2 .f32) (main_arg1 : FVec F S4x8192x2 .f32) : IVec S_ 1 :=
  let main_v0 : FVec F S4x8192x2 .f32 := Host.absf main_arg0
  let main_cst : FVec F S_ .f32 := constant S_ .f32 0x7F800000#32
  let main_v1 : FVec F S4x8192x2 .f32 := broadcastInDim S4x8192x2 ![] bcast_S_S4x8192x2 main_cst
  let main_v2 : IVec S4x8192x2 1 := cmpf .olt main_v0 main_v1
  let main_c : IVec S_ 1 := constantI S_ 1 1#1
  let main_v3 : IVec S_ 1 := (fun x v => Host.reduce IntOp.andi x v reducesTo_S4x8192x2_S_d0_1_2 h_S_) main_v2 main_c
  let main_v4 : FVec F S4x8192x2 .f32 := Host.absf main_arg1
  let main_cst_0 : FVec F S_ .f32 := constant S_ .f32 0x7F800000#32
  let main_v5 : FVec F S4x8192x2 .f32 := broadcastInDim S4x8192x2 ![] bcast_S_S4x8192x2 main_cst_0
  let main_v6 : IVec S4x8192x2 1 := cmpf .olt main_v4 main_v5
  let main_c_1 : IVec S_ 1 := constantI S_ 1 1#1
  let main_v7 : IVec S_ 1 := (fun x v => Host.reduce IntOp.andi x v reducesTo_S4x8192x2_S_d0_1_2 h_S_) main_v6 main_c_1
  let main_v8 : IVec S_ 1 := andi main_v3 main_v7
  main_v8
-- ==== Kernel.lean ====
abbrev S4x8192x2 : Shape := ⟨3, ![4, 8192, 2]⟩
abbrev S1x1 : Shape := ⟨2, ![1, 1]⟩
abbrev S4x512x2 : Shape := ⟨3, ![4, 512, 2]⟩
abbrev S4x512 : Shape := ⟨2, ![4, 512]⟩
abbrev S4x8192 : Shape := ⟨2, ![4, 8192]⟩
abbrev S4x512x1 : Shape := ⟨3, ![4, 512, 1]⟩
abbrev S4x1x512 : Shape := ⟨3, ![4, 1, 512]⟩
abbrev S4x512x512 : Shape := ⟨3, ![4, 512, 512]⟩
abbrev S1x4x512 : Shape := ⟨3, ![1, 4, 512]⟩
abbrev S1 : Shape := ⟨1, ![1]⟩
abbrev S1x1x1 : Shape := ⟨3, ![1, 1, 1]⟩
abbrev S1x4x8192 : Shape := ⟨3, ![1, 4, 8192]⟩
abbrev S_ : Shape := ⟨0, ![]⟩

abbrev nBuf : Space → Nat
  | .hbm => 11
  | .vmem => 8
  | .smem => 0
  | _ => 0

abbrev bufTy : (tb : Table) → Fin (tcTables nBuf tb) → BufTy
  | .hbm, ⟨0, _⟩ => ⟨S4x8192x2, .f32⟩
  | .hbm, ⟨1, _⟩ => ⟨S4x8192x2, .f32⟩
  | .hbm, ⟨2, _⟩ => ⟨S1x1, .f32⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S4x512x2, .f32⟩
  | .local _ .vmem, ⟨1, _⟩ => ⟨S4x512x2, .f32⟩
  | .local _ .vmem, ⟨2, _⟩ => ⟨S4x512x2, .f32⟩
  | .local _ .vmem, ⟨3, _⟩ => ⟨S4x512x2, .f32⟩
  | .local _ .vmem, ⟨4, _⟩ => ⟨S1x1, .f32⟩
  | .local _ .vmem, ⟨5, _⟩ => ⟨S1x1, .f32⟩
  | .local _ .vmem, ⟨6, _⟩ => ⟨S4x512, .f32⟩
  | .local _ .vmem, ⟨7, _⟩ => ⟨S4x8192, .f32⟩
  | _, _ => ⟨S4x8192x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg1 : BitVec 32 := BitVec.ofNat 32 (i 1).val
  let c512_i32 : BitVec 32 := 512#32
  let v50 : BitVec 32 := Scalar.muli arg1 c512_i32
  v50
def k0_off1 (i : grid0.Coords) : Fin 2 → Nat :=
  let c0_15 : Index := 0#32
  let arg1 : BitVec 32 := BitVec.ofNat 32 (i 1).val
  let c512_i32 : BitVec 32 := 512#32
  let v50 : BitVec 32 := Scalar.muli arg1 c512_i32
  let v51 : BitVec 32 := v50
  let v52 : Index := Scalar.indexCast v51
  ![0, v52.toNat]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond3 (i : grid0.Coords) : BitVec 1 :=
  let arg1 : BitVec 32 := BitVec.ofNat 32 (i 1).val
  let c15_i32 : BitVec 32 := 15#32
  let v59 : BitVec 1 := Scalar.cmpi .eq arg1 c15_i32
  let v60 : BitVec 32 := Scalar.extui v59
  let c0_i32_17 : BitVec 32 := 0#32
  let v61 : BitVec 1 := Scalar.cmpi .ne v60 c0_i32_17
  v61

def k0_cond4 (i : grid0.Coords) : BitVec 1 :=
  let arg0 : BitVec 32 := BitVec.ofNat 32 (i 0).val
  let c15_i32_18 : BitVec 32 := 15#32
  let v62 : BitVec 1 := Scalar.cmpi .eq arg0 c15_i32_18
  let arg1 : BitVec 32 := BitVec.ofNat 32 (i 1).val
  let c15_i32_19 : BitVec 32 := 15#32
  let v63 : BitVec 1 := Scalar.cmpi .eq arg1 c15_i32_19
  let v64 : BitVec 1 := Scalar.andi v62 v63
  let v65 : BitVec 32 := Scalar.extui v64
  let c0_i32_20 : BitVec 32 := 0#32
  let v66 : BitVec 1 := Scalar.cmpi .ne v65 c0_i32_20
  v66

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

class Facts₀ : Prop where
  inb_S1x1_S1x1_0_0 : ∀ a, (![0, 0] : Fin 2 → Nat) a + S1x1.size a ≤ S1x1.size a
  h_S1x1 : 0 < S1x1.numel
  inb_S4x8192_S4x8192_0_0 : ∀ a, (![0, 0] : Fin 2 → Nat) a + S4x8192.size a ≤ S4x8192.size a
  h_S4x8192 : 0 < S4x8192.numel
  shapeCasts_S4x8192_S4x8192 : S4x8192.ShapeCasts S4x8192
  inb_S4x512_S4x512_0_0 : ∀ a, (![0, 0] : Fin 2 → Nat) a + S4x512.size a ≤ S4x512.size a
  h_S4x512 : 0 < S4x512.numel
  shapeCasts_S4x512_S4x512 : S4x512.ShapeCasts S4x512
  inb_S4x512x2_S4x512x2_0_0_0 : ∀ a, (![0, 0, 0] : Fin 3 → Nat) a + S4x512x2.size a ≤ S4x512x2.size a
  h_S4x512x2 : 0 < S4x512x2.numel
  slices_S4x512x2_o0_0_0_S4x512x1 : S4x512x2.Slices ![0, 0, 0] S4x512x1
  shapeCasts_S4x512x1_S4x512 : S4x512x1.ShapeCasts S4x512
  slices_S4x512x2_o0_0_1_S4x512x1 : S4x512x2.Slices ![0, 0, 1] S4x512x1
  shapeCasts_S4x512_S4x512x1 : S4x512.ShapeCasts S4x512x1
  shapeCasts_S4x512_S4x1x512 : S4x512.ShapeCasts S4x1x512
  broadcasts_S4x512x1_S4x512x512 : S4x512x1.Broadcasts S4x512x512
  broadcasts_S4x1x512_S4x512x512 : S4x1x512.Broadcasts S4x512x512
  reduces_S4x512x512_S4x512 : S4x512x512.Reduces [2] S4x512
  reduces_S4x512x512_S4x512_2 : S4x512x512.Reduces [1] S4x512
  shapeCasts_S1x1_S1x1 : S1x1.ShapeCasts S1x1
  shapeCasts_S4x512_S1x4x512 : S4x512.ShapeCasts S1x4x512
  reduces_S1x4x512_S1 : S1x4x512.Reduces [1, 2] S1
  shapeCasts_S1_S1x1x1 : S1.ShapeCasts S1x1x1
  inpos_S1x1x1_p0_0_0 : ∀ a, (![0, 0, 0] : Fin 3 → Nat) a < S1x1x1.size a
  shapeCasts_S4x8192_S1x4x8192 : S4x8192.ShapeCasts S1x4x8192
  reduces_S1x4x8192_S1 : S1x4x8192.Reduces [1, 2] S1
  shapeCasts_S1x1_S_ : S1x1.ShapeCasts S_
  hrank0 : 0 < grid0.rank
  k0_mult1_dvd : ∀ i : grid0.Coords, 512 ∣ (k0_mult1 i).toNat
  k0_off1_inb : ∀ i : grid0.Coords, ∀ a, (k0_off1 i) a + S4x512.size a ≤ S4x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x2.size a ≤ S4x8192x2.size a
  hwx0_0 : ∀ i : grid0.Coords, EltTy.bits .f32 = 32 ∨ (Rect.block (s := S4x8192x2) S4x512x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x2.size a ≤ S4x8192x2.size a
  hwx0_1 : ∀ i : grid0.Coords, EltTy.bits .f32 = 32 ∨ (Rect.block (s := S4x8192x2) S4x512x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S4x512x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x512x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond1 i == 1#1) && !(k0_cond3 i == 1#1) | 3 => fun i => !(k0_cond4 i == 1#1) | ⟨_ + 4, h⟩ => absurd h (Nat.not_lt.2 (Nat.le_add_left _ _))

class Facts : Prop extends Facts₀ where

variable [Facts]
-- ==== ReferenceIdeal.lean ====
abbrev S4x8192x2 : Shape := ⟨3, ![4, 8192, 2]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 31
  | .vmem => 0
  | .smem => 0
  | _ => 0

abbrev bufTy : (tb : Table) → Fin (tcTables nBuf tb) → BufTy
  | .hbm, ⟨0, _⟩ => ⟨S4x8192x2, .f32⟩
  | .hbm, ⟨1, _⟩ => ⟨S4x8192x2, .f32⟩
  | .hbm, ⟨2, _⟩ => ⟨S4x8192x2, .f32⟩
  | .hbm, ⟨3, _⟩ => ⟨S_, .f32⟩
  | .hbm, ⟨4, _⟩ => ⟨S4x8192, .f32⟩
  | .hbm, ⟨5, _⟩ => ⟨S4x8192x2, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192, .f32⟩
  | .hbm, ⟨20, _⟩ => ⟨S_, .f32⟩
  | .hbm, ⟨21, _⟩ => ⟨S4x8192, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S4x8192x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  reducesTo_S4x8192x2_S4x8192_d2 : S4x8192x2.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S_d0_1 : S4x8192.ReducesTo [0, 1] S_
  dot_S4x8192x2_S4x8192x2_S4x8192x8192_2_2_1_1_0_0_wf : DotDims.WF S4x8192x2 S4x8192x2 S4x8192x8192 [2] [2] [1] [1] [0] [0]

variable [Facts₀]

def dot_S4x8192x2_S4x8192x2_S4x8192x8192_2_2_1_1_0_0 : DotDims S4x8192x2 S4x8192x2 S4x8192x8192 where
  lhsContracting := [2]
  rhsContracting := [2]
  lhsNonContracting := [1]
  rhsNonContracting := [1]
  lhsBatch := [0]
  rhsBatch := [0]
  wf := dot_S4x8192x2_S4x8192x2_S4x8192x8192_2_2_1_1_0_0_wf

class Facts : Prop extends Facts₀ where

variable [Facts]
-- ==== Proof.BodyKernel.Cases.lean ====
/-
  The grid is 16 × 16 and is walked row-major: point t has row coordinate t / 16 (the tile of the first point set)
  and column coordinate t % 16 (the tile of the second point set). The body takes four decisions, each a function
  of the point alone:
    * at the very first point (t = 0) the running sum of row minima is set to zero and the column-minimum
      scratch to +∞;
    * at the first point of every grid row (t % 16 = 0) the row-minimum scratch is set to +∞;
    * at the last point of every grid row (t % 16 = 15) the sum of the row-minimum scratch is added to the
      running sum;
    * at the very last point (t = 255) the sum of the column-minimum scratch is stored as the second result.
  Here each decision is put in closed form over the point's number, and the staging and scratch buffers the body
  is called with are named.
-/
import proofs.«134979_j28595892257476_1_alg».proof.Proof.Gen.Kernel.Frame
import proofs.«134979_j28595892257476_1_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four decisions, in closed form over the point's number -/

/-- "This is the very first point": both coordinates are zero. -/
abbrev isFirst (i : grid0.Coords) : Prop := k0_cond1 i = 1#1
theorem isFirst_iff : ∀ t : Fin cfg0.N, isFirst (grid0.coords t) ↔ t.val % 256 = 0 :=
  (by decide +kernel : ∀ t : Fin grid0.N, isFirst (grid0.coords t) ↔ t.val % 256 = 0)

/-- "This point starts a grid row": the column coordinate is zero. -/
abbrev isRowStart (i : grid0.Coords) : Prop :=
  (Scalar.cmpi .ne (Scalar.extui (Scalar.cmpi .eq (BitVec.ofNat 32 (i 1).val) 0#32)) 0#32) = 1#1
theorem isRowStart_iff : ∀ t : Fin cfg0.N, isRowStart (grid0.coords t) ↔ t.val % 16 = 0 :=
  (by decide +kernel : ∀ t : Fin grid0.N, isRowStart (grid0.coords t) ↔ t.val % 16 = 0)

/-- "This point ends a grid row": the column coordinate is 15. -/
abbrev isRowEnd (i : grid0.Coords) : Prop := k0_cond3 i = 1#1
theorem isRowEnd_iff : ∀ t : Fin cfg0.N, isRowEnd (grid0.coords t) ↔ t.val % 16 = 15 :=
  (by decide +kernel : ∀ t : Fin grid0.N, isRowEnd (grid0.coords t) ↔ t.val % 16 = 15)

/-- "This is the very last point": both coordinates are 15. -/
abbrev isLast (i : grid0.Coords) : Prop := k0_cond4 i = 1#1
theorem isLast_iff : ∀ t : Fin cfg0.N, isLast (grid0.coords t) ↔ t.val % 256 = 255 :=
  (by decide +kernel : ∀ t : Fin grid0.N, isLast (grid0.coords t) ↔ t.val % 256 = 255)

/-! ## Where the windows are live -/

theorem live_pred : ∀ t : Fin cfg0.N, cfg0.idle 0 (grid0.coords t) = false := by decide +kernel
theorem live_gt : ∀ t : Fin cfg0.N, cfg0.idle 1 (grid0.coords t) = false := by decide +kernel
/-- The running-sum window is stored into exactly at the first point and at the row ends. -/
theorem idle_rowSum_iff : ∀ t : Fin cfg0.N, cfg0.idle 2 (grid0.coords t) = true ↔ (t.val % 256 ≠ 0 ∧ t.val % 16 ≠ 15) :=
  (by decide +kernel : ∀ t : Fin grid0.N, cfg0.idle 2 (grid0.coords t) = true ↔ (t.val % 256 ≠ 0 ∧ t.val % 16 ≠ 15))
/-- The second result's window is stored into exactly at the last point. -/
theorem idle_colSum_iff : ∀ t : Fin cfg0.N, cfg0.idle 3 (grid0.coords t) = true ↔ t.val % 256 ≠ 255 :=
  (by decide +kernel : ∀ t : Fin grid0.N, cfg0.idle 3 (grid0.coords t) = true ↔ t.val % 256 ≠ 255)

/-! ## The buffers the body is called with -/

abbrev mPred (t : Fin cfg0.N) : Memref sig .tc .vmem S4x512x2 .f32 := win0_0.stage (cfg0.slots t 0)
abbrev hPred (t : Fin cfg0.N) : (mPred t).IsWhole := hstage0_0 ((cfg0.slots t 0).cast nbuf0_0)
abbrev mGt (t : Fin cfg0.N) : Memref sig .tc .vmem S4x512x2 .f32 := win0_1.stage (cfg0.slots t 1)
abbrev hGt (t : Fin cfg0.N) : (mGt t).IsWhole := hstage0_1 ((cfg0.slots t 1).cast nbuf0_1)
abbrev mRowSum (t : Fin cfg0.N) : Memref sig .tc .vmem S1x1 .f32 := win0_2.stage (cfg0.slots t 2)
abbrev hRowSum (t : Fin cfg0.N) : (mRowSum t).IsWhole := hstage0_2 ((cfg0.slots t 2).cast nbuf0_2)
abbrev mColSum (t : Fin cfg0.N) : Memref sig .tc .vmem S1x1 .f32 := win0_3.stage (cfg0.slots t 3)
abbrev hColSum (t : Fin cfg0.N) : (mColSum t).IsWhole := hstage0_3 ((cfg0.slots t 3).cast nbuf0_3)
/-- The row-minimum scratch (4 × 512) and the column-minimum scratch (4 × 8192). -/
abbrev mRowMin : Memref sig .tc .vmem S4x512 .f32 := Memref.whole cc0_scratch0
abbrev mColMin : Memref sig .tc .vmem S4x8192 .f32 := Memref.whole cc0_scratch1
abbrev vRowMin : View sig .tc .vmem S4x512 .f32 := mRowMin.view
abbrev vColMin : View sig .tc .vmem S4x8192 .f32 := mColMin.view
abbrev vS1 (a : Memref sig .tc .vmem S1x1 .f32) : View sig .tc .vmem S1x1 .f32 := a.view

/-- What the region may use besides its windows: the two scratch buffers at any contents, and the generator register. -/
theorem restAny_eq (c : Dev nD) :
    (Pipeline.ΦA spec0 c : sProp 𝕄)
      = iprop(iprop((∃ d, owns (c : Thread nD τ) mRowMin fullShare d) ∗ (∃ d, owns (c : Thread nD τ) mColMin fullShare d)) ∗ (∃ r, prngReg c r)) := by
  unfold Pipeline.ΦA; rw [scopedRest0_eq]; simp only [mRowMin, mColMin, owns_whole]; try rfl

end Cert.Kernel.Body

end
-- ==== Proof.BodyKernel.RunFirst.lean ====
/-
  The body at the very first point (t = 0). It sets the running sum to zero and the column-minimum scratch to +∞
  (first point), sets the row-minimum scratch to +∞ (a row starts), then folds this tile's distances into both
  scratches. Nothing is added to the running sum and the second result is not touched. What each buffer ends with
  is recorded as the list of pieces the body's stores wrote, last first.
-/
import proofs.«134979_j28595892257476_1_alg».proof.Proof.BodyKernel.Cases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The run at the first point, on any whole buffers: the two input tiles at their contents `x0`, `x1`; the running
    sum, the row-minimum scratch and the column-minimum scratch at anything. It ends with the inputs as they were and
    each of the three written buffers holding its pieces. -/
noncomputable def runFirst (c : Dev nD) (i : grid0.Coords) (arg2 : Memref sig .tc .vmem S4x512x2 .f32) (harg2 : arg2.IsWhole) (arg3 : Memref sig .tc .vmem S4x512x2 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S4x512 .f32) (harg6 : arg6.IsWhole) (arg7 : Memref sig .tc .vmem S4x8192 .f32) (harg7 : arg7.IsWhole) (hc0 : isFirst i) (hc1 : isRowStart i) (hc2 : ¬isRowEnd i) (hc3 : ¬isLast i)
    (x0 : Vec F S4x512x2 .f32) (x1 : Vec F S4x512x2 .f32) :
    Σ' (L4 : List (View.Piece (Elt F) S1x1 .f32)) (L6 : List (View.Piece (Elt F) S4x512 .f32)), { L7 : List (View.Piece (Elt F) S4x8192 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L4) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7)) -∗ K ⟨⟩))
          ⊢ wp frame (wpE (defs₀ (F := F)) Variants.none c none) E (cc0__chamfer_kernel i arg2 harg2 arg3 harg3 arg4 harg4 arg5 harg5 arg6 harg6 arg7 harg7) K } := by
  refine ⟨?_, ?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d4, %f4, -, H4⟩, ⟨%d6, %f6, -, H6⟩, ⟨%d7, %f7, -, H7⟩, Hk⟩
    obtain rfl := harg2.eq_unread hf0; obtain rfl := harg3.eq_unread hf1
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H4]; · iexists _; iexact H4
    isplitl [H6]; · iexists _; iexact H6
    iexists _; iexact H7

end Cert.Kernel.Body

end
-- ==== Proof.BodyKernel.RunRowStart.lean ====
/-
  The body at the first point of a grid row other than the very first point (t % 16 = 0, t ≠ 0). It sets the
  row-minimum scratch to +∞ and folds this tile's distances into it and into the current slice of the
  column-minimum scratch, which keeps what the point before left everywhere else. The running sum and the second
  result are not touched.
-/
import proofs.«134979_j28595892257476_1_alg».proof.Proof.BodyKernel.RunFirst

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The run at a row start: the input tiles at `x0`, `x1`, the row-minimum scratch at anything, the column-minimum scratch at `xs1`. -/
noncomputable def runRowStart (c : Dev nD) (i : grid0.Coords) (arg2 : Memref sig .tc .vmem S4x512x2 .f32) (harg2 : arg2.IsWhole) (arg3 : Memref sig .tc .vmem S4x512x2 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S4x512 .f32) (harg6 : arg6.IsWhole) (arg7 : Memref sig .tc .vmem S4x8192 .f32) (harg7 : arg7.IsWhole) (hc0 : ¬isFirst i) (hc1 : isRowStart i) (hc2 : ¬isRowEnd i) (hc3 : ¬isLast i)
    (x0 : Vec F S4x512x2 .f32) (x1 : Vec F S4x512x2 .f32) (xs1 : Vec F S4x8192 .f32) :
    Σ' (L6 : List (View.Piece (Elt F) S4x512 .f32)), { L7 : List (View.Piece (Elt F) S4x8192 .f32) //
      ∀ (E : Set ℕ) (K : PUnit → sProp 𝕄),
        iprop(owns (c : Thread nD τ) arg2 fullShare x0 ∗ owns (c : Thread nD τ) arg3 fullShare x1 ∗ (∃ d, owns (c : Thread nD τ) arg6 fullShare d) ∗ owns (c : Thread nD τ) arg7 fullShare xs1
            ∗ (iprop(owns (c : Thread nD τ) arg2 fullShare x0 ∗ owns (c : Thread nD τ) arg3 fullShare x1 ∗ (∃ f, arg6.view.loc (c : Thread nD τ) ↦[arg6.view.set]{fullShare} arg6.view.writes (Elt F) f L6) ∗ (arg7.view.loc (c : Thread nD τ) ↦[arg7.view.set]{fullShare} arg7.view.writes (Elt F) (harg7.unread xs1) L7)) -∗ K ⟨⟩))
          ⊢ wp frame (wpE (defs₀ (F := F)) Variants.none c none) E (cc0__chamfer_kernel i arg2 harg2 arg3 harg3 arg4 harg4 arg5 harg5 arg6 harg6 arg7 harg7) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d6, %f6, -, H6⟩, ⟨%f7, %hf7, H7⟩, Hk⟩
    obtain rfl := harg2.eq_unread hf0; obtain rfl := harg3.eq_unread hf1; obtain rfl := harg7.eq_unread hf7
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H6]; · iexists _; iexact H6
    iexact H7

end Cert.Kernel.Body

end
-- ==== Proof.BodyKernel.RunMid.lean ====
/-
  The body at a point strictly inside a grid row (t % 16 ∉ {0, 15}). It folds this tile's distances into the
  row-minimum scratch and into the current slice of the column-minimum scratch; both keep what the point before
  left as the other operand of the minimum. The running sum and the second result are not touched.
-/
import proofs.«134979_j28595892257476_1_alg».proof.Proof.BodyKernel.RunRowStart

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The run inside a row: the input tiles at `x0`, `x1`, the row-minimum scratch at `xs0`, the column-minimum scratch at `xs1`. -/
noncomputable def runMid (c : Dev nD) (i : grid0.Coords) (arg2 : Memref sig .tc .vmem S4x512x2 .f32) (harg2 : arg2.IsWhole) (arg3 : Memref sig .tc .vmem S4x512x2 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S4x512 .f32) (harg6 : arg6.IsWhole) (arg7 : Memref sig .tc .vmem S4x8192 .f32) (harg7 : arg7.IsWhole) (hc0 : ¬isFirst i) (hc1 : ¬isRowStart i) (hc2 : ¬isRowEnd i) (hc3 : ¬isLast i)
    (x0 : Vec F S4x512x2 .f32) (x1 : Vec F S4x512x2 .f32) (xs0 : Vec F S4x512 .f32) (xs1 : Vec F S4x8192 .f32) :
    Σ' (L6 : List (View.Piece (Elt F) S4x512 .f32)), { L7 : List (View.Piece (Elt F) S4x8192 .f32) //
      ∀ (E : Set ℕ) (K : PUnit → sProp 𝕄),
        iprop(owns (c : Thread nD τ) arg2 fullShare x0 ∗ owns (c : Thread nD τ) arg3 fullShare x1 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg6.view.loc (c : Thread nD τ) ↦[arg6.view.set]{fullShare} arg6.view.writes (Elt F) f L6) ∗ (arg7.view.loc (c : Thread nD τ) ↦[arg7.view.set]{fullShare} arg7.view.writes (Elt F) (harg7.unread xs1) L7)) -∗ K ⟨⟩))
          ⊢ wp frame (wpE (defs₀ (F := F)) Variants.none c none) E (cc0__chamfer_kernel i arg2 harg2 arg3 harg3 arg4 harg4 arg5 harg5 arg6 harg6 arg7 harg7) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f6, %hf6, H6⟩, ⟨%f7, %hf7, H7⟩, Hk⟩
    obtain rfl := harg2.eq_unread hf0; obtain rfl := harg3.eq_unread hf1; obtain rfl := harg6.eq_unread hf6; obtain rfl := harg7.eq_unread hf7
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H6]; · iexists _; iexact H6
    iexact H7

end Cert.Kernel.Body

end
-- ==== Proof.BodyKernel.RunRowEnd.lean ====
/-
  The body at the last point of a grid row other than the very last point (t % 16 = 15, t ≠ 255). It folds this
  tile's distances into both scratches as inside a row, and then adds the sum of the row-minimum scratch, now the
  minima of this row of tiles over all columns, to the running sum. The second result is not touched.
-/
import proofs.«134979_j28595892257476_1_alg».proof.Proof.BodyKernel.RunMid

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The run at a row end: the input tiles at `x0`, `x1`, the running sum at `xr`, the row-minimum scratch at `xs0`, the column-minimum scratch at `xs1`. -/
noncomputable def runRowEnd (c : Dev nD) (i : grid0.Coords) (arg2 : Memref sig .tc .vmem S4x512x2 .f32) (harg2 : arg2.IsWhole) (arg3 : Memref sig .tc .vmem S4x512x2 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S4x512 .f32) (harg6 : arg6.IsWhole) (arg7 : Memref sig .tc .vmem S4x8192 .f32) (harg7 : arg7.IsWhole) (hc0 : ¬isFirst i) (hc1 : ¬isRowStart i) (hc2 : isRowEnd i) (hc3 : ¬isLast i)
    (x0 : Vec F S4x512x2 .f32) (x1 : Vec F S4x512x2 .f32) (xr : Vec F S1x1 .f32) (xs0 : Vec F S4x512 .f32) (xs1 : Vec F S4x8192 .f32) :
    Σ' (L4 : List (View.Piece (Elt F) S1x1 .f32)) (L6 : List (View.Piece (Elt F) S4x512 .f32)), { L7 : List (View.Piece (Elt F) S4x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare xr ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L4) ∗ (∃ f, arg6.view.loc (c : Thread nD τ) ↦[arg6.view.set]{fullShare} arg6.view.writes (Elt F) f L6) ∗ (arg7.view.loc (c : Thread nD τ) ↦[arg7.view.set]{fullShare} arg7.view.writes (Elt F) (harg7.unread xs1) L7)) -∗ K ⟨⟩))
          ⊢ wp frame (wpE (defs₀ (F := F)) Variants.none c none) E (cc0__chamfer_kernel i arg2 harg2 arg3 harg3 arg4 harg4 arg5 harg5 arg6 harg6 arg7 harg7) K } := by
  refine ⟨?_, ?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f4, %hf4, H4⟩, ⟨%f6, %hf6, H6⟩, ⟨%f7, %hf7, H7⟩, Hk⟩
    obtain rfl := harg2.eq_unread hf0; obtain rfl := harg3.eq_unread hf1; obtain rfl := harg4.eq_unread hf4; obtain rfl := harg6.eq_unread hf6; obtain rfl := harg7.eq_unread hf7
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H4]; · iexists _; iexact H4
    isplitl [H6]; · iexists _; iexact H6
    iexact H7

end Cert.Kernel.Body

end
-- ==== Proof.BodyKernel.RunLast.lean ====
/-
  The body at the very last point (t = 255). It does what a row end does, and then stores the sum of the
  column-minimum scratch, now the minima over all rows, as the second result.
-/
import proofs.«134979_j28595892257476_1_alg».proof.Proof.BodyKernel.RunRowEnd

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The run at the last point: as at a row end, with the second result's buffer at anything. -/
noncomputable def runLast (c : Dev nD) (i : grid0.Coords) (arg2 : Memref sig .tc .vmem S4x512x2 .f32) (harg2 : arg2.IsWhole) (arg3 : Memref sig .tc .vmem S4x512x2 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S4x512 .f32) (harg6 : arg6.IsWhole) (arg7 : Memref sig .tc .vmem S4x8192 .f32) (harg7 : arg7.IsWhole) (hc0 : ¬isFirst i) (hc1 : ¬isRowStart i) (hc2 : isRowEnd i) (hc3 : isLast i)
    (x0 : Vec F S4x512x2 .f32) (x1 : Vec F S4x512x2 .f32) (xr : Vec F S1x1 .f32) (xs0 : Vec F S4x512 .f32) (xs1 : Vec F S4x8192 .f32) :
    Σ' (L4 : List (View.Piece (Elt F) S1x1 .f32)) (L5 : List (View.Piece (Elt F) S1x1 .f32)) (L6 : List (View.Piece (Elt F) S4x512 .f32)), { L7 : List (View.Piece (Elt F) S4x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare xr ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (arg7.view.loc (c : Thread nD τ) ↦[arg7.view.set]{fullShare} arg7.view.writes (Elt F) (harg7.unread xs1) L7)) -∗ K ⟨⟩))
          ⊢ wp frame (wpE (defs₀ (F := F)) Variants.none c none) E (cc0__chamfer_kernel i arg2 harg2 arg3 harg3 arg4 harg4 arg5 harg5 arg6 harg6 arg7 harg7) K } := by
  refine ⟨?_, ?_, ?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f4, %hf4, H4⟩, ⟨%d5, %f5, -, H5⟩, ⟨%f6, %hf6, H6⟩, ⟨%f7, %hf7, H7⟩, Hk⟩
    obtain rfl := harg2.eq_unread hf0; obtain rfl := harg3.eq_unread hf1; obtain rfl := harg4.eq_unread hf4; obtain rfl := harg6.eq_unread hf6; obtain rfl := harg7.eq_unread hf7
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H4]; · iexists _; iexact H4
    isplitl [H5]; · iexists _; iexact H5
    isplitl [H6]; · iexists _; iexact H6
    iexact H7

end Cert.Kernel.Body

end
-- ==== Proof.BodyKernel.After.lean ====
/-
  What the body's four written buffers hold after each grid point.

  Three of them are carried from point to point: the running sum of row minima (one number), the row-minimum
  scratch (4 × 512: for each batch and each row of the current row tile, the least distance seen so far in this
  grid row) and the column-minimum scratch (4 × 8192: for each batch and each column, the least distance seen so
  far over all row tiles). After the first point they are what the first point's stores left; after a later
  point, what that point's stores left over what the point before left:
    * a row start resets the row minima and keeps the running sum,
    * a point inside a row keeps the running sum,
    * a row end adds the row minima's sum to the running sum,
    * the last point is a row end that also stores the column minima's sum as the second result.
  Each point's contribution is read off the pieces its run wrote: a buffer stored whole holds the store's
  payload; the column-minimum scratch, stored one slice of 512 columns at a time, holds the slice over what it
  held before.
-/
import proofs.«134979_j28595892257476_1_alg».proof.Proof.BodyKernel.RunLast

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## From the point's number to the body's decisions -/

theorem lt256 (t : Fin cfg0.N) : t.val < 256 := lt_of_lt_of_eq t.isLt (show cfg0.N = 256 from N_0)
theorem first_of (t : Fin cfg0.N) (h : t.val = 0) : isFirst (grid0.coords t) := (isFirst_iff t).mpr (by omega)
theorem notFirst_of (t : Fin cfg0.N) (h : t.val ≠ 0) : ¬isFirst (grid0.coords t) :=
  fun hf => by have h1 := (isFirst_iff t).mp hf; have h2 := lt256 t; omega
theorem last_of (t : Fin cfg0.N) (h : t.val = 255) : isLast (grid0.coords t) := (isLast_iff t).mpr (by omega)
theorem notLast_of (t : Fin cfg0.N) (h : t.val ≠ 255) : ¬isLast (grid0.coords t) :=
  fun hf => by have h1 := (isLast_iff t).mp hf; have h2 := lt256 t; omega
theorem rowStart_of (t : Fin cfg0.N) (h : t.val % 16 = 0) : isRowStart (grid0.coords t) := (isRowStart_iff t).mpr h
theorem notRowStart_of (t : Fin cfg0.N) (h : ¬t.val % 16 = 0) : ¬isRowStart (grid0.coords t) := fun hf => h ((isRowStart_iff t).mp hf)
theorem rowEnd_of (t : Fin cfg0.N) (h : t.val % 16 = 15) : isRowEnd (grid0.coords t) := (isRowEnd_iff t).mpr h
theorem notRowEnd_of (t : Fin cfg0.N) (h : ¬t.val % 16 = 15) : ¬isRowEnd (grid0.coords t) := fun hf => h ((isRowEnd_iff t).mp hf)

/-! ## The carried contents -/

/-- The running sum, the row minima and the column minima. -/
structure Carried (F : FTy → Type) [FloatOps F] where
  rowSum : Vec F S1x1 .f32
  rowMin : Vec F S4x512 .f32
  colMin : Vec F S4x8192 .f32

/-- The column-minimum scratch after a slice store over what it held. -/
abbrev colMinOver (prev : Vec F S4x8192 .f32) (L : List (View.Piece (Elt F) S4x8192 .f32)) : Vec F S4x8192 .f32 :=
  vColMin.read (Elt F) (vColMin.writes (Elt F) ((Memref.isWhole_whole cc0_scratch1).unread prev) L)

/-! ### The first point -/

abbrev firstRun (c : Dev nD) (t : Fin cfg0.N) (h0 : t.val = 0) :=
  runFirst (F := F) c (grid0.coords t) (mPred t) (hPred t) (mGt t) (hGt t) (mRowSum t) (hRowSum t) (mColSum t) (hColSum t) mRowMin (Memref.isWhole_whole _) mColMin (Memref.isWhole_whole _)
    (first_of t h0) (rowStart_of t (by omega)) (notRowEnd_of t (by omega)) (notLast_of t (by omega)) (iblk m c 0 t) (iblk m c 1 t)

def afterFirst (c : Dev nD) (t : Fin cfg0.N) (h0 : t.val = 0) : Carried F :=
  ⟨View.canon (firstRun m c t h0).1, View.canon (firstRun m c t h0).2.1, View.canon (firstRun m c t h0).2.2.1⟩

theorem cover_first_rowSum (c : Dev nD) (t : Fin cfg0.N) (h0 : t.val = 0) (y : S1x1.Idx) : ∃ pc ∈ (firstRun m c t h0).1, y ∈ pc.1.set :=
  View.cover_of_tiledL _ S1x1.size (by sl_kernel_rfl) y
theorem cover_first_rowMin (c : Dev nD) (t : Fin cfg0.N) (h0 : t.val = 0) (y : S4x512.Idx) : ∃ pc ∈ (firstRun m c t h0).2.1, y ∈ pc.1.set :=
  View.cover_of_tiledL _ S4x512.size (by sl_kernel_rfl) y
theorem cover_first_colMin (c : Dev nD) (t : Fin cfg0.N) (h0 : t.val = 0) (y : S4x8192.Idx) : ∃ pc ∈ (firstRun m c t h0).2.2.1, y ∈ pc.1.set :=
  View.cover_of_wholeMem _ (by sl_whole_mem) y

/-! ### A row start -/

abbrev rowStartRun (c : Dev nD) (t : Fin cfg0.N) (h1 : t.val % 16 = 0) (hpos : t.val ≠ 0) (cm : Vec F S4x8192 .f32) :=
  runRowStart (F := F) c (grid0.coords t) (mPred t) (hPred t) (mGt t) (hGt t) (mRowSum t) (hRowSum t) (mColSum t) (hColSum t) mRowMin (Memref.isWhole_whole _) mColMin (Memref.isWhole_whole _)
    (notFirst_of t hpos) (rowStart_of t h1) (notRowEnd_of t (by omega)) (notLast_of t (by omega)) (iblk m c 0 t) (iblk m c 1 t) cm

def afterRowStart (c : Dev nD) (t : Fin cfg0.N) (h1 : t.val % 16 = 0) (hpos : t.val ≠ 0) (p : Carried F) : Carried F :=
  ⟨p.rowSum, View.canon (rowStartRun m c t h1 hpos p.colMin).1, colMinOver p.colMin (rowStartRun m c t h1 hpos p.colMin).2.1⟩

theorem cover_rowStart_rowMin (c : Dev nD) (t : Fin cfg0.N) (h1 : t.val % 16 = 0) (hpos : t.val ≠ 0) (cm : Vec F S4x8192 .f32) (y : S4x512.Idx) :
    ∃ pc ∈ (rowStartRun m c t h1 hpos cm).1, y ∈ pc.1.set :=
  View.cover_of_tiledL _ S4x512.size (by sl_kernel_rfl) y

/-! ### Inside a row -/

abbrev midRun (c : Dev nD) (t : Fin cfg0.N) (h1 : ¬t.val % 16 = 0) (h2 : ¬t.val % 16 = 15) (rm : Vec F S4x512 .f32) (cm : Vec F S4x8192 .f32) :=
  runMid (F := F) c (grid0.coords t) (mPred t) (hPred t) (mGt t) (hGt t) (mRowSum t) (hRowSum t) (mColSum t) (hColSum t) mRowMin (Memref.isWhole_whole _) mColMin (Memref.isWhole_whole _)
    (notFirst_of t (by omega)) (notRowStart_of t h1) (notRowEnd_of t h2) (notLast_of t (by omega)) (iblk m c 0 t) (iblk m c 1 t) rm cm

def afterMid (c : Dev nD) (t : Fin cfg0.N) (h1 : ¬t.val % 16 = 0) (h2 : ¬t.val % 16 = 15) (p : Carried F) : Carried F :=
  ⟨p.rowSum, View.canon (midRun m c t h1 h2 p.rowMin p.colMin).1, colMinOver p.colMin (midRun m c t h1 h2 p.rowMin p.colMin).2.1⟩

theorem cover_mid_rowMin (c : Dev nD) (t : Fin cfg0.N) (h1 : ¬t.val % 16 = 0) (h2 : ¬t.val % 16 = 15) (rm : Vec F S4x512 .f32) (cm : Vec F S4x8192 .f32) (y : S4x512.Idx) :
    ∃ pc ∈ (midRun m c t h1 h2 rm cm).1, y ∈ pc.1.set :=
  View.cover_of_tiledL _ S4x512.size (by sl_kernel_rfl) y

/-! ### A row end -/

abbrev rowEndRun (c : Dev nD) (t : Fin cfg0.N) (h2 : t.val % 16 = 15) (h3 : t.val ≠ 255) (rs : Vec F S1x1 .f32) (rm : Vec F S4x512 .f32) (cm : Vec F S4x8192 .f32) :=
  runRowEnd (F := F) c (grid0.coords t) (mPred t) (hPred t) (mGt t) (hGt t) (mRowSum t) (hRowSum t) (mColSum t) (hColSum t) mRowMin (Memref.isWhole_whole _) mColMin (Memref.isWhole_whole _)
    (notFirst_of t (by omega)) (notRowStart_of t (by omega)) (rowEnd_of t h2) (notLast_of t h3) (iblk m c 0 t) (iblk m c 1 t) rs rm cm

def afterRowEnd (c : Dev nD) (t : Fin cfg0.N) (h2 : t.val % 16 = 15) (h3 : t.val ≠ 255) (p : Carried F) : Carried F :=
  ⟨View.canon (rowEndRun m c t h2 h3 p.rowSum p.rowMin p.colMin).1, View.canon (rowEndRun m c t h2 h3 p.rowSum p.rowMin p.colMin).2.1,
    colMinOver p.colMin (rowEndRun m c t h2 h3 p.rowSum p.rowMin p.colMin).2.2.1⟩

theorem cover_rowEnd_rowSum (c : Dev nD) (t : Fin cfg0.N) (h2 : t.val % 16 = 15) (h3 : t.val ≠ 255) (rs : Vec F S1x1 .f32) (rm : Vec F S4x512 .f32) (cm : Vec F S4x8192 .f32) (y : S1x1.Idx) :
    ∃ pc ∈ (rowEndRun m c t h2 h3 rs rm cm).1, y ∈ pc.1.set :=
  View.cover_of_tiledL _ S1x1.size (by sl_kernel_rfl) y
theorem cover_rowEnd_rowMin (c : Dev nD) (t : Fin cfg0.N) (h2 : t.val % 16 = 15) (h3 : t.val ≠ 255) (rs : Vec F S1x1 .f32) (rm : Vec F S4x512 .f32) (cm : Vec F S4x8192 .f32) (y : S4x512.Idx) :
    ∃ pc ∈ (rowEndRun m c t h2 h3 rs rm cm).2.1, y ∈ pc.1.set :=
  View.cover_of_tiledL _ S4x512.size (by sl_kernel_rfl) y

/-! ### The last point -/

abbrev lastRun (c : Dev nD) (t : Fin cfg0.N) (h3 : t.val = 255) (rs : Vec F S1x1 .f32) (rm : Vec F S4x512 .f32) (cm : Vec F S4x8192 .f32) :=
  runLast (F := F) c (grid0.coords t) (mPred t) (hPred t) (mGt t) (hGt t) (mRowSum t) (hRowSum t) (mColSum t) (hColSum t) mRowMin (Memref.isWhole_whole _) mColMin (Memref.isWhole_whole _)
    (notFirst_of t (by omega)) (notRowStart_of t (by omega)) (rowEnd_of t (by omega)) (last_of t h3) (iblk m c 0 t) (iblk m c 1 t) rs rm cm

def afterLast (c : Dev nD) (t : Fin cfg0.N) (h3 : t.val = 255) (p : Carried F) : Carried F :=
  ⟨View.canon (lastRun m c t h3 p.rowSum p.rowMin p.colMin).1, View.canon (lastRun m c t h3 p.rowSum p.rowMin p.colMin).2.2.1,
    colMinOver p.colMin (lastRun m c t h3 p.rowSum p.rowMin p.colMin).2.2.2.1⟩

/-- The second result, stored at the last point. -/
def lastColSum (c : Dev nD) (t : Fin cfg0.N) (h3 : t.val = 255) (p : Carried F) : Vec F S1x1 .f32 :=
  View.canon (lastRun m c t h3 p.rowSum p.rowMin p.colMin).2.1

theorem cover_last_rowSum (c : Dev nD) (t : Fin cfg0.N) (h3 : t.val = 255) (rs : Vec F S1x1 .f32) (rm : Vec F S4x512 .f32) (cm : Vec F S4x8192 .f32) (y : S1x1.Idx) :
    ∃ pc ∈ (lastRun m c t h3 rs rm cm).1, y ∈ pc.1.set :=
  View.cover_of_tiledL _ S1x1.size (by sl_kernel_rfl) y
theorem cover_last_colSum (c : Dev nD) (t : Fin cfg0.N) (h3 : t.val = 255) (rs : Vec F S1x1 .f32) (rm : Vec F S4x512 .f32) (cm : Vec F S4x8192 .f32) (y : S1x1.Idx) :
    ∃ pc ∈ (lastRun m c t h3 rs rm cm).2.1, y ∈ pc.1.set :=
  View.cover_of_tiledL _ S1x1.size (by sl_kernel_rfl) y
theorem cover_last_rowMin (c : Dev nD) (t : Fin cfg0.N) (h3 : t.val = 255) (rs : Vec F S1x1 .f32) (rm : Vec F S4x512 .f32) (cm : Vec F S4x8192 .f32) (y : S4x512.Idx) :
    ∃ pc ∈ (lastRun m c t h3 rs rm cm).2.2.1, y ∈ pc.1.set :=
  View.cover_of_tiledL _ S4x512.size (by sl_kernel_rfl) y

/-! ## The recursion over the points -/

/-- What is carried after point `n`. -/
def carriedAt (c : Dev nD) : (n : ℕ) → n < cfg0.N → Carried F
  | 0, hn => afterFirst m c ⟨0, hn⟩ rfl
  | n + 1, hn =>
    if h1 : (n + 1) % 16 = 0 then afterRowStart m c ⟨n + 1, hn⟩ h1 (Nat.succ_ne_zero n) (carriedAt c n (Nat.lt_of_succ_lt hn))
    else if h2 : (n + 1) % 16 = 15 then
      if h3 : n + 1 = 255 then afterLast m c ⟨n + 1, hn⟩ h3 (carriedAt c n (Nat.lt_of_succ_lt hn))
      else afterRowEnd m c ⟨n + 1, hn⟩ h2 h3 (carriedAt c n (Nat.lt_of_succ_lt hn))
    else afterMid m c ⟨n + 1, hn⟩ h1 h2 (carriedAt c n (Nat.lt_of_succ_lt hn))

/-- What was carried into point `t` (for `t` not the first point). -/
abbrev carriedBefore (c : Dev nD) (t : Fin cfg0.N) : Carried F :=
  carriedAt m c (t.val - 1) (Nat.lt_of_le_of_lt (Nat.sub_le _ _) t.isLt)

theorem carriedAt_first (c : Dev nD) (t : Fin cfg0.N) (h0 : t.val = 0) : carriedAt m c t.val t.isLt = afterFirst m c t h0 := by
  obtain ⟨n, hn⟩ := t
  dsimp only at h0
  cases n with
  | zero => rfl
  | succ n => exact absurd h0 (Nat.succ_ne_zero n)

theorem carriedAt_rowStart (c : Dev nD) (t : Fin cfg0.N) (h1 : t.val % 16 = 0) (hpos : t.val ≠ 0) :
    carriedAt m c t.val t.isLt = afterRowStart m c t h1 hpos (carriedBefore m c t) := by
  obtain ⟨n, hn⟩ := t
  dsimp only at h1 hpos
  cases n with
  | zero => exact absurd rfl hpos
  | succ n => exact dif_pos h1

theorem carriedAt_mid (c : Dev nD) (t : Fin cfg0.N) (h1 : ¬t.val % 16 = 0) (h2 : ¬t.val % 16 = 15) :
    carriedAt m c t.val t.isLt = afterMid m c t h1 h2 (carriedBefore m c t) := by
  obtain ⟨n, hn⟩ := t
  dsimp only at h1 h2
  cases n with
  | zero => exact absurd (Nat.zero_mod _) h1
  | succ n => exact (dif_neg h1).trans (dif_neg h2)

theorem carriedAt_rowEnd (c : Dev nD) (t : Fin cfg0.N) (h2 : t.val % 16 = 15) (h3 : t.val ≠ 255) :
    carriedAt m c t.val t.isLt = afterRowEnd m c t h2 h3 (carriedBefore m c t) := by
  obtain ⟨n, hn⟩ := t
  dsimp only at h2 h3
  cases n with
  | zero => omega
  | succ n => exact (dif_neg (by omega)).trans ((dif_pos h2).trans (dif_neg h3))

theorem carriedAt_last (c : Dev nD) (t : Fin cfg0.N) (h3 : t.val = 255) :
    carriedAt m c t.val t.isLt = afterLast m c t h3 (carriedBefore m c t) := by
  obtain ⟨n, hn⟩ := t
  dsimp only at h3
  cases n with
  | zero => omega
  | succ n => exact (dif_neg (by omega)).trans ((dif_pos (by omega)).trans (dif_pos h3))

/-- The running sum changes only at the first point and at row ends. -/
theorem carriedAt_rowSum_kept (c : Dev nD) (t : Fin cfg0.N) (hpos : t.val ≠ 0) (h2 : ¬t.val % 16 = 15) :
    (carriedAt m c t.val t.isLt).rowSum = (carriedBefore m c t).rowSum := by
  by_cases h1 : t.val % 16 = 0
  · rw [carriedAt_rowStart m c t h1 hpos]; rfl
  · rw [carriedAt_mid m c t h1 h2]; rfl

end Cert.Kernel.Body

end
-- ==== Proof.BodyKernel.Data.lean ====
/-
  The region's proof data. The arrays are the arguments as the region finds them. After the body at point t the two
  input windows hold their tiles, the first result's window holds the running sum after t, and the second result's
  window holds, at the last point, the column minima's sum. Between points the row-minimum and column-minimum
  scratches hold what was carried after the point before; before the first point they hold anything.

  The first result's window is stored into only at the first point and at row ends, and is written back only at
  the last point. So when the body runs at a later point the window's buffer still holds the running sum carried
  into that point: through a stretch of points that leave it alone nothing changes it, and after a point that
  stores into it, it holds what that point stored.
-/
import proofs.«134979_j28595892257476_1_alg».proof.Proof.BodyKernel.After

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The invariant before point `n`: before the first point the scratches hold anything; afterwards what was carried
    after the point before. The generator register holds some state throughout. -/
def restAt (c : Dev nD) : (n : ℕ) → n ≤ cfg0.N → sProp 𝕄
  | 0, _ => Pipeline.ΦA spec0 c
  | n + 1, hn => iprop(iprop(owns (c : Thread nD τ) mRowMin fullShare (carriedAt m c n hn).rowMin ∗ owns (c : Thread nD τ) mColMin fullShare (carriedAt m c n hn).colMin) ∗ (∃ r, prngReg c r))

theorem restAt_zero (c : Dev nD) (n : ℕ) (h : n ≤ cfg0.N) (hz : n = 0) : restAt m c n h = Pipeline.ΦA spec0 c := by
  subst hz; rfl

theorem restAt_succ (c : Dev nD) (n : ℕ) (hn : n < cfg0.N) :
    restAt m c (n + 1) hn = iprop(iprop(owns (c : Thread nD τ) mRowMin fullShare (carriedAt m c n hn).rowMin ∗ owns (c : Thread nD τ) mColMin fullShare (carriedAt m c n hn).colMin) ∗ (∃ r, prngReg c r)) := rfl

theorem restAt_pos (c : Dev nD) (n : ℕ) (h : n ≤ cfg0.N) (hz : n ≠ 0) :
    restAt m c n h = iprop(iprop(owns (c : Thread nD τ) mRowMin fullShare (carriedAt m c (n - 1) (by omega)).rowMin ∗ owns (c : Thread nD τ) mColMin fullShare (carriedAt m c (n - 1) (by omega)).colMin) ∗ (∃ r, prngReg c r)) := by
  cases n with
  | zero => exact absurd rfl hz
  | succ n => rfl

/-- The proof data of the one region on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (carriedAt m c t.val t.isLt).rowSum
    | ⟨3, h⟩ => if h3 : t.val = 255 then lastColSum m c t h3 (carriedBefore m c t) else Pipeline.Dat.unnamed (cfg := cfg0) ⟨3, h⟩ t
  Φ t := restAt m c t.val (Nat.le_of_lt_succ t.isLt)
  q _ := fullShare
  owed _ := 0

theorem A_eq (c : Dev nD) (w : Fin cfg0.W) : (dats m 0 c).A w = V m c (Pipeline.arrRef spec0 w) := by
  dsimp only [dats]

theorem rest_castSucc (c : Dev nD) (t : Fin cfg0.N) :
    (dats m 0 c).Φ t.castSucc = restAt m c t.val (Nat.le_of_lt t.isLt) := by
  dsimp only [dats]; simp only [Fin.coe_castSucc]

theorem after_pred (c : Dev nD) (t : Fin cfg0.N) : (dats m 0 c).after 0 t = iblk m c 0 t := by dsimp only [dats]
theorem after_gt (c : Dev nD) (t : Fin cfg0.N) : (dats m 0 c).after 1 t = iblk m c 1 t := by dsimp only [dats]
theorem after_rowSum (c : Dev nD) (t : Fin cfg0.N) : (dats m 0 c).after 2 t = (carriedAt m c t.val t.isLt).rowSum := by dsimp only [dats]
theorem after_colSum (c : Dev nD) (t : Fin cfg0.N) (h3 : t.val = 255) :
    (dats m 0 c).after 3 t = lastColSum m c t h3 (carriedBefore m c t) := by
  dsimp only [dats]; exact dif_pos h3

/-- Each input's buffer holds its tile at every point, fetched there or not. -/
theorem before_pred (c : Dev nD) (t : Fin cfg0.N) (d) : (dats m 0 c).before 0 t d = iblk m c 0 t :=
  before0_0_of m (dats m 0 c) (A_eq m c 0) (after_pred m c) t d
theorem before_gt (c : Dev nD) (t : Fin cfg0.N) (d) : (dats m 0 c).before 1 t d = iblk m c 1 t :=
  before0_1_of m (dats m 0 c) (A_eq m c 1) (after_gt m c) t d

/-- A point that stores into the first result's window leaves there, for the next point, all of what it stored. -/
theorem kept_rowSum (c : Dev nD) (t : Fin cfg0.N) (d) : (dats m 0 c).kept 2 t d = (carriedAt m c t.val t.isLt).rowSum := by
  unfold Dat.kept
  rw [Pipeline.fill_of_clip_none (cfg := cfg0) 2 _ (fun _ => rfl) d ((dats m 0 c).after 2 t), Window.fill_cut]
  exact after_rowSum m c t

/-- When the body runs at a point other than the first, the first result's window holds the running sum carried into
    that point. -/
theorem before_rowSum (c : Dev nD) (t : Fin cfg0.N) (hpos : t.val ≠ 0) (d) :
    (dats m 0 c).before 2 t d = (carriedBefore m c t).rowSum := by
  obtain ⟨n, hn⟩ := t
  induction n with
  | zero => exact absurd rfl hpos
  | succ k ih =>
    have hk : k < cfg0.N := Nat.lt_of_succ_lt hn
    have hk255 : k < 255 := by have := lt256 ⟨k + 1, hn⟩; dsimp only at this; omega
    rw [(dats m 0 c).before_of_pos 2 ⟨k + 1, hn⟩ hpos ((cfg0.win 2).fetch_out rfl _)]
    rw [if_neg (fun hf => by have := (flush0_2 ⟨k, hk⟩).mp hf; dsimp only at this; omega)]
    show (dats m 0 c).left 2 ⟨k, hk⟩ d = (carriedAt m c k hk).rowSum
    unfold Dat.left
    cases hi : cfg0.idle 2 (grid0.coords ⟨k, hk⟩) with
    | true =>
      obtain ⟨h0, h15⟩ := (idle_rowSum_iff ⟨k, hk⟩).mp hi
      have hk0 : k ≠ 0 := by intro h; subst h; exact h0 rfl
      show (dats m 0 c).before 2 ⟨k, hk⟩ d = _
      rw [ih hk hk0]
      exact (carriedAt_rowSum_kept m c ⟨k, hk⟩ hk0 h15).symm
    | false =>
      show (dats m 0 c).kept 2 ⟨k, hk⟩ d = _
      exact kept_rowSum m c ⟨k, hk⟩ d

end Cert.Kernel.Body

end
-- ==== Proof.BodyKernel.Sound.lean ====
/-
  The body's obligation at every grid point, and the region's run with every array named.

  At a point the body is handed the invariant (the two scratches at what was carried in), the two input tiles, and
  the two result windows' buffers. Which of the five runs applies is decided by the point's number; each run hands
  back the scratches at what is carried out, the input tiles untouched, and the result windows either stored into
  (the first point and the row ends for the running sum; the last point for the second result) or exactly as they
  were found. After the last point both result windows are written back, so the first result array ends at the
  running sum after point 255 and the second at the column minima's sum.
-/
import proofs.«134979_j28595892257476_1_alg».proof.Proof.BodyKernel.Data

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (mPred t) fullShare ((dats m 0 c).before 0 t d))
    ∗ (∃ d, owns (c : Thread nD τ) (mGt t) fullShare ((dats m 0 c).before 1 t d))
    ∗ (∃ d, owns (c : Thread nD τ) (mRowSum t) fullShare ((dats m 0 c).before 2 t d))
    ∗ (∃ d, owns (c : Thread nD τ) (mColSum t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_pred, before_gt]
  rw [show (dats m 0 c).owesAt () t.succ = (dats m 0 c).owesAt () t.castSucc from rfl]
  rw [show (dats m 0 c).Φ t.succ = restAt m c (t.val + 1) t.isLt from rfl, restAt_succ]
  rw [show (dats m 0 c).leavesExact 0 t = owns (c : Thread nD τ) (mPred t) fullShare ((dats m 0 c).after 0 t) from by
      unfold Dat.leavesExact; rw [live_pred t], after_pred]
  rw [show (dats m 0 c).leavesExact 1 t = owns (c : Thread nD τ) (mGt t) fullShare ((dats m 0 c).after 1 t) from by
      unfold Dat.leavesExact; rw [live_gt t], after_gt]
  have hN := lt256 t
  by_cases h0 : t.val = 0
  · -- the first point
    rw [show (dats m 0 c).leavesExact 2 t = owns (c : Thread nD τ) (mRowSum t) fullShare ((dats m 0 c).after 2 t) from by
                unfold Dat.leavesExact; rw [show cfg0.idle 2 (grid0.coords t) = false from Bool.eq_false_iff.mpr (fun h => by have := (idle_rowSum_iff t).mp h; omega)], after_rowSum]
    rw [(dats m 0 c).leavesExact_idle 3 t ((idle_colSum_iff t).mpr (by omega)) (Bool.eq_false_iff.mpr (fun h => by have := (flush0_3 t).mp h; omega))]
    rw [carriedAt_first m c t h0]
    unfold afterFirst; dsimp only
    rw [rest_castSucc m c t, restAt_zero m c _ _ h0, restAny_eq]
    iintro ⟨⟨⟨HS0, HS1⟩, Hg⟩, Ho, ⟨%d0, H0⟩, ⟨%d1, H1⟩, ⟨%d2, H2⟩, ⟨%d3, H3⟩⟩
    iapply ((firstRun m c t h0).2.2.2 Set.univ _)
    isplitl [H0]; · iexact H0
    isplitl [H1]; · iexact H1
    isplitl [H2]; · iexists _; iexact H2
    isplitl [HS0]; · iexact HS0
    isplitl [HS1]; · iexact HS1
    iintro ⟨H0, H1, ⟨%e4, H4⟩, ⟨%e6, H6⟩, ⟨%e7, H7⟩⟩
    isplitl [H6 H7 Hg]
    · isplitl [H6 H7]
      · isplitl [H6]
        · unfold owns; iexists _; isplitr
          swap; · iexact H6
          ipureintro; exact View.read_writes_eq_canon _ _ _ (cover_first_rowMin m c t h0)
        unfold owns; iexists _; isplitr
        swap; · iexact H7
        ipureintro; exact View.read_writes_eq_canon _ _ _ (cover_first_colMin m c t h0)
      iexact Hg
    isplitl [Ho]; · iexact Ho
    isplitl [H0]; · iexact H0
    isplitl [H1]; · iexact H1
    isplitl [H4]
    · unfold owns; iexists _; isplitr
      swap; · iexact H4
      ipureintro; exact View.read_writes_eq_canon _ _ _ (cover_first_rowSum m c t h0)
    iexists _; iexact H3
  · by_cases h1 : t.val % 16 = 0
    · -- a row start
      rw [(dats m 0 c).leavesExact_idle 2 t ((idle_rowSum_iff t).mpr ⟨by omega, by omega⟩) (Bool.eq_false_iff.mpr (fun h => by have := (flush0_2 t).mp h; omega))]
      rw [(dats m 0 c).leavesExact_idle 3 t ((idle_colSum_iff t).mpr (by omega)) (Bool.eq_false_iff.mpr (fun h => by have := (flush0_3 t).mp h; omega))]
      rw [carriedAt_rowStart m c t h1 h0]
      unfold afterRowStart; dsimp only
      rw [rest_castSucc m c t, restAt_pos m c _ _ h0]
      iintro ⟨⟨⟨HS0, HS1⟩, Hg⟩, Ho, ⟨%d0, H0⟩, ⟨%d1, H1⟩, ⟨%d2, H2⟩, ⟨%d3, H3⟩⟩
      iapply ((rowStartRun m c t h1 h0 (carriedBefore m c t).colMin).2.2 Set.univ _)
      isplitl [H0]; · iexact H0
      isplitl [H1]; · iexact H1
      isplitl [HS0]; · iexists _; iexact HS0
      isplitl [HS1]; · iexact HS1
      iintro ⟨H0, H1, ⟨%e6, H6⟩, H7⟩
      isplitl [H6 H7 Hg]
      · isplitl [H6 H7]
        · isplitl [H6]
          · unfold owns; iexists _; isplitr
            swap; · iexact H6
            ipureintro; exact View.read_writes_eq_canon _ _ _ (cover_rowStart_rowMin m c t h1 h0 (carriedBefore m c t).colMin)
          unfold owns; iexists _; isplitr
          swap; · iexact H7
          ipureintro; rfl
        iexact Hg
      isplitl [Ho]; · iexact Ho
      isplitl [H0]; · iexact H0
      isplitl [H1]; · iexact H1
      isplitl [H2]; · iexists _; iexact H2
      iexists _; iexact H3
    · by_cases h2 : t.val % 16 = 15
      · by_cases h3 : t.val = 255
        · -- the last point
          rw [show (dats m 0 c).leavesExact 2 t = owns (c : Thread nD τ) (mRowSum t) fullShare ((dats m 0 c).after 2 t) from by
                      unfold Dat.leavesExact; rw [show cfg0.idle 2 (grid0.coords t) = false from Bool.eq_false_iff.mpr (fun h => by have := (idle_rowSum_iff t).mp h; omega)], after_rowSum]
          rw [show (dats m 0 c).leavesExact 3 t = owns (c : Thread nD τ) (mColSum t) fullShare ((dats m 0 c).after 3 t) from by
                      unfold Dat.leavesExact; rw [show cfg0.idle 3 (grid0.coords t) = false from Bool.eq_false_iff.mpr (fun h => by have := (idle_colSum_iff t).mp h; omega)], after_colSum m c t h3]
          rw [carriedAt_last m c t h3]
          unfold afterLast lastColSum; dsimp only
          rw [rest_castSucc m c t, restAt_pos m c _ _ h0]
          simp only [before_rowSum m c t h0]
          iintro ⟨⟨⟨HS0, HS1⟩, Hg⟩, Ho, ⟨%d0, H0⟩, ⟨%d1, H1⟩, ⟨%d2, H2⟩, ⟨%d3, H3⟩⟩
          iapply ((lastRun m c t h3 (carriedBefore m c t).rowSum (carriedBefore m c t).rowMin (carriedBefore m c t).colMin).2.2.2.2 Set.univ _)
          isplitl [H0]; · iexact H0
          isplitl [H1]; · iexact H1
          isplitl [H2]; · iexact H2
          isplitl [H3]; · iexists _; iexact H3
          isplitl [HS0]; · iexact HS0
          isplitl [HS1]; · iexact HS1
          iintro ⟨H0, H1, ⟨%e4, H4⟩, ⟨%e5, H5⟩, ⟨%e6, H6⟩, H7⟩
          isplitl [H6 H7 Hg]
          · isplitl [H6 H7]
            · isplitl [H6]
              · unfold owns; iexists _; isplitr
                swap; · iexact H6
                ipureintro; exact View.read_writes_eq_canon _ _ _ (cover_last_rowMin m c t h3 (carriedBefore m c t).rowSum (carriedBefore m c t).rowMin (carriedBefore m c t).colMin)
              unfold owns; iexists _; isplitr
              swap; · iexact H7
              ipureintro; rfl
            iexact Hg
          isplitl [Ho]; · iexact Ho
          isplitl [H0]; · iexact H0
          isplitl [H1]; · iexact H1
          isplitl [H4]
          · unfold owns; iexists _; isplitr
            swap; · iexact H4
            ipureintro; exact View.read_writes_eq_canon _ _ _ (cover_last_rowSum m c t h3 (carriedBefore m c t).rowSum (carriedBefore m c t).rowMin (carriedBefore m c t).colMin)
          unfold owns; iexists _; isplitr
          swap; · iexact H5
          ipureintro; exact View.read_writes_eq_canon _ _ _ (cover_last_colSum m c t h3 (carriedBefore m c t).rowSum (carriedBefore m c t).rowMin (carriedBefore m c t).colMin)
        · -- a row end
          rw [show (dats m 0 c).leavesExact 2 t = owns (c : Thread nD τ) (mRowSum t) fullShare ((dats m 0 c).after 2 t) from by
                      unfold Dat.leavesExact; rw [show cfg0.idle 2 (grid0.coords t) = false from Bool.eq_false_iff.mpr (fun h => by have := (idle_rowSum_iff t).mp h; omega)], after_rowSum]
          rw [(dats m 0 c).leavesExact_idle 3 t ((idle_colSum_iff t).mpr (by omega)) (Bool.eq_false_iff.mpr (fun h => by have := (flush0_3 t).mp h; omega))]
          rw [carriedAt_rowEnd m c t h2 h3]
          unfold afterRowEnd; dsimp only
          rw [rest_castSucc m c t, restAt_pos m c _ _ h0]
          simp only [before_rowSum m c t h0]
          iintro ⟨⟨⟨HS0, HS1⟩, Hg⟩, Ho, ⟨%d0, H0⟩, ⟨%d1, H1⟩, ⟨%d2, H2⟩, ⟨%d3, H3⟩⟩
          iapply ((rowEndRun m c t h2 h3 (carriedBefore m c t).rowSum (carriedBefore m c t).rowMin (carriedBefore m c t).colMin).2.2.2 Set.univ _)
          isplitl [H0]; · iexact H0
          isplitl [H1]; · iexact H1
          isplitl [H2]; · iexact H2
          isplitl [HS0]; · iexact HS0
          isplitl [HS1]; · iexact HS1
          iintro ⟨H0, H1, ⟨%e4, H4⟩, ⟨%e6, H6⟩, H7⟩
          isplitl [H6 H7 Hg]
          · isplitl [H6 H7]
            · isplitl [H6]
              · unfold owns; iexists _; isplitr
                swap; · iexact H6
                ipureintro; exact View.read_writes_eq_canon _ _ _ (cover_rowEnd_rowMin m c t h2 h3 (carriedBefore m c t).rowSum (carriedBefore m c t).rowMin (carriedBefore m c t).colMin)
              unfold owns; iexists _; isplitr
              swap; · iexact H7
              ipureintro; rfl
            iexact Hg
          isplitl [Ho]; · iexact Ho
          isplitl [H0]; · iexact H0
          isplitl [H1]; · iexact H1
          isplitl [H4]
          · unfold owns; iexists _; isplitr
            swap; · iexact H4
            ipureintro; exact View.read_writes_eq_canon _ _ _ (cover_rowEnd_rowSum m c t h2 h3 (carriedBefore m c t).rowSum (carriedBefore m c t).rowMin (carriedBefore m c t).colMin)
          iexists _; iexact H3
      · -- inside a row
        rw [(dats m 0 c).leavesExact_idle 2 t ((idle_rowSum_iff t).mpr ⟨by omega, by omega⟩) (Bool.eq_false_iff.mpr (fun h => by have := (flush0_2 t).mp h; omega))]
        rw [(dats m 0 c).leavesExact_idle 3 t ((idle_colSum_iff t).mpr (by omega)) (Bool.eq_false_iff.mpr (fun h => by have := (flush0_3 t).mp h; omega))]
        rw [carriedAt_mid m c t h1 h2]
        unfold afterMid; dsimp only
        rw [rest_castSucc m c t, restAt_pos m c _ _ h0]
        iintro ⟨⟨⟨HS0, HS1⟩, Hg⟩, Ho, ⟨%d0, H0⟩, ⟨%d1, H1⟩, ⟨%d2, H2⟩, ⟨%d3, H3⟩⟩
        iapply ((midRun m c t h1 h2 (carriedBefore m c t).rowMin (carriedBefore m c t).colMin).2.2 Set.univ _)
        isplitl [H0]; · iexact H0
        isplitl [H1]; · iexact H1
        isplitl [HS0]; · iexact HS0
        isplitl [HS1]; · iexact HS1
        iintro ⟨H0, H1, ⟨%e6, H6⟩, H7⟩
        isplitl [H6 H7 Hg]
        · isplitl [H6 H7]
          · isplitl [H6]
            · unfold owns; iexists _; isplitr
              swap; · iexact H6
              ipureintro; exact View.read_writes_eq_canon _ _ _ (cover_mid_rowMin m c t h1 h2 (carriedBefore m c t).rowMin (carriedBefore m c t).colMin)
            unfold owns; iexists _; isplitr
            swap; · iexact H7
            ipureintro; rfl
          iexact Hg
        isplitl [Ho]; · iexact Ho
        isplitl [H0]; · iexact H0
        isplitl [H1]; · iexact H1
        isplitl [H2]; · iexists _; iexact H2
        iexists _; iexact H3

/-- The obligation at every point. -/
theorem body_obligation (c : Dev nD) : BodyObligation (dats (F := F) m 0 c) (defs₀ (F := F)) Variants.none () Set.univ := fun t => by
  rw [bigSep_W0, bigSep_W0]
  exact sound_body m c t

/-- Before the first point the scratches hold anything. -/
theorem hin (c : Dev nD) : Pipeline.ΦA spec0 c ⊢ (dats m 0 c).Φ 0 := by
  rw [show (dats m 0 c).Φ 0 = restAt m c 0 (Nat.zero_le _) from rfl, restAt_zero m c 0 _ rfl]
  try exact Idealize.SL.BI.Entails.refl _

/-- After the last point what the scratches hold is forgotten. -/
theorem hout (c : Dev nD) : (dats m 0 c).Φ (Fin.last cfg0.N) ⊢ Pipeline.ΦA spec0 c := by
  have hne : (Fin.last cfg0.N).val ≠ 0 := by rw [Fin.val_last]; have : cfg0.N = 256 := N_0; omega
  rw [show (dats m 0 c).Φ (Fin.last cfg0.N) = restAt m c (Fin.last cfg0.N).val (Nat.le_of_lt_succ (Fin.last cfg0.N).isLt) from rfl,
    restAt_pos m c _ _ hne, restAny_eq]
  iintro ⟨⟨HS0, HS1⟩, Hg⟩
  isplitl [HS0 HS1]
  · isplitl [HS0]
    · iexists _; iexact HS0
    iexists _; iexact HS1
  iexact Hg

set_option backward.isDefEq.respectTransparency.types false in
/-- The region's run: every weakly fair execution terminates without fault; each array of the region ends at what the
    proof data computes (an input unchanged, a result at what was written back), every other buffer at what the host
    operations after the region make of those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.BodyKernelIdeal.Cases.lean ====
/-
  The grid is 16 × 16 and is walked row-major: point t has row coordinate t / 16 (the tile of the first point set)
  and column coordinate t % 16 (the tile of the second point set). The body takes four decisions, each a function
  of the point alone:
    * at the very first point (t = 0) the running sum of row minima is set to zero and the column-minimum
      scratch to +∞;
    * at the first point of every grid row (t % 16 = 0) the row-minimum scratch is set to +∞;
    * at the last point of every grid row (t % 16 = 15) the sum of the row-minimum scratch is added to the
      running sum;
    * at the very last point (t = 255) the sum of the column-minimum scratch is stored as the second result.
  Here each decision is put in closed form over the point's number, and the staging and scratch buffers the body
  is called with are named.
-/
import proofs.«134979_j28595892257476_1_alg».proof.Proof.Gen.KernelIdeal.Frame
import proofs.«134979_j28595892257476_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four decisions, in closed form over the point's number -/

/-- "This is the very first point": both coordinates are zero. -/
abbrev isFirst (i : grid0.Coords) : Prop := k0_cond1 i = 1#1
theorem isFirst_iff : ∀ t : Fin cfg0.N, isFirst (grid0.coords t) ↔ t.val % 256 = 0 :=
  (by decide +kernel : ∀ t : Fin grid0.N, isFirst (grid0.coords t) ↔ t.val % 256 = 0)

/-- "This point starts a grid row": the column coordinate is zero. -/
abbrev isRowStart (i : grid0.Coords) : Prop :=
  (Scalar.cmpi .ne (Scalar.extui (Scalar.cmpi .eq (BitVec.ofNat 32 (i 1).val) 0#32)) 0#32) = 1#1
theorem isRowStart_iff : ∀ t : Fin cfg0.N, isRowStart (grid0.coords t) ↔ t.val % 16 = 0 :=
  (by decide +kernel : ∀ t : Fin grid0.N, isRowStart (grid0.coords t) ↔ t.val % 16 = 0)

/-- "This point ends a grid row": the column coordinate is 15. -/
abbrev isRowEnd (i : grid0.Coords) : Prop := k0_cond3 i = 1#1
theorem isRowEnd_iff : ∀ t : Fin cfg0.N, isRowEnd (grid0.coords t) ↔ t.val % 16 = 15 :=
  (by decide +kernel : ∀ t : Fin grid0.N, isRowEnd (grid0.coords t) ↔ t.val % 16 = 15)

/-- "This is the very last point": both coordinates are 15. -/
abbrev isLast (i : grid0.Coords) : Prop := k0_cond4 i = 1#1
theorem isLast_iff : ∀ t : Fin cfg0.N, isLast (grid0.coords t) ↔ t.val % 256 = 255 :=
  (by decide +kernel : ∀ t : Fin grid0.N, isLast (grid0.coords t) ↔ t.val % 256 = 255)

/-! ## Where the windows are live -/

theorem live_pred : ∀ t : Fin cfg0.N, cfg0.idle 0 (grid0.coords t) = false := by decide +kernel
theorem live_gt : ∀ t : Fin cfg0.N, cfg0.idle 1 (grid0.coords t) = false := by decide +kernel
/-- The running-sum window is stored into exactly at the first point and at the row ends. -/
theorem idle_rowSum_iff : ∀ t : Fin cfg0.N, cfg0.idle 2 (grid0.coords t) = true ↔ (t.val % 256 ≠ 0 ∧ t.val % 16 ≠ 15) :=
  (by decide +kernel : ∀ t : Fin grid0.N, cfg0.idle 2 (grid0.coords t) = true ↔ (t.val % 256 ≠ 0 ∧ t.val % 16 ≠ 15))
/-- The second result's window is stored into exactly at the last point. -/
theorem idle_colSum_iff : ∀ t : Fin cfg0.N, cfg0.idle 3 (grid0.coords t) = true ↔ t.val % 256 ≠ 255 :=
  (by decide +kernel : ∀ t : Fin grid0.N, cfg0.idle 3 (grid0.coords t) = true ↔ t.val % 256 ≠ 255)

/-! ## The buffers the body is called with -/

abbrev mPred (t : Fin cfg0.N) : Memref sig .tc .vmem S4x512x2 .f32 := win0_0.stage (cfg0.slots t 0)
abbrev hPred (t : Fin cfg0.N) : (mPred t).IsWhole := hstage0_0 ((cfg0.slots t 0).cast nbuf0_0)
abbrev mGt (t : Fin cfg0.N) : Memref sig .tc .vmem S4x512x2 .f32 := win0_1.stage (cfg0.slots t 1)
abbrev hGt (t : Fin cfg0.N) : (mGt t).IsWhole := hstage0_1 ((cfg0.slots t 1).cast nbuf0_1)
abbrev mRowSum (t : Fin cfg0.N) : Memref sig .tc .vmem S1x1 .f32 := win0_2.stage (cfg0.slots t 2)
abbrev hRowSum (t : Fin cfg0.N) : (mRowSum t).IsWhole := hstage0_2 ((cfg0.slots t 2).cast nbuf0_2)
abbrev mColSum (t : Fin cfg0.N) : Memref sig .tc .vmem S1x1 .f32 := win0_3.stage (cfg0.slots t 3)
abbrev hColSum (t : Fin cfg0.N) : (mColSum t).IsWhole := hstage0_3 ((cfg0.slots t 3).cast nbuf0_3)
/-- The row-minimum scratch (4 × 512) and the column-minimum scratch (4 × 8192). -/
abbrev mRowMin : Memref sig .tc .vmem S4x512 .f32 := Memref.whole cc0_scratch0
abbrev mColMin : Memref sig .tc .vmem S4x8192 .f32 := Memref.whole cc0_scratch1
abbrev vRowMin : View sig .tc .vmem S4x512 .f32 := mRowMin.view
abbrev vColMin : View sig .tc .vmem S4x8192 .f32 := mColMin.view
abbrev vS1 (a : Memref sig .tc .vmem S1x1 .f32) : View sig .tc .vmem S1x1 .f32 := a.view

/-- What the region may use besides its windows: the two scratch buffers at any contents, and the generator register. -/
theorem restAny_eq (c : Dev nD) :
    (Pipeline.ΦA spec0 c : sProp 𝕄)
      = iprop(iprop((∃ d, owns (c : Thread nD τ) mRowMin fullShare d) ∗ (∃ d, owns (c : Thread nD τ) mColMin fullShare d)) ∗ (∃ r, prngReg c r)) := by
  unfold Pipeline.ΦA; rw [scopedRest0_eq]; simp only [mRowMin, mColMin, owns_whole]; try rfl

end Cert.KernelIdeal.Body

end
-- ==== Proof.BodyKernelIdeal.RunFirst.lean ====
/-
  The body at the very first point (t = 0). It sets the running sum to zero and the column-minimum scratch to +∞
  (first point), sets the row-minimum scratch to +∞ (a row starts), then folds this tile's distances into both
  scratches. Nothing is added to the running sum and the second result is not touched. What each buffer ends with
  is recorded as the list of pieces the body's stores wrote, last first.
-/
import proofs.«134979_j28595892257476_1_alg».proof.Proof.BodyKernelIdeal.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The run at the first point, on any whole buffers: the two input tiles at their contents `x0`, `x1`; the running
    sum, the row-minimum scratch and the column-minimum scratch at anything. It ends with the inputs as they were and
    each of the three written buffers holding its pieces. -/
noncomputable def runFirst (c : Dev nD) (i : grid0.Coords) (arg2 : Memref sig .tc .vmem S4x512x2 .f32) (harg2 : arg2.IsWhole) (arg3 : Memref sig .tc .vmem S4x512x2 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S4x512 .f32) (harg6 : arg6.IsWhole) (arg7 : Memref sig .tc .vmem S4x8192 .f32) (harg7 : arg7.IsWhole) (hc0 : isFirst i) (hc1 : isRowStart i) (hc2 : ¬isRowEnd i) (hc3 : ¬isLast i)
    (x0 : Vec F S4x512x2 .f32) (x1 : Vec F S4x512x2 .f32) :
    Σ' (L4 : List (View.Piece (Elt F) S1x1 .f32)) (L6 : List (View.Piece (Elt F) S4x512 .f32)), { L7 : List (View.Piece (Elt F) S4x8192 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L4) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7)) -∗ K ⟨⟩))
          ⊢ wp frame (wpE (defs₀ (F := F)) Variants.none c none) E (cc0__chamfer_kernel i arg2 harg2 arg3 harg3 arg4 harg4 arg5 harg5 arg6 harg6 arg7 harg7) K } := by
  refine ⟨?_, ?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d4, %f4, -, H4⟩, ⟨%d6, %f6, -, H6⟩, ⟨%d7, %f7, -, H7⟩, Hk⟩
    obtain rfl := harg2.eq_unread hf0; obtain rfl := harg3.eq_unread hf1
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H4]; · iexists _; iexact H4
    isplitl [H6]; · iexists _; iexact H6
    iexists _; iexact H7

end Cert.KernelIdeal.Body

end
-- ==== Proof.BodyKernelIdeal.RunRowStart.lean ====
/-
  The body at the first point of a grid row other than the very first point (t % 16 = 0, t ≠ 0). It sets the
  row-minimum scratch to +∞ and folds this tile's distances into it and into the current slice of the
  column-minimum scratch, which keeps what the point before left everywhere else. The running sum and the second
  result are not touched.
-/
import proofs.«134979_j28595892257476_1_alg».proof.Proof.BodyKernelIdeal.RunFirst

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The run at a row start: the input tiles at `x0`, `x1`, the row-minimum scratch at anything, the column-minimum scratch at `xs1`. -/
noncomputable def runRowStart (c : Dev nD) (i : grid0.Coords) (arg2 : Memref sig .tc .vmem S4x512x2 .f32) (harg2 : arg2.IsWhole) (arg3 : Memref sig .tc .vmem S4x512x2 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S4x512 .f32) (harg6 : arg6.IsWhole) (arg7 : Memref sig .tc .vmem S4x8192 .f32) (harg7 : arg7.IsWhole) (hc0 : ¬isFirst i) (hc1 : isRowStart i) (hc2 : ¬isRowEnd i) (hc3 : ¬isLast i)
    (x0 : Vec F S4x512x2 .f32) (x1 : Vec F S4x512x2 .f32) (xs1 : Vec F S4x8192 .f32) :
    Σ' (L6 : List (View.Piece (Elt F) S4x512 .f32)), { L7 : List (View.Piece (Elt F) S4x8192 .f32) //
      ∀ (E : Set ℕ) (K : PUnit → sProp 𝕄),
        iprop(owns (c : Thread nD τ) arg2 fullShare x0 ∗ owns (c : Thread nD τ) arg3 fullShare x1 ∗ (∃ d, owns (c : Thread nD τ) arg6 fullShare d) ∗ owns (c : Thread nD τ) arg7 fullShare xs1
            ∗ (iprop(owns (c : Thread nD τ) arg2 fullShare x0 ∗ owns (c : Thread nD τ) arg3 fullShare x1 ∗ (∃ f, arg6.view.loc (c : Thread nD τ) ↦[arg6.view.set]{fullShare} arg6.view.writes (Elt F) f L6) ∗ (arg7.view.loc (c : Thread nD τ) ↦[arg7.view.set]{fullShare} arg7.view.writes (Elt F) (harg7.unread xs1) L7)) -∗ K ⟨⟩))
          ⊢ wp frame (wpE (defs₀ (F := F)) Variants.none c none) E (cc0__chamfer_kernel i arg2 harg2 arg3 harg3 arg4 harg4 arg5 harg5 arg6 harg6 arg7 harg7) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d6, %f6, -, H6⟩, ⟨%f7, %hf7, H7⟩, Hk⟩
    obtain rfl := harg2.eq_unread hf0; obtain rfl := harg3.eq_unread hf1; obtain rfl := harg7.eq_unread hf7
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H6]; · iexists _; iexact H6
    iexact H7

end Cert.KernelIdeal.Body

end
-- ==== Proof.BodyKernelIdeal.RunMid.lean ====
/-
  The body at a point strictly inside a grid row (t % 16 ∉ {0, 15}). It folds this tile's distances into the
  row-minimum scratch and into the current slice of the column-minimum scratch; both keep what the point before
  left as the other operand of the minimum. The running sum and the second result are not touched.
-/
import proofs.«134979_j28595892257476_1_alg».proof.Proof.BodyKernelIdeal.RunRowStart

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The run inside a row: the input tiles at `x0`, `x1`, the row-minimum scratch at `xs0`, the column-minimum scratch at `xs1`. -/
noncomputable def runMid (c : Dev nD) (i : grid0.Coords) (arg2 : Memref sig .tc .vmem S4x512x2 .f32) (harg2 : arg2.IsWhole) (arg3 : Memref sig .tc .vmem S4x512x2 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S4x512 .f32) (harg6 : arg6.IsWhole) (arg7 : Memref sig .tc .vmem S4x8192 .f32) (harg7 : arg7.IsWhole) (hc0 : ¬isFirst i) (hc1 : ¬isRowStart i) (hc2 : ¬isRowEnd i) (hc3 : ¬isLast i)
    (x0 : Vec F S4x512x2 .f32) (x1 : Vec F S4x512x2 .f32) (xs0 : Vec F S4x512 .f32) (xs1 : Vec F S4x8192 .f32) :
    Σ' (L6 : List (View.Piece (Elt F) S4x512 .f32)), { L7 : List (View.Piece (Elt F) S4x8192 .f32) //
      ∀ (E : Set ℕ) (K : PUnit → sProp 𝕄),
        iprop(owns (c : Thread nD τ) arg2 fullShare x0 ∗ owns (c : Thread nD τ) arg3 fullShare x1 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg6.view.loc (c : Thread nD τ) ↦[arg6.view.set]{fullShare} arg6.view.writes (Elt F) f L6) ∗ (arg7.view.loc (c : Thread nD τ) ↦[arg7.view.set]{fullShare} arg7.view.writes (Elt F) (harg7.unread xs1) L7)) -∗ K ⟨⟩))
          ⊢ wp frame (wpE (defs₀ (F := F)) Variants.none c none) E (cc0__chamfer_kernel i arg2 harg2 arg3 harg3 arg4 harg4 arg5 harg5 arg6 harg6 arg7 harg7) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f6, %hf6, H6⟩, ⟨%f7, %hf7, H7⟩, Hk⟩
    obtain rfl := harg2.eq_unread hf0; obtain rfl := harg3.eq_unread hf1; obtain rfl := harg6.eq_unread hf6; obtain rfl := harg7.eq_unread hf7
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H6]; · iexists _; iexact H6
    iexact H7

end Cert.KernelIdeal.Body

end
-- ==== Proof.BodyKernelIdeal.RunRowEnd.lean ====
/-
  The body at the last point of a grid row other than the very last point (t % 16 = 15, t ≠ 255). It folds this
  tile's distances into both scratches as inside a row, and then adds the sum of the row-minimum scratch, now the
  minima of this row of tiles over all columns, to the running sum. The second result is not touched.
-/
import proofs.«134979_j28595892257476_1_alg».proof.Proof.BodyKernelIdeal.RunMid

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The run at a row end: the input tiles at `x0`, `x1`, the running sum at `xr`, the row-minimum scratch at `xs0`, the column-minimum scratch at `xs1`. -/
noncomputable def runRowEnd (c : Dev nD) (i : grid0.Coords) (arg2 : Memref sig .tc .vmem S4x512x2 .f32) (harg2 : arg2.IsWhole) (arg3 : Memref sig .tc .vmem S4x512x2 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S4x512 .f32) (harg6 : arg6.IsWhole) (arg7 : Memref sig .tc .vmem S4x8192 .f32) (harg7 : arg7.IsWhole) (hc0 : ¬isFirst i) (hc1 : ¬isRowStart i) (hc2 : isRowEnd i) (hc3 : ¬isLast i)
    (x0 : Vec F S4x512x2 .f32) (x1 : Vec F S4x512x2 .f32) (xr : Vec F S1x1 .f32) (xs0 : Vec F S4x512 .f32) (xs1 : Vec F S4x8192 .f32) :
    Σ' (L4 : List (View.Piece (Elt F) S1x1 .f32)) (L6 : List (View.Piece (Elt F) S4x512 .f32)), { L7 : List (View.Piece (Elt F) S4x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare xr ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L4) ∗ (∃ f, arg6.view.loc (c : Thread nD τ) ↦[arg6.view.set]{fullShare} arg6.view.writes (Elt F) f L6) ∗ (arg7.view.loc (c : Thread nD τ) ↦[arg7.view.set]{fullShare} arg7.view.writes (Elt F) (harg7.unread xs1) L7)) -∗ K ⟨⟩))
          ⊢ wp frame (wpE (defs₀ (F := F)) Variants.none c none) E (cc0__chamfer_kernel i arg2 harg2 arg3 harg3 arg4 harg4 arg5 harg5 arg6 harg6 arg7 harg7) K } := by
  refine ⟨?_, ?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f4, %hf4, H4⟩, ⟨%f6, %hf6, H6⟩, ⟨%f7, %hf7, H7⟩, Hk⟩
    obtain rfl := harg2.eq_unread hf0; obtain rfl := harg3.eq_unread hf1; obtain rfl := harg4.eq_unread hf4; obtain rfl := harg6.eq_unread hf6; obtain rfl := harg7.eq_unread hf7
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H4]; · iexists _; iexact H4
    isplitl [H6]; · iexists _; iexact H6
    iexact H7

end Cert.KernelIdeal.Body

end
-- ==== Proof.BodyKernelIdeal.RunLast.lean ====
/-
  The body at the very last point (t = 255). It does what a row end does, and then stores the sum of the
  column-minimum scratch, now the minima over all rows, as the second result.
-/
import proofs.«134979_j28595892257476_1_alg».proof.Proof.BodyKernelIdeal.RunRowEnd

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The run at the last point: as at a row end, with the second result's buffer at anything. -/
noncomputable def runLast (c : Dev nD) (i : grid0.Coords) (arg2 : Memref sig .tc .vmem S4x512x2 .f32) (harg2 : arg2.IsWhole) (arg3 : Memref sig .tc .vmem S4x512x2 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S4x512 .f32) (harg6 : arg6.IsWhole) (arg7 : Memref sig .tc .vmem S4x8192 .f32) (harg7 : arg7.IsWhole) (hc0 : ¬isFirst i) (hc1 : ¬isRowStart i) (hc2 : isRowEnd i) (hc3 : isLast i)
    (x0 : Vec F S4x512x2 .f32) (x1 : Vec F S4x512x2 .f32) (xr : Vec F S1x1 .f32) (xs0 : Vec F S4x512 .f32) (xs1 : Vec F S4x8192 .f32) :
    Σ' (L4 : List (View.Piece (Elt F) S1x1 .f32)) (L5 : List (View.Piece (Elt F) S1x1 .f32)) (L6 : List (View.Piece (Elt F) S4x512 .f32)), { L7 : List (View.Piece (Elt F) S4x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare xr ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (arg7.view.loc (c : Thread nD τ) ↦[arg7.view.set]{fullShare} arg7.view.writes (Elt F) (harg7.unread xs1) L7)) -∗ K ⟨⟩))
          ⊢ wp frame (wpE (defs₀ (F := F)) Variants.none c none) E (cc0__chamfer_kernel i arg2 harg2 arg3 harg3 arg4 harg4 arg5 harg5 arg6 harg6 arg7 harg7) K } := by
  refine ⟨?_, ?_, ?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f4, %hf4, H4⟩, ⟨%d5, %f5, -, H5⟩, ⟨%f6, %hf6, H6⟩, ⟨%f7, %hf7, H7⟩, Hk⟩
    obtain rfl := harg2.eq_unread hf0; obtain rfl := harg3.eq_unread hf1; obtain rfl := harg4.eq_unread hf4; obtain rfl := harg6.eq_unread hf6; obtain rfl := harg7.eq_unread hf7
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H4]; · iexists _; iexact H4
    isplitl [H5]; · iexists _; iexact H5
    isplitl [H6]; · iexists _; iexact H6
    iexact H7

end Cert.KernelIdeal.Body

end
-- ==== Proof.BodyKernelIdeal.After.lean ====
/-
  What the body's four written buffers hold after each grid point.

  Three of them are carried from point to point: the running sum of row minima (one number), the row-minimum
  scratch (4 × 512: for each batch and each row of the current row tile, the least distance seen so far in this
  grid row) and the column-minimum scratch (4 × 8192: for each batch and each column, the least distance seen so
  far over all row tiles). After the first point they are what the first point's stores left; after a later
  point, what that point's stores left over what the point before left:
    * a row start resets the row minima and keeps the running sum,
    * a point inside a row keeps the running sum,
    * a row end adds the row minima's sum to the running sum,
    * the last point is a row end that also stores the column minima's sum as the second result.
  Each point's contribution is read off the pieces its run wrote: a buffer stored whole holds the store's
  payload; the column-minimum scratch, stored one slice of 512 columns at a time, holds the slice over what it
  held before.
-/
import proofs.«134979_j28595892257476_1_alg».proof.Proof.BodyKernelIdeal.RunLast

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## From the point's number to the body's decisions -/

theorem lt256 (t : Fin cfg0.N) : t.val < 256 := lt_of_lt_of_eq t.isLt (show cfg0.N = 256 from N_0)
theorem first_of (t : Fin cfg0.N) (h : t.val = 0) : isFirst (grid0.coords t) := (isFirst_iff t).mpr (by omega)
theorem notFirst_of (t : Fin cfg0.N) (h : t.val ≠ 0) : ¬isFirst (grid0.coords t) :=
  fun hf => by have h1 := (isFirst_iff t).mp hf; have h2 := lt256 t; omega
theorem last_of (t : Fin cfg0.N) (h : t.val = 255) : isLast (grid0.coords t) := (isLast_iff t).mpr (by omega)
theorem notLast_of (t : Fin cfg0.N) (h : t.val ≠ 255) : ¬isLast (grid0.coords t) :=
  fun hf => by have h1 := (isLast_iff t).mp hf; have h2 := lt256 t; omega
theorem rowStart_of (t : Fin cfg0.N) (h : t.val % 16 = 0) : isRowStart (grid0.coords t) := (isRowStart_iff t).mpr h
theorem notRowStart_of (t : Fin cfg0.N) (h : ¬t.val % 16 = 0) : ¬isRowStart (grid0.coords t) := fun hf => h ((isRowStart_iff t).mp hf)
theorem rowEnd_of (t : Fin cfg0.N) (h : t.val % 16 = 15) : isRowEnd (grid0.coords t) := (isRowEnd_iff t).mpr h
theorem notRowEnd_of (t : Fin cfg0.N) (h : ¬t.val % 16 = 15) : ¬isRowEnd (grid0.coords t) := fun hf => h ((isRowEnd_iff t).mp hf)

/-! ## The carried contents -/

/-- The running sum, the row minima and the column minima. -/
structure Carried (F : FTy → Type) [FloatOps F] where
  rowSum : Vec F S1x1 .f32
  rowMin : Vec F S4x512 .f32
  colMin : Vec F S4x8192 .f32

/-- The column-minimum scratch after a slice store over what it held. -/
abbrev colMinOver (prev : Vec F S4x8192 .f32) (L : List (View.Piece (Elt F) S4x8192 .f32)) : Vec F S4x8192 .f32 :=
  vColMin.read (Elt F) (vColMin.writes (Elt F) ((Memref.isWhole_whole cc0_scratch1).unread prev) L)

/-! ### The first point -/

abbrev firstRun (c : Dev nD) (t : Fin cfg0.N) (h0 : t.val = 0) :=
  runFirst (F := F) c (grid0.coords t) (mPred t) (hPred t) (mGt t) (hGt t) (mRowSum t) (hRowSum t) (mColSum t) (hColSum t) mRowMin (Memref.isWhole_whole _) mColMin (Memref.isWhole_whole _)
    (first_of t h0) (rowStart_of t (by omega)) (notRowEnd_of t (by omega)) (notLast_of t (by omega)) (iblk m c 0 t) (iblk m c 1 t)

def afterFirst (c : Dev nD) (t : Fin cfg0.N) (h0 : t.val = 0) : Carried F :=
  ⟨View.canon (firstRun m c t h0).1, View.canon (firstRun m c t h0).2.1, View.canon (firstRun m c t h0).2.2.1⟩

theorem cover_first_rowSum (c : Dev nD) (t : Fin cfg0.N) (h0 : t.val = 0) (y : S1x1.Idx) : ∃ pc ∈ (firstRun m c t h0).1, y ∈ pc.1.set :=
  View.cover_of_tiledL _ S1x1.size (by sl_kernel_rfl) y
theorem cover_first_rowMin (c : Dev nD) (t : Fin cfg0.N) (h0 : t.val = 0) (y : S4x512.Idx) : ∃ pc ∈ (firstRun m c t h0).2.1, y ∈ pc.1.set :=
  View.cover_of_tiledL _ S4x512.size (by sl_kernel_rfl) y
theorem cover_first_colMin (c : Dev nD) (t : Fin cfg0.N) (h0 : t.val = 0) (y : S4x8192.Idx) : ∃ pc ∈ (firstRun m c t h0).2.2.1, y ∈ pc.1.set :=
  View.cover_of_wholeMem _ (by sl_whole_mem) y

/-! ### A row start -/

abbrev rowStartRun (c : Dev nD) (t : Fin cfg0.N) (h1 : t.val % 16 = 0) (hpos : t.val ≠ 0) (cm : Vec F S4x8192 .f32) :=
  runRowStart (F := F) c (grid0.coords t) (mPred t) (hPred t) (mGt t) (hGt t) (mRowSum t) (hRowSum t) (mColSum t) (hColSum t) mRowMin (Memref.isWhole_whole _) mColMin (Memref.isWhole_whole _)
    (notFirst_of t hpos) (rowStart_of t h1) (notRowEnd_of t (by omega)) (notLast_of t (by omega)) (iblk m c 0 t) (iblk m c 1 t) cm

def afterRowStart (c : Dev nD) (t : Fin cfg0.N) (h1 : t.val % 16 = 0) (hpos : t.val ≠ 0) (p : Carried F) : Carried F :=
  ⟨p.rowSum, View.canon (rowStartRun m c t h1 hpos p.colMin).1, colMinOver p.colMin (rowStartRun m c t h1 hpos p.colMin).2.1⟩

theorem cover_rowStart_rowMin (c : Dev nD) (t : Fin cfg0.N) (h1 : t.val % 16 = 0) (hpos : t.val ≠ 0) (cm : Vec F S4x8192 .f32) (y : S4x512.Idx) :
    ∃ pc ∈ (rowStartRun m c t h1 hpos cm).1, y ∈ pc.1.set :=
  View.cover_of_tiledL _ S4x512.size (by sl_kernel_rfl) y

/-! ### Inside a row -/

abbrev midRun (c : Dev nD) (t : Fin cfg0.N) (h1 : ¬t.val % 16 = 0) (h2 : ¬t.val % 16 = 15) (rm : Vec F S4x512 .f32) (cm : Vec F S4x8192 .f32) :=
  runMid (F := F) c (grid0.coords t) (mPred t) (hPred t) (mGt t) (hGt t) (mRowSum t) (hRowSum t) (mColSum t) (hColSum t) mRowMin (Memref.isWhole_whole _) mColMin (Memref.isWhole_whole _)
    (notFirst_of t (by omega)) (notRowStart_of t h1) (notRowEnd_of t h2) (notLast_of t (by omega)) (iblk m c 0 t) (iblk m c 1 t) rm cm

def afterMid (c : Dev nD) (t : Fin cfg0.N) (h1 : ¬t.val % 16 = 0) (h2 : ¬t.val % 16 = 15) (p : Carried F) : Carried F :=
  ⟨p.rowSum, View.canon (midRun m c t h1 h2 p.rowMin p.colMin).1, colMinOver p.colMin (midRun m c t h1 h2 p.rowMin p.colMin).2.1⟩

theorem cover_mid_rowMin (c : Dev nD) (t : Fin cfg0.N) (h1 : ¬t.val % 16 = 0) (h2 : ¬t.val % 16 = 15) (rm : Vec F S4x512 .f32) (cm : Vec F S4x8192 .f32) (y : S4x512.Idx) :
    ∃ pc ∈ (midRun m c t h1 h2 rm cm).1, y ∈ pc.1.set :=
  View.cover_of_tiledL _ S4x512.size (by sl_kernel_rfl) y

/-! ### A row end -/

abbrev rowEndRun (c : Dev nD) (t : Fin cfg0.N) (h2 : t.val % 16 = 15) (h3 : t.val ≠ 255) (rs : Vec F S1x1 .f32) (rm : Vec F S4x512 .f32) (cm : Vec F S4x8192 .f32) :=
  runRowEnd (F := F) c (grid0.coords t) (mPred t) (hPred t) (mGt t) (hGt t) (mRowSum t) (hRowSum t) (mColSum t) (hColSum t) mRowMin (Memref.isWhole_whole _) mColMin (Memref.isWhole_whole _)
    (notFirst_of t (by omega)) (notRowStart_of t (by omega)) (rowEnd_of t h2) (notLast_of t h3) (iblk m c 0 t) (iblk m c 1 t) rs rm cm

def afterRowEnd (c : Dev nD) (t : Fin cfg0.N) (h2 : t.val % 16 = 15) (h3 : t.val ≠ 255) (p : Carried F) : Carried F :=
  ⟨View.canon (rowEndRun m c t h2 h3 p.rowSum p.rowMin p.colMin).1, View.canon (rowEndRun m c t h2 h3 p.rowSum p.rowMin p.colMin).2.1,
    colMinOver p.colMin (rowEndRun m c t h2 h3 p.rowSum p.rowMin p.colMin).2.2.1⟩

theorem cover_rowEnd_rowSum (c : Dev nD) (t : Fin cfg0.N) (h2 : t.val % 16 = 15) (h3 : t.val ≠ 255) (rs : Vec F S1x1 .f32) (rm : Vec F S4x512 .f32) (cm : Vec F S4x8192 .f32) (y : S1x1.Idx) :
    ∃ pc ∈ (rowEndRun m c t h2 h3 rs rm cm).1, y ∈ pc.1.set :=
  View.cover_of_tiledL _ S1x1.size (by sl_kernel_rfl) y
theorem cover_rowEnd_rowMin (c : Dev nD) (t : Fin cfg0.N) (h2 : t.val % 16 = 15) (h3 : t.val ≠ 255) (rs : Vec F S1x1 .f32) (rm : Vec F S4x512 .f32) (cm : Vec F S4x8192 .f32) (y : S4x512.Idx) :
    ∃ pc ∈ (rowEndRun m c t h2 h3 rs rm cm).2.1, y ∈ pc.1.set :=
  View.cover_of_tiledL _ S4x512.size (by sl_kernel_rfl) y

/-! ### The last point -/

abbrev lastRun (c : Dev nD) (t : Fin cfg0.N) (h3 : t.val = 255) (rs : Vec F S1x1 .f32) (rm : Vec F S4x512 .f32) (cm : Vec F S4x8192 .f32) :=
  runLast (F := F) c (grid0.coords t) (mPred t) (hPred t) (mGt t) (hGt t) (mRowSum t) (hRowSum t) (mColSum t) (hColSum t) mRowMin (Memref.isWhole_whole _) mColMin (Memref.isWhole_whole _)
    (notFirst_of t (by omega)) (notRowStart_of t (by omega)) (rowEnd_of t (by omega)) (last_of t h3) (iblk m c 0 t) (iblk m c 1 t) rs rm cm

def afterLast (c : Dev nD) (t : Fin cfg0.N) (h3 : t.val = 255) (p : Carried F) : Carried F :=
  ⟨View.canon (lastRun m c t h3 p.rowSum p.rowMin p.colMin).1, View.canon (lastRun m c t h3 p.rowSum p.rowMin p.colMin).2.2.1,
    colMinOver p.colMin (lastRun m c t h3 p.rowSum p.rowMin p.colMin).2.2.2.1⟩

/-- The second result, stored at the last point. -/
def lastColSum (c : Dev nD) (t : Fin cfg0.N) (h3 : t.val = 255) (p : Carried F) : Vec F S1x1 .f32 :=
  View.canon (lastRun m c t h3 p.rowSum p.rowMin p.colMin).2.1

theorem cover_last_rowSum (c : Dev nD) (t : Fin cfg0.N) (h3 : t.val = 255) (rs : Vec F S1x1 .f32) (rm : Vec F S4x512 .f32) (cm : Vec F S4x8192 .f32) (y : S1x1.Idx) :
    ∃ pc ∈ (lastRun m c t h3 rs rm cm).1, y ∈ pc.1.set :=
  View.cover_of_tiledL _ S1x1.size (by sl_kernel_rfl) y
theorem cover_last_colSum (c : Dev nD) (t : Fin cfg0.N) (h3 : t.val = 255) (rs : Vec F S1x1 .f32) (rm : Vec F S4x512 .f32) (cm : Vec F S4x8192 .f32) (y : S1x1.Idx) :
    ∃ pc ∈ (lastRun m c t h3 rs rm cm).2.1, y ∈ pc.1.set :=
  View.cover_of_tiledL _ S1x1.size (by sl_kernel_rfl) y
theorem cover_last_rowMin (c : Dev nD) (t : Fin cfg0.N) (h3 : t.val = 255) (rs : Vec F S1x1 .f32) (rm : Vec F S4x512 .f32) (cm : Vec F S4x8192 .f32) (y : S4x512.Idx) :
    ∃ pc ∈ (lastRun m c t h3 rs rm cm).2.2.1, y ∈ pc.1.set :=
  View.cover_of_tiledL _ S4x512.size (by sl_kernel_rfl) y

/-! ## The recursion over the points -/

/-- What is carried after point `n`. -/
def carriedAt (c : Dev nD) : (n : ℕ) → n < cfg0.N → Carried F
  | 0, hn => afterFirst m c ⟨0, hn⟩ rfl
  | n + 1, hn =>
    if h1 : (n + 1) % 16 = 0 then afterRowStart m c ⟨n + 1, hn⟩ h1 (Nat.succ_ne_zero n) (carriedAt c n (Nat.lt_of_succ_lt hn))
    else if h2 : (n + 1) % 16 = 15 then
      if h3 : n + 1 = 255 then afterLast m c ⟨n + 1, hn⟩ h3 (carriedAt c n (Nat.lt_of_succ_lt hn))
      else afterRowEnd m c ⟨n + 1, hn⟩ h2 h3 (carriedAt c n (Nat.lt_of_succ_lt hn))
    else afterMid m c ⟨n + 1, hn⟩ h1 h2 (carriedAt c n (Nat.lt_of_succ_lt hn))

/-- What was carried into point `t` (for `t` not the first point). -/
abbrev carriedBefore (c : Dev nD) (t : Fin cfg0.N) : Carried F :=
  carriedAt m c (t.val - 1) (Nat.lt_of_le_of_lt (Nat.sub_le _ _) t.isLt)

theorem carriedAt_first (c : Dev nD) (t : Fin cfg0.N) (h0 : t.val = 0) : carriedAt m c t.val t.isLt = afterFirst m c t h0 := by
  obtain ⟨n, hn⟩ := t
  dsimp only at h0
  cases n with
  | zero => rfl
  | succ n => exact absurd h0 (Nat.succ_ne_zero n)

theorem carriedAt_rowStart (c : Dev nD) (t : Fin cfg0.N) (h1 : t.val % 16 = 0) (hpos : t.val ≠ 0) :
    carriedAt m c t.val t.isLt = afterRowStart m c t h1 hpos (carriedBefore m c t) := by
  obtain ⟨n, hn⟩ := t
  dsimp only at h1 hpos
  cases n with
  | zero => exact absurd rfl hpos
  | succ n => exact dif_pos h1

theorem carriedAt_mid (c : Dev nD) (t : Fin cfg0.N) (h1 : ¬t.val % 16 = 0) (h2 : ¬t.val % 16 = 15) :
    carriedAt m c t.val t.isLt = afterMid m c t h1 h2 (carriedBefore m c t) := by
  obtain ⟨n, hn⟩ := t
  dsimp only at h1 h2
  cases n with
  | zero => exact absurd (Nat.zero_mod _) h1
  | succ n => exact (dif_neg h1).trans (dif_neg h2)

theorem carriedAt_rowEnd (c : Dev nD) (t : Fin cfg0.N) (h2 : t.val % 16 = 15) (h3 : t.val ≠ 255) :
    carriedAt m c t.val t.isLt = afterRowEnd m c t h2 h3 (carriedBefore m c t) := by
  obtain ⟨n, hn⟩ := t
  dsimp only at h2 h3
  cases n with
  | zero => omega
  | succ n => exact (dif_neg (by omega)).trans ((dif_pos h2).trans (dif_neg h3))

theorem carriedAt_last (c : Dev nD) (t : Fin cfg0.N) (h3 : t.val = 255) :
    carriedAt m c t.val t.isLt = afterLast m c t h3 (carriedBefore m c t) := by
  obtain ⟨n, hn⟩ := t
  dsimp only at h3
  cases n with
  | zero => omega
  | succ n => exact (dif_neg (by omega)).trans ((dif_pos (by omega)).trans (dif_pos h3))

/-- The running sum changes only at the first point and at row ends. -/
theorem carriedAt_rowSum_kept (c : Dev nD) (t : Fin cfg0.N) (hpos : t.val ≠ 0) (h2 : ¬t.val % 16 = 15) :
    (carriedAt m c t.val t.isLt).rowSum = (carriedBefore m c t).rowSum := by
  by_cases h1 : t.val % 16 = 0
  · rw [carriedAt_rowStart m c t h1 hpos]; rfl
  · rw [carriedAt_mid m c t h1 h2]; rfl

end Cert.KernelIdeal.Body

end
-- ==== Proof.BodyKernelIdeal.Data.lean ====
/-
  The region's proof data. The arrays are the arguments as the region finds them. After the body at point t the two
  input windows hold their tiles, the first result's window holds the running sum after t, and the second result's
  window holds, at the last point, the column minima's sum. Between points the row-minimum and column-minimum
  scratches hold what was carried after the point before; before the first point they hold anything.

  The first result's window is stored into only at the first point and at row ends, and is written back only at
  the last point. So when the body runs at a later point the window's buffer still holds the running sum carried
  into that point: through a stretch of points that leave it alone nothing changes it, and after a point that
  stores into it, it holds what that point stored.
-/
import proofs.«134979_j28595892257476_1_alg».proof.Proof.BodyKernelIdeal.After

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The invariant before point `n`: before the first point the scratches hold anything; afterwards what was carried
    after the point before. The generator register holds some state throughout. -/
def restAt (c : Dev nD) : (n : ℕ) → n ≤ cfg0.N → sProp 𝕄
  | 0, _ => Pipeline.ΦA spec0 c
  | n + 1, hn => iprop(iprop(owns (c : Thread nD τ) mRowMin fullShare (carriedAt m c n hn).rowMin ∗ owns (c : Thread nD τ) mColMin fullShare (carriedAt m c n hn).colMin) ∗ (∃ r, prngReg c r))

theorem restAt_zero (c : Dev nD) (n : ℕ) (h : n ≤ cfg0.N) (hz : n = 0) : restAt m c n h = Pipeline.ΦA spec0 c := by
  subst hz; rfl

theorem restAt_succ (c : Dev nD) (n : ℕ) (hn : n < cfg0.N) :
    restAt m c (n + 1) hn = iprop(iprop(owns (c : Thread nD τ) mRowMin fullShare (carriedAt m c n hn).rowMin ∗ owns (c : Thread nD τ) mColMin fullShare (carriedAt m c n hn).colMin) ∗ (∃ r, prngReg c r)) := rfl

theorem restAt_pos (c : Dev nD) (n : ℕ) (h : n ≤ cfg0.N) (hz : n ≠ 0) :
    restAt m c n h = iprop(iprop(owns (c : Thread nD τ) mRowMin fullShare (carriedAt m c (n - 1) (by omega)).rowMin ∗ owns (c : Thread nD τ) mColMin fullShare (carriedAt m c (n - 1) (by omega)).colMin) ∗ (∃ r, prngReg c r)) := by
  cases n with
  | zero => exact absurd rfl hz
  | succ n => rfl

/-- The proof data of the one region on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (carriedAt m c t.val t.isLt).rowSum
    | ⟨3, h⟩ => if h3 : t.val = 255 then lastColSum m c t h3 (carriedBefore m c t) else Pipeline.Dat.unnamed (cfg := cfg0) ⟨3, h⟩ t
  Φ t := restAt m c t.val (Nat.le_of_lt_succ t.isLt)
  q _ := fullShare
  owed _ := 0

theorem A_eq (c : Dev nD) (w : Fin cfg0.W) : (dats m 0 c).A w = V m c (Pipeline.arrRef spec0 w) := by
  dsimp only [dats]

theorem rest_castSucc (c : Dev nD) (t : Fin cfg0.N) :
    (dats m 0 c).Φ t.castSucc = restAt m c t.val (Nat.le_of_lt t.isLt) := by
  dsimp only [dats]; simp only [Fin.coe_castSucc]

theorem after_pred (c : Dev nD) (t : Fin cfg0.N) : (dats m 0 c).after 0 t = iblk m c 0 t := by dsimp only [dats]
theorem after_gt (c : Dev nD) (t : Fin cfg0.N) : (dats m 0 c).after 1 t = iblk m c 1 t := by dsimp only [dats]
theorem after_rowSum (c : Dev nD) (t : Fin cfg0.N) : (dats m 0 c).after 2 t = (carriedAt m c t.val t.isLt).rowSum := by dsimp only [dats]
theorem after_colSum (c : Dev nD) (t : Fin cfg0.N) (h3 : t.val = 255) :
    (dats m 0 c).after 3 t = lastColSum m c t h3 (carriedBefore m c t) := by
  dsimp only [dats]; exact dif_pos h3

/-- Each input's buffer holds its tile at every point, fetched there or not. -/
theorem before_pred (c : Dev nD) (t : Fin cfg0.N) (d) : (dats m 0 c).before 0 t d = iblk m c 0 t :=
  before0_0_of m (dats m 0 c) (A_eq m c 0) (after_pred m c) t d
theorem before_gt (c : Dev nD) (t : Fin cfg0.N) (d) : (dats m 0 c).before 1 t d = iblk m c 1 t :=
  before0_1_of m (dats m 0 c) (A_eq m c 1) (after_gt m c) t d

/-- A point that stores into the first result's window leaves there, for the next point, all of what it stored. -/
theorem kept_rowSum (c : Dev nD) (t : Fin cfg0.N) (d) : (dats m 0 c).kept 2 t d = (carriedAt m c t.val t.isLt).rowSum := by
  unfold Dat.kept
  rw [Pipeline.fill_of_clip_none (cfg := cfg0) 2 _ (fun _ => rfl) d ((dats m 0 c).after 2 t), Window.fill_cut]
  exact after_rowSum m c t

/-- When the body runs at a point other than the first, the first result's window holds the running sum carried into
    that point. -/
theorem before_rowSum (c : Dev nD) (t : Fin cfg0.N) (hpos : t.val ≠ 0) (d) :
    (dats m 0 c).before 2 t d = (carriedBefore m c t).rowSum := by
  obtain ⟨n, hn⟩ := t
  induction n with
  | zero => exact absurd rfl hpos
  | succ k ih =>
    have hk : k < cfg0.N := Nat.lt_of_succ_lt hn
    have hk255 : k < 255 := by have := lt256 ⟨k + 1, hn⟩; dsimp only at this; omega
    rw [(dats m 0 c).before_of_pos 2 ⟨k + 1, hn⟩ hpos ((cfg0.win 2).fetch_out rfl _)]
    rw [if_neg (fun hf => by have := (flush0_2 ⟨k, hk⟩).mp hf; dsimp only at this; omega)]
    show (dats m 0 c).left 2 ⟨k, hk⟩ d = (carriedAt m c k hk).rowSum
    unfold Dat.left
    cases hi : cfg0.idle 2 (grid0.coords ⟨k, hk⟩) with
    | true =>
      obtain ⟨h0, h15⟩ := (idle_rowSum_iff ⟨k, hk⟩).mp hi
      have hk0 : k ≠ 0 := by intro h; subst h; exact h0 rfl
      show (dats m 0 c).before 2 ⟨k, hk⟩ d = _
      rw [ih hk hk0]
      exact (carriedAt_rowSum_kept m c ⟨k, hk⟩ hk0 h15).symm
    | false =>
      show (dats m 0 c).kept 2 ⟨k, hk⟩ d = _
      exact kept_rowSum m c ⟨k, hk⟩ d

end Cert.KernelIdeal.Body

end
-- ==== Proof.BodyKernelIdeal.Sound.lean ====
/-
  The body's obligation at every grid point, and the region's run with every array named.

  At a point the body is handed the invariant (the two scratches at what was carried in), the two input tiles, and
  the two result windows' buffers. Which of the five runs applies is decided by the point's number; each run hands
  back the scratches at what is carried out, the input tiles untouched, and the result windows either stored into
  (the first point and the row ends for the running sum; the last point for the second result) or exactly as they
  were found. After the last point both result windows are written back, so the first result array ends at the
  running sum after point 255 and the second at the column minima's sum.
-/
import proofs.«134979_j28595892257476_1_alg».proof.Proof.BodyKernelIdeal.Data

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (mPred t) fullShare ((dats m 0 c).before 0 t d))
    ∗ (∃ d, owns (c : Thread nD τ) (mGt t) fullShare ((dats m 0 c).before 1 t d))
    ∗ (∃ d, owns (c : Thread nD τ) (mRowSum t) fullShare ((dats m 0 c).before 2 t d))
    ∗ (∃ d, owns (c : Thread nD τ) (mColSum t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_pred, before_gt]
  rw [show (dats m 0 c).owesAt () t.succ = (dats m 0 c).owesAt () t.castSucc from rfl]
  rw [show (dats m 0 c).Φ t.succ = restAt m c (t.val + 1) t.isLt from rfl, restAt_succ]
  rw [show (dats m 0 c).leavesExact 0 t = owns (c : Thread nD τ) (mPred t) fullShare ((dats m 0 c).after 0 t) from by
      unfold Dat.leavesExact; rw [live_pred t], after_pred]
  rw [show (dats m 0 c).leavesExact 1 t = owns (c : Thread nD τ) (mGt t) fullShare ((dats m 0 c).after 1 t) from by
      unfold Dat.leavesExact; rw [live_gt t], after_gt]
  have hN := lt256 t
  by_cases h0 : t.val = 0
  · -- the first point
    rw [show (dats m 0 c).leavesExact 2 t = owns (c : Thread nD τ) (mRowSum t) fullShare ((dats m 0 c).after 2 t) from by
                unfold Dat.leavesExact; rw [show cfg0.idle 2 (grid0.coords t) = false from Bool.eq_false_iff.mpr (fun h => by have := (idle_rowSum_iff t).mp h; omega)], after_rowSum]
    rw [(dats m 0 c).leavesExact_idle 3 t ((idle_colSum_iff t).mpr (by omega)) (Bool.eq_false_iff.mpr (fun h => by have := (flush0_3 t).mp h; omega))]
    rw [carriedAt_first m c t h0]
    unfold afterFirst; dsimp only
    rw [rest_castSucc m c t, restAt_zero m c _ _ h0, restAny_eq]
    iintro ⟨⟨⟨HS0, HS1⟩, Hg⟩, Ho, ⟨%d0, H0⟩, ⟨%d1, H1⟩, ⟨%d2, H2⟩, ⟨%d3, H3⟩⟩
    iapply ((firstRun m c t h0).2.2.2 Set.univ _)
    isplitl [H0]; · iexact H0
    isplitl [H1]; · iexact H1
    isplitl [H2]; · iexists _; iexact H2
    isplitl [HS0]; · iexact HS0
    isplitl [HS1]; · iexact HS1
    iintro ⟨H0, H1, ⟨%e4, H4⟩, ⟨%e6, H6⟩, ⟨%e7, H7⟩⟩
    isplitl [H6 H7 Hg]
    · isplitl [H6 H7]
      · isplitl [H6]
        · unfold owns; iexists _; isplitr
          swap; · iexact H6
          ipureintro; exact View.read_writes_eq_canon _ _ _ (cover_first_rowMin m c t h0)
        unfold owns; iexists _; isplitr
        swap; · iexact H7
        ipureintro; exact View.read_writes_eq_canon _ _ _ (cover_first_colMin m c t h0)
      iexact Hg
    isplitl [Ho]; · iexact Ho
    isplitl [H0]; · iexact H0
    isplitl [H1]; · iexact H1
    isplitl [H4]
    · unfold owns; iexists _; isplitr
      swap; · iexact H4
      ipureintro; exact View.read_writes_eq_canon _ _ _ (cover_first_rowSum m c t h0)
    iexists _; iexact H3
  · by_cases h1 : t.val % 16 = 0
    · -- a row start
      rw [(dats m 0 c).leavesExact_idle 2 t ((idle_rowSum_iff t).mpr ⟨by omega, by omega⟩) (Bool.eq_false_iff.mpr (fun h => by have := (flush0_2 t).mp h; omega))]
      rw [(dats m 0 c).leavesExact_idle 3 t ((idle_colSum_iff t).mpr (by omega)) (Bool.eq_false_iff.mpr (fun h => by have := (flush0_3 t).mp h; omega))]
      rw [carriedAt_rowStart m c t h1 h0]
      unfold afterRowStart; dsimp only
      rw [rest_castSucc m c t, restAt_pos m c _ _ h0]
      iintro ⟨⟨⟨HS0, HS1⟩, Hg⟩, Ho, ⟨%d0, H0⟩, ⟨%d1, H1⟩, ⟨%d2, H2⟩, ⟨%d3, H3⟩⟩
      iapply ((rowStartRun m c t h1 h0 (carriedBefore m c t).colMin).2.2 Set.univ _)
      isplitl [H0]; · iexact H0
      isplitl [H1]; · iexact H1
      isplitl [HS0]; · iexists _; iexact HS0
      isplitl [HS1]; · iexact HS1
      iintro ⟨H0, H1, ⟨%e6, H6⟩, H7⟩
      isplitl [H6 H7 Hg]
      · isplitl [H6 H7]
        · isplitl [H6]
          · unfold owns; iexists _; isplitr
            swap; · iexact H6
            ipureintro; exact View.read_writes_eq_canon _ _ _ (cover_rowStart_rowMin m c t h1 h0 (carriedBefore m c t).colMin)
          unfold owns; iexists _; isplitr
          swap; · iexact H7
          ipureintro; rfl
        iexact Hg
      isplitl [Ho]; · iexact Ho
      isplitl [H0]; · iexact H0
      isplitl [H1]; · iexact H1
      isplitl [H2]; · iexists _; iexact H2
      iexists _; iexact H3
    · by_cases h2 : t.val % 16 = 15
      · by_cases h3 : t.val = 255
        · -- the last point
          rw [show (dats m 0 c).leavesExact 2 t = owns (c : Thread nD τ) (mRowSum t) fullShare ((dats m 0 c).after 2 t) from by
                      unfold Dat.leavesExact; rw [show cfg0.idle 2 (grid0.coords t) = false from Bool.eq_false_iff.mpr (fun h => by have := (idle_rowSum_iff t).mp h; omega)], after_rowSum]
          rw [show (dats m 0 c).leavesExact 3 t = owns (c : Thread nD τ) (mColSum t) fullShare ((dats m 0 c).after 3 t) from by
                      unfold Dat.leavesExact; rw [show cfg0.idle 3 (grid0.coords t) = false from Bool.eq_false_iff.mpr (fun h => by have := (idle_colSum_iff t).mp h; omega)], after_colSum m c t h3]
          rw [carriedAt_last m c t h3]
          unfold afterLast lastColSum; dsimp only
          rw [rest_castSucc m c t, restAt_pos m c _ _ h0]
          simp only [before_rowSum m c t h0]
          iintro ⟨⟨⟨HS0, HS1⟩, Hg⟩, Ho, ⟨%d0, H0⟩, ⟨%d1, H1⟩, ⟨%d2, H2⟩, ⟨%d3, H3⟩⟩
          iapply ((lastRun m c t h3 (carriedBefore m c t).rowSum (carriedBefore m c t).rowMin (carriedBefore m c t).colMin).2.2.2.2 Set.univ _)
          isplitl [H0]; · iexact H0
          isplitl [H1]; · iexact H1
          isplitl [H2]; · iexact H2
          isplitl [H3]; · iexists _; iexact H3
          isplitl [HS0]; · iexact HS0
          isplitl [HS1]; · iexact HS1
          iintro ⟨H0, H1, ⟨%e4, H4⟩, ⟨%e5, H5⟩, ⟨%e6, H6⟩, H7⟩
          isplitl [H6 H7 Hg]
          · isplitl [H6 H7]
            · isplitl [H6]
              · unfold owns; iexists _; isplitr
                swap; · iexact H6
                ipureintro; exact View.read_writes_eq_canon _ _ _ (cover_last_rowMin m c t h3 (carriedBefore m c t).rowSum (carriedBefore m c t).rowMin (carriedBefore m c t).colMin)
              unfold owns; iexists _; isplitr
              swap; · iexact H7
              ipureintro; rfl
            iexact Hg
          isplitl [Ho]; · iexact Ho
          isplitl [H0]; · iexact H0
          isplitl [H1]; · iexact H1
          isplitl [H4]
          · unfold owns; iexists _; isplitr
            swap; · iexact H4
            ipureintro; exact View.read_writes_eq_canon _ _ _ (cover_last_rowSum m c t h3 (carriedBefore m c t).rowSum (carriedBefore m c t).rowMin (carriedBefore m c t).colMin)
          unfold owns; iexists _; isplitr
          swap; · iexact H5
          ipureintro; exact View.read_writes_eq_canon _ _ _ (cover_last_colSum m c t h3 (carriedBefore m c t).rowSum (carriedBefore m c t).rowMin (carriedBefore m c t).colMin)
        · -- a row end
          rw [show (dats m 0 c).leavesExact 2 t = owns (c : Thread nD τ) (mRowSum t) fullShare ((dats m 0 c).after 2 t) from by
                      unfold Dat.leavesExact; rw [show cfg0.idle 2 (grid0.coords t) = false from Bool.eq_false_iff.mpr (fun h => by have := (idle_rowSum_iff t).mp h; omega)], after_rowSum]
          rw [(dats m 0 c).leavesExact_idle 3 t ((idle_colSum_iff t).mpr (by omega)) (Bool.eq_false_iff.mpr (fun h => by have := (flush0_3 t).mp h; omega))]
          rw [carriedAt_rowEnd m c t h2 h3]
          unfold afterRowEnd; dsimp only
          rw [rest_castSucc m c t, restAt_pos m c _ _ h0]
          simp only [before_rowSum m c t h0]
          iintro ⟨⟨⟨HS0, HS1⟩, Hg⟩, Ho, ⟨%d0, H0⟩, ⟨%d1, H1⟩, ⟨%d2, H2⟩, ⟨%d3, H3⟩⟩
          iapply ((rowEndRun m c t h2 h3 (carriedBefore m c t).rowSum (carriedBefore m c t).rowMin (carriedBefore m c t).colMin).2.2.2 Set.univ _)
          isplitl [H0]; · iexact H0
          isplitl [H1]; · iexact H1
          isplitl [H2]; · iexact H2
          isplitl [HS0]; · iexact HS0
          isplitl [HS1]; · iexact HS1
          iintro ⟨H0, H1, ⟨%e4, H4⟩, ⟨%e6, H6⟩, H7⟩
          isplitl [H6 H7 Hg]
          · isplitl [H6 H7]
            · isplitl [H6]
              · unfold owns; iexists _; isplitr
                swap; · iexact H6
                ipureintro; exact View.read_writes_eq_canon _ _ _ (cover_rowEnd_rowMin m c t h2 h3 (carriedBefore m c t).rowSum (carriedBefore m c t).rowMin (carriedBefore m c t).colMin)
              unfold owns; iexists _; isplitr
              swap; · iexact H7
              ipureintro; rfl
            iexact Hg
          isplitl [Ho]; · iexact Ho
          isplitl [H0]; · iexact H0
          isplitl [H1]; · iexact H1
          isplitl [H4]
          · unfold owns; iexists _; isplitr
            swap; · iexact H4
            ipureintro; exact View.read_writes_eq_canon _ _ _ (cover_rowEnd_rowSum m c t h2 h3 (carriedBefore m c t).rowSum (carriedBefore m c t).rowMin (carriedBefore m c t).colMin)
          iexists _; iexact H3
      · -- inside a row
        rw [(dats m 0 c).leavesExact_idle 2 t ((idle_rowSum_iff t).mpr ⟨by omega, by omega⟩) (Bool.eq_false_iff.mpr (fun h => by have := (flush0_2 t).mp h; omega))]
        rw [(dats m 0 c).leavesExact_idle 3 t ((idle_colSum_iff t).mpr (by omega)) (Bool.eq_false_iff.mpr (fun h => by have := (flush0_3 t).mp h; omega))]
        rw [carriedAt_mid m c t h1 h2]
        unfold afterMid; dsimp only
        rw [rest_castSucc m c t, restAt_pos m c _ _ h0]
        iintro ⟨⟨⟨HS0, HS1⟩, Hg⟩, Ho, ⟨%d0, H0⟩, ⟨%d1, H1⟩, ⟨%d2, H2⟩, ⟨%d3, H3⟩⟩
        iapply ((midRun m c t h1 h2 (carriedBefore m c t).rowMin (carriedBefore m c t).colMin).2.2 Set.univ _)
        isplitl [H0]; · iexact H0
        isplitl [H1]; · iexact H1
        isplitl [HS0]; · iexact HS0
        isplitl [HS1]; · iexact HS1
        iintro ⟨H0, H1, ⟨%e6, H6⟩, H7⟩
        isplitl [H6 H7 Hg]
        · isplitl [H6 H7]
          · isplitl [H6]
            · unfold owns; iexists _; isplitr
              swap; · iexact H6
              ipureintro; exact View.read_writes_eq_canon _ _ _ (cover_mid_rowMin m c t h1 h2 (carriedBefore m c t).rowMin (carriedBefore m c t).colMin)
            unfold owns; iexists _; isplitr
            swap; · iexact H7
            ipureintro; rfl
          iexact Hg
        isplitl [Ho]; · iexact Ho
        isplitl [H0]; · iexact H0
        isplitl [H1]; · iexact H1
        isplitl [H2]; · iexists _; iexact H2
        iexists _; iexact H3

/-- The obligation at every point. -/
theorem body_obligation (c : Dev nD) : BodyObligation (dats (F := F) m 0 c) (defs₀ (F := F)) Variants.none () Set.univ := fun t => by
  rw [bigSep_W0, bigSep_W0]
  exact sound_body m c t

/-- Before the first point the scratches hold anything. -/
theorem hin (c : Dev nD) : Pipeline.ΦA spec0 c ⊢ (dats m 0 c).Φ 0 := by
  rw [show (dats m 0 c).Φ 0 = restAt m c 0 (Nat.zero_le _) from rfl, restAt_zero m c 0 _ rfl]
  try exact Idealize.SL.BI.Entails.refl _

/-- After the last point what the scratches hold is forgotten. -/
theorem hout (c : Dev nD) : (dats m 0 c).Φ (Fin.last cfg0.N) ⊢ Pipeline.ΦA spec0 c := by
  have hne : (Fin.last cfg0.N).val ≠ 0 := by rw [Fin.val_last]; have : cfg0.N = 256 := N_0; omega
  rw [show (dats m 0 c).Φ (Fin.last cfg0.N) = restAt m c (Fin.last cfg0.N).val (Nat.le_of_lt_succ (Fin.last cfg0.N).isLt) from rfl,
    restAt_pos m c _ _ hne, restAny_eq]
  iintro ⟨⟨HS0, HS1⟩, Hg⟩
  isplitl [HS0 HS1]
  · isplitl [HS0]
    · iexists _; iexact HS0
    iexists _; iexact HS1
  iexact Hg

set_option backward.isDefEq.respectTransparency.types false in
/-- The region's run: every weakly fair execution terminates without fault; each array of the region ends at what the
    proof data computes (an input unchanged, a result at what was written back), every other buffer at what the host
    operations after the region make of those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.Value.Contents.lean ====
/-
  What each point's stores leave, as formulas in the tile's distances.

  Write d for the 4 × 512 × 512 tile of squared distances the point computes from its two input tiles. Every point
  replaces the row minima by the pointwise minimum of (the row minima it found, or +∞ at a row start) and d's minima
  along its columns, and replaces the 512 columns of the column minima that the point's column tile names by the
  pointwise minimum of what they held (+∞ at the first point) and d's minima along its rows. A row end adds the new
  row minima's sum to the running sum; the last point stores the new column minima's sum. So the carried contents
  obey one recursion over the points, with no case split left in it.
-/
import proofs.«134979_j28595892257476_1_alg».proof.Proof.BodyKernelIdeal.After
import Idealize.ShloMosaic.Lib.Pipeline.Value

set_option maxRecDepth 16384
noncomputable section

open scoped BigOperators

namespace Cert.KernelIdeal.Body

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ)

/-- The 512 columns of the column minima that the point's column tile names. -/
def colRect (i : grid0.Coords) : Rect S4x8192 := Rect.unit (k0_off1 i) S4x512.size (k0_off1_inb i)

/-- The tile of squared distances at point `t`. -/
abbrev distTile (c : Dev nD) (t : Fin cfg0.N) : FVec F S4x512x512 .f32 := k0_pay8 (iblk m c 0 t) (iblk m c 1 t)

/-- The column minima after folding tile `d`'s minima along its rows into the columns the point names. -/
def colFold (i : grid0.Coords) (d : FVec F S4x512x512 .f32) (cm : Vec F S4x8192 .f32) : Vec F S4x8192 .f32 :=
  (colRect i).overlay cm (k0_pay2 d (View.ld cm (colRect i)))

/-- One point's effect on what is carried (for a point other than the first). -/
def stepAt (c : Dev nD) (t : Fin cfg0.N) (p : Carried F) : Carried F where
  rowSum := if t.val % 16 = 15 then k0_pay3 p.rowSum (k0_pay1 (distTile m c t) (if t.val % 16 = 0 then k0_pay7 else p.rowMin)) else p.rowSum
  rowMin := k0_pay1 (distTile m c t) (if t.val % 16 = 0 then k0_pay7 else p.rowMin)
  colMin := colFold (grid0.coords t) (distTile m c t) p.colMin

/-! ## Reading a buffer back

A store through the whole-shape rectangle at zero offsets leaves its payload, and a load through it reads the
contents; the zero offsets are spelt as the literal vectors below. A whole buffer reads back what was put in it.
A store through a slice leaves its payload on the slice and what was there elsewhere. -/

theorem zeros2 : (![0, 0] : Fin 2 → Nat) = fun _ => 0 := by funext a; fin_cases a <;> rfl
theorem zeros3 : (![0, 0, 0] : Fin 3 → Nat) = fun _ => 0 := by funext a; fin_cases a <;> rfl

/-- The row-minimum scratch reads back what was put in it. -/
theorem read_unread_rowMin (X : Vec F S4x512 .f32) :
    View.read (Elt F) (View.whole cc0_scratch0) ((Memref.isWhole_whole cc0_scratch0).unread X) = X :=
  (Memref.isWhole_whole cc0_scratch0).read_unread X

/-- The column-minimum scratch reads back what was put in it. -/
theorem read_unread_colMin (X : Vec F S4x8192 .f32) :
    View.read (Elt F) (View.whole cc0_scratch1) ((Memref.isWhole_whole cc0_scratch1).unread X) = X :=
  (Memref.isWhole_whole cc0_scratch1).read_unread X

/-- A load of what one whole-shape fill left reads the fill, whatever was there before. -/
theorem read_writes_fill {sig' : RefSig} {κ : Kind} {sp : Space} {S : Shape} {e : EltTy} (v : View sig' κ sp S e)
    (f : v.ty.Contents (Elt F)) {off : Fin S.rank → Nat} (h : off = fun _ => 0) (inb : ∀ a, off a + S.size a ≤ S.size a)
    (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, View.mem_set_unit_zero h inb y⟩),
    View.canon_unit_zero h]

/-- One slice store into the column-minimum scratch holding `cm` leaves the slice's payload over `cm`: on the slice
    the payload, off it what `cm` had. -/
theorem colMinOver_single (cm : Vec F S4x8192 .f32) (R : Rect S4x8192) (w : R.shape.Idx → Elt F .f32) :
    colMinOver cm [⟨R, w⟩] = R.overlay cm w := by
  funext y
  by_cases hy : y ∈ R.set
  · obtain ⟨x, rfl⟩ : ∃ x, R.emb x = y := R.exists_idx_of_mem hy
    rw [Rect.overlay_emb]
    exact View.read_writes_cons_emb vColMin _ R w [] x
  · rw [Rect.overlay_of_not_mem _ _ _ hy]
    refine (View.read_writes_apply_of_forall_not_mem vColMin _ y _ ?_).trans ?_
    · intro q hq
      rw [List.mem_singleton] at hq
      subst hq
      exact hy
    · exact congrFun ((Memref.isWhole_whole cc0_scratch1).read_unread cm) y

/-- A record of carried contents is its three fields. -/
theorem Carried.eq_mk (q : Carried F) {a : Vec F S1x1 .f32} {b : Vec F S4x512 .f32} {d : Vec F S4x8192 .f32}
    (h1 : q.rowSum = a) (h2 : q.rowMin = b) (h3 : q.colMin = d) : q = ⟨a, b, d⟩ := by
  cases q
  dsimp only at h1 h2 h3
  subst h1 h2 h3
  rfl

/-! ## What each case's stores leave -/

/-! ### The first point: the running sum is zeroed, both scratches are filled with +∞ and then folded into. -/

theorem afterFirst_rowSum (c : Dev nD) (t : Fin cfg0.N) (h0 : t.val = 0) :
    (afterFirst m c t h0).rowSum = k0_pay5 := by
  unfold afterFirst firstRun
  dsimp only
  unfold runFirst
  dsimp only
  sl_unfold_run_names
  rw [View.canon_unit_zero (S := S1x1) zeros2]

theorem afterFirst_rowMin (c : Dev nD) (t : Fin cfg0.N) (h0 : t.val = 0) :
    (afterFirst m c t h0).rowMin = k0_pay1 (distTile m c t) k0_pay7 := by
  unfold afterFirst firstRun
  dsimp only
  unfold runFirst
  dsimp only
  sl_unfold_run_names
  rw [View.canon_cons_unit_zero (S := S4x512) zeros2, View.readCov_unit_zero (S := S4x512) _ zeros2]
  simp only [View.readAt_eq_ld, Memref.IsWhole.read_unread, read_unread_rowMin, read_unread_colMin, View.ld_unit_zero (S := S4x512x2) zeros3]

theorem afterFirst_colMin (c : Dev nD) (t : Fin cfg0.N) (h0 : t.val = 0) :
    (afterFirst m c t h0).colMin = colFold (grid0.coords t) (distTile m c t) k0_pay6 := by
  unfold afterFirst firstRun
  dsimp only
  unfold runFirst
  dsimp only
  sl_unfold_run_names
  rw [View.canon_cons, View.canon_unit_zero (S := S4x8192) zeros2]
  simp only [View.readAt_eq_ld, Memref.IsWhole.read_unread, read_unread_rowMin, read_unread_colMin, View.ld_unit_zero (S := S4x512x2) zeros3, read_writes_fill (S := S4x8192) _ _ zeros2]
  rfl

theorem afterFirst_eq (c : Dev nD) (t : Fin cfg0.N) (h0 : t.val = 0) :
    afterFirst m c t h0 = ⟨k0_pay5, k0_pay1 (distTile m c t) k0_pay7, colFold (grid0.coords t) (distTile m c t) k0_pay6⟩ :=
  Carried.eq_mk _ (afterFirst_rowSum m c t h0) (afterFirst_rowMin m c t h0) (afterFirst_colMin m c t h0)

/-! ### A row start: the row minima are filled with +∞ and then folded into; the column minima are folded into. -/

theorem afterRowStart_rowMin (c : Dev nD) (t : Fin cfg0.N) (h1 : t.val % 16 = 0) (hpos : t.val ≠ 0) (p : Carried F) :
    (afterRowStart m c t h1 hpos p).rowMin = k0_pay1 (distTile m c t) k0_pay7 := by
  unfold afterRowStart rowStartRun
  dsimp only
  unfold runRowStart
  dsimp only
  sl_unfold_run_names
  rw [View.canon_cons_unit_zero (S := S4x512) zeros2, View.readCov_unit_zero (S := S4x512) _ zeros2]
  simp only [View.readAt_eq_ld, Memref.IsWhole.read_unread, read_unread_rowMin, read_unread_colMin, View.ld_unit_zero (S := S4x512x2) zeros3]

theorem afterRowStart_colMin (c : Dev nD) (t : Fin cfg0.N) (h1 : t.val % 16 = 0) (hpos : t.val ≠ 0) (p : Carried F) :
    (afterRowStart m c t h1 hpos p).colMin = colFold (grid0.coords t) (distTile m c t) p.colMin := by
  unfold afterRowStart rowStartRun
  dsimp only
  unfold runRowStart
  dsimp only
  sl_unfold_run_names
  rw [colMinOver_single]
  simp only [View.readAt_eq_ld, Memref.IsWhole.read_unread, read_unread_rowMin, read_unread_colMin, View.ld_unit_zero (S := S4x512x2) zeros3]
  rfl

theorem afterRowStart_eq (c : Dev nD) (t : Fin cfg0.N) (h1 : t.val % 16 = 0) (hpos : t.val ≠ 0) (p : Carried F) :
    afterRowStart m c t h1 hpos p
      = ⟨p.rowSum, k0_pay1 (distTile m c t) k0_pay7, colFold (grid0.coords t) (distTile m c t) p.colMin⟩ :=
  Carried.eq_mk _ rfl (afterRowStart_rowMin m c t h1 hpos p) (afterRowStart_colMin m c t h1 hpos p)

/-! ### Inside a row: both scratches are folded into. -/

theorem afterMid_rowMin (c : Dev nD) (t : Fin cfg0.N) (h1 : ¬t.val % 16 = 0) (h2 : ¬t.val % 16 = 15) (p : Carried F) :
    (afterMid m c t h1 h2 p).rowMin = k0_pay1 (distTile m c t) p.rowMin := by
  unfold afterMid midRun
  dsimp only
  unfold runMid
  dsimp only
  sl_unfold_run_names
  rw [View.canon_unit_zero (S := S4x512) zeros2]
  simp only [View.readAt_eq_ld, Memref.IsWhole.read_unread, read_unread_rowMin, read_unread_colMin, View.ld_unit_zero (S := S4x512x2) zeros3, View.ld_unit_zero (S := S4x512) zeros2]

theorem afterMid_colMin (c : Dev nD) (t : Fin cfg0.N) (h1 : ¬t.val % 16 = 0) (h2 : ¬t.val % 16 = 15) (p : Carried F) :
    (afterMid m c t h1 h2 p).colMin = colFold (grid0.coords t) (distTile m c t) p.colMin := by
  unfold afterMid midRun
  dsimp only
  unfold runMid
  dsimp only
  sl_unfold_run_names
  rw [colMinOver_single]
  simp only [View.readAt_eq_ld, Memref.IsWhole.read_unread, read_unread_rowMin, read_unread_colMin, View.ld_unit_zero (S := S4x512x2) zeros3]
  rfl

theorem afterMid_eq (c : Dev nD) (t : Fin cfg0.N) (h1 : ¬t.val % 16 = 0) (h2 : ¬t.val % 16 = 15) (p : Carried F) :
    afterMid m c t h1 h2 p
      = ⟨p.rowSum, k0_pay1 (distTile m c t) p.rowMin, colFold (grid0.coords t) (distTile m c t) p.colMin⟩ :=
  Carried.eq_mk _ rfl (afterMid_rowMin m c t h1 h2 p) (afterMid_colMin m c t h1 h2 p)

/-! ### A row end: both scratches are folded into, and the new row minima's sum is added to the running sum. -/

theorem afterRowEnd_rowSum (c : Dev nD) (t : Fin cfg0.N) (h2 : t.val % 16 = 15) (h3 : t.val ≠ 255) (p : Carried F) :
    (afterRowEnd m c t h2 h3 p).rowSum = k0_pay3 p.rowSum (k0_pay1 (distTile m c t) p.rowMin) := by
  unfold afterRowEnd rowEndRun
  dsimp only
  unfold runRowEnd
  dsimp only
  sl_unfold_run_names
  rw [View.canon_unit_zero (S := S1x1) zeros2, View.readCov_unit_zero (S := S4x512) _ zeros2]
  simp only [View.readAt_eq_ld, Memref.IsWhole.read_unread, read_unread_rowMin, read_unread_colMin, View.ld_unit_zero (S := S4x512x2) zeros3, View.ld_unit_zero (S := S4x512) zeros2, View.ld_unit_zero (S := S1x1) zeros2]

theorem afterRowEnd_rowMin (c : Dev nD) (t : Fin cfg0.N) (h2 : t.val % 16 = 15) (h3 : t.val ≠ 255) (p : Carried F) :
    (afterRowEnd m c t h2 h3 p).rowMin = k0_pay1 (distTile m c t) p.rowMin := by
  unfold afterRowEnd rowEndRun
  dsimp only
  unfold runRowEnd
  dsimp only
  sl_unfold_run_names
  rw [View.canon_unit_zero (S := S4x512) zeros2]
  simp only [View.readAt_eq_ld, Memref.IsWhole.read_unread, read_unread_rowMin, read_unread_colMin, View.ld_unit_zero (S := S4x512x2) zeros3, View.ld_unit_zero (S := S4x512) zeros2]

theorem afterRowEnd_colMin (c : Dev nD) (t : Fin cfg0.N) (h2 : t.val % 16 = 15) (h3 : t.val ≠ 255) (p : Carried F) :
    (afterRowEnd m c t h2 h3 p).colMin = colFold (grid0.coords t) (distTile m c t) p.colMin := by
  unfold afterRowEnd rowEndRun
  dsimp only
  unfold runRowEnd
  dsimp only
  sl_unfold_run_names
  rw [colMinOver_single]
  simp only [View.readAt_eq_ld, Memref.IsWhole.read_unread, read_unread_rowMin, read_unread_colMin, View.ld_unit_zero (S := S4x512x2) zeros3]
  rfl

theorem afterRowEnd_eq (c : Dev nD) (t : Fin cfg0.N) (h2 : t.val % 16 = 15) (h3 : t.val ≠ 255) (p : Carried F) :
    afterRowEnd m c t h2 h3 p
      = ⟨k0_pay3 p.rowSum (k0_pay1 (distTile m c t) p.rowMin), k0_pay1 (distTile m c t) p.rowMin,
          colFold (grid0.coords t) (distTile m c t) p.colMin⟩ :=
  Carried.eq_mk _ (afterRowEnd_rowSum m c t h2 h3 p) (afterRowEnd_rowMin m c t h2 h3 p) (afterRowEnd_colMin m c t h2 h3 p)

/-! ### The last point: a row end that also stores the new column minima's sum. -/

theorem afterLast_rowSum (c : Dev nD) (t : Fin cfg0.N) (h3 : t.val = 255) (p : Carried F) :
    (afterLast m c t h3 p).rowSum = k0_pay3 p.rowSum (k0_pay1 (distTile m c t) p.rowMin) := by
  unfold afterLast lastRun
  dsimp only
  unfold runLast
  dsimp only
  sl_unfold_run_names
  rw [View.canon_unit_zero (S := S1x1) zeros2, View.readCov_unit_zero (S := S4x512) _ zeros2]
  simp only [View.readAt_eq_ld, Memref.IsWhole.read_unread, read_unread_rowMin, read_unread_colMin, View.ld_unit_zero (S := S4x512x2) zeros3, View.ld_unit_zero (S := S4x512) zeros2, View.ld_unit_zero (S := S1x1) zeros2]

theorem afterLast_rowMin (c : Dev nD) (t : Fin cfg0.N) (h3 : t.val = 255) (p : Carried F) :
    (afterLast m c t h3 p).rowMin = k0_pay1 (distTile m c t) p.rowMin := by
  unfold afterLast lastRun
  dsimp only
  unfold runLast
  dsimp only
  sl_unfold_run_names
  rw [View.canon_unit_zero (S := S4x512) zeros2]
  simp only [View.readAt_eq_ld, Memref.IsWhole.read_unread, read_unread_rowMin, read_unread_colMin, View.ld_unit_zero (S := S4x512x2) zeros3, View.ld_unit_zero (S := S4x512) zeros2]

theorem afterLast_colMin (c : Dev nD) (t : Fin cfg0.N) (h3 : t.val = 255) (p : Carried F) :
    (afterLast m c t h3 p).colMin = colFold (grid0.coords t) (distTile m c t) p.colMin := by
  unfold afterLast lastRun
  dsimp only
  unfold runLast
  dsimp only
  sl_unfold_run_names
  rw [colMinOver_single]
  simp only [View.readAt_eq_ld, Memref.IsWhole.read_unread, read_unread_rowMin, read_unread_colMin, View.ld_unit_zero (S := S4x512x2) zeros3]
  rfl

theorem afterLast_eq (c : Dev nD) (t : Fin cfg0.N) (h3 : t.val = 255) (p : Carried F) :
    afterLast m c t h3 p
      = ⟨k0_pay3 p.rowSum (k0_pay1 (distTile m c t) p.rowMin), k0_pay1 (distTile m c t) p.rowMin,
          colFold (grid0.coords t) (distTile m c t) p.colMin⟩ :=
  Carried.eq_mk _ (afterLast_rowSum m c t h3 p) (afterLast_rowMin m c t h3 p) (afterLast_colMin m c t h3 p)

/-- The last point's second store: the sum of the column minima it has just folded into. -/
theorem lastColSum_of (c : Dev nD) (t : Fin cfg0.N) (h3 : t.val = 255) (p : Carried F) :
    lastColSum m c t h3 p = k0_pay4 (colFold (grid0.coords t) (distTile m c t) p.colMin) := by
  unfold lastColSum lastRun
  dsimp only
  unfold runLast
  dsimp only
  sl_unfold_run_names
  rw [View.canon_unit_zero (S := S1x1) zeros2]
  simp only [View.readAt_eq_ld, View.ld_unit_zero (S := S4x8192) zeros2]
  refine congrArg k0_pay4 ((colMinOver_single p.colMin _ _).trans ?_)
  simp only [View.readAt_eq_ld, Memref.IsWhole.read_unread, read_unread_rowMin, read_unread_colMin, View.ld_unit_zero (S := S4x512x2) zeros3]
  rfl

/-! ## The recursion -/

/-- After the first point. -/
theorem carriedAt_zero (c : Dev nD) (h : 0 < cfg0.N) :
    carriedAt m c 0 h = ⟨k0_pay5, k0_pay1 (distTile m c ⟨0, h⟩) k0_pay7, colFold (grid0.coords ⟨0, h⟩) (distTile m c ⟨0, h⟩) k0_pay6⟩ := by
  have e : carriedAt m c 0 h = afterFirst m c ⟨0, h⟩ rfl := rfl
  rw [e]
  exact afterFirst_eq m c ⟨0, h⟩ rfl

/-- After a later point. -/
theorem carriedAt_succ (c : Dev nD) (n : ℕ) (hn : n + 1 < cfg0.N) :
    carriedAt m c (n + 1) hn = stepAt m c ⟨n + 1, hn⟩ (carriedAt m c n (Nat.lt_of_succ_lt hn)) := by
  by_cases h1 : (n + 1) % 16 = 0
  · have h2 : ¬(n + 1) % 16 = 15 := by omega
    have e : carriedAt m c (n + 1) hn
        = afterRowStart m c ⟨n + 1, hn⟩ h1 (Nat.succ_ne_zero n) (carriedAt m c n (Nat.lt_of_succ_lt hn)) := dif_pos h1
    rw [e, afterRowStart_eq]
    unfold stepAt
    dsimp only
    rw [if_pos h1, if_neg h2]
  · by_cases h2 : (n + 1) % 16 = 15
    · by_cases h3 : n + 1 = 255
      · have e : carriedAt m c (n + 1) hn = afterLast m c ⟨n + 1, hn⟩ h3 (carriedAt m c n (Nat.lt_of_succ_lt hn)) :=
          (dif_neg h1).trans ((dif_pos h2).trans (dif_pos h3))
        rw [e, afterLast_eq]
        unfold stepAt
        dsimp only
        rw [if_neg h1, if_pos h2]
      · have e : carriedAt m c (n + 1) hn = afterRowEnd m c ⟨n + 1, hn⟩ h2 h3 (carriedAt m c n (Nat.lt_of_succ_lt hn)) :=
          (dif_neg h1).trans ((dif_pos h2).trans (dif_neg h3))
        rw [e, afterRowEnd_eq]
        unfold stepAt
        dsimp only
        rw [if_neg h1, if_pos h2]
    · have e : carriedAt m c (n + 1) hn = afterMid m c ⟨n + 1, hn⟩ h1 h2 (carriedAt m c n (Nat.lt_of_succ_lt hn)) :=
        (dif_neg h1).trans (dif_neg h2)
      rw [e, afterMid_eq]
      unfold stepAt
      dsimp only
      rw [if_neg h1, if_neg h2]

/-- The second result is the sum of the column minima carried after the last point. -/
theorem lastColSum_eq (c : Dev nD) (h : 255 < cfg0.N) :
    lastColSum m c ⟨255, h⟩ rfl (carriedAt m c 254 (Nat.lt_of_succ_lt h)) = k0_pay4 (carriedAt m c 255 h).colMin := by
  have e : carriedAt m c 255 h = stepAt m c ⟨255, h⟩ (carriedAt m c 254 (Nat.lt_of_succ_lt h)) := carriedAt_succ m c 254 h
  rw [e, lastColSum_of]
  rfl

end Cert.KernelIdeal.Body

end
-- ==== Proof.Value.Spec.lean ====
/-
  The two quantities both programs compute, over the extended reals.

  For point sets P and Q (four batches of 8192 points in the plane) the squared distance between point n of P and
  point m of Q in batch b is written the way both programs evaluate it: |p|² + |q|² − 2·⟨p, q⟩. The row total is the sum,
  over batches and points of P, of the least squared distance to a point of Q; the column total is the sum, over
  batches and points of Q, of the least squared distance to a point of P. The result is the sum of the two totals,
  each divided by 32768 = 4 · 8192.
-/
import Idealize.ShloMosaic.PureOps.Ideal
import Idealize.ShloMosaic.Lib.ValueIdx

noncomputable section

open scoped BigOperators

namespace Cert.Chamfer

open Idealize.ShloMosaic Idealize.ShloMosaic.ValueIdx

/-- Four batches of 8192 points with two coordinates each. -/
abbrev Pts : Type := (⟨3, ![4, 8192, 2]⟩ : Shape).Idx → EReal

/-- The factor 2, as both programs spell it. -/
abbrev two : EReal := Ideal.ofBits .f32 0x40000000#32

/-- The squared distance between point `n` of `P` and point `m` of `Q` in batch `b`, as |p|² + |q|² − 2·⟨p, q⟩. -/
def sqDist (P Q : Pts) (b : Fin 4) (n m : Fin 8192) : EReal :=
  (P (ix3 b n 0) * P (ix3 b n 0) + P (ix3 b n 1) * P (ix3 b n 1))
    + (Q (ix3 b m 0) * Q (ix3 b m 0) + Q (ix3 b m 1) * Q (ix3 b m 1))
    - two * (P (ix3 b n 0) * Q (ix3 b m 0) + P (ix3 b n 1) * Q (ix3 b m 1))

/-- The sum over batches and points of `P` of the least squared distance to a point of `Q`. -/
def rowTotal (P Q : Pts) : EReal := ∑ b : Fin 4, ∑ n : Fin 8192, ⨅ m : Fin 8192, sqDist P Q b n m

/-- The sum over batches and points of `Q` of the least squared distance to a point of `P`. -/
def colTotal (P Q : Pts) : EReal := ∑ b : Fin 4, ∑ m : Fin 8192, ⨅ n : Fin 8192, sqDist P Q b n m

/-- Entry `n` of stretch `i` (taken modulo 16) among the 8192: the tiled computation cuts each point axis into 16
    stretches of 512. -/
def glob (i : ℕ) (n : Fin 512) : Fin 8192 := ⟨512 * (i % 16) + n.val, by have := n.isLt; omega⟩

/-- Both programs end the same way: each total divided by 32768, and the two quotients added. -/
def meanSum (r c : (⟨0, ![]⟩ : Shape).Idx → EReal) : (⟨0, ![]⟩ : Shape).Idx → EReal :=
  addf (F := Ideal) (φ := .f32) (Host.divf (F := Ideal) (φ := .f32) r (constant (F := Ideal) ⟨0, ![]⟩ .f32 0x47000000#32))
    (Host.divf (F := Ideal) (φ := .f32) c (constant (F := Ideal) ⟨0, ![]⟩ .f32 0x47000000#32))

end Cert.Chamfer

end
-- ==== Proof.Value.TileMath.lean ====
/-
  The tile's arithmetic over the extended reals, one entry at a time.

  From two input tiles (4 batches × 512 points × 2 coordinates each) the body forms the 4 × 512 × 512 tile of squared
  distances |p|² + |q|² − 2·⟨p, q⟩, takes its minima along either point axis (starting from +∞, so the minimum of
  a stretch is the infimum over it), and sums a whole array (starting from 0). Each lemma reads one of these values
  at an index given by its coordinates.
-/
import proofs.«134979_j28595892257476_1_alg».proof.Proof.Gen.KernelIdeal.Skeleton
import proofs.«134979_j28595892257476_1_alg».proof.Proof.Value.Spec
import Idealize.ShloMosaic.Lib.ValueIdx
import Idealize.ShloMosaic.Lib.ValueLayout
import Idealize.ShloMosaic.Lib.Pipeline.Value
import Idealize.ShloMosaic.PureOps.Ideal.Laws
import Mathlib.Data.Fintype.Lattice

set_option maxRecDepth 16384
noncomputable section

open scoped BigOperators

namespace Cert.KernelIdeal.Tile

open Cert.KernelIdeal Cert.KernelIdeal.Gen
open Idealize.ShloMosaic Idealize.ShloMosaic.ValueIdx

/-! ## Layout operations at coordinates: a column cut from the last axis, unit axes added or dropped, and their broadcasts -/

section Layout
variable {α : Type}

/-- A rank-3 array cut along its last axis from `o` reads, at `(a, b, j)`, the source at `(a, b, k)` with `k = o + j`. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-- An `[a, b, 1]` array cast to `[a, b]` reads, at `(i, j)`, the operand at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b, 1]` array broadcast to `[a, b, c]` reads, at `(i, j, k)`, the operand's one entry of row `(i, j)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand's one row of batch `i` at `k`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

end Layout

/-! ## The tile of squared distances -/

/-- A coordinate column of a tile of points: the cut of the last axis at `c`, seen as a `4 × 512` array, reads the
    tile's coordinate `c`. -/
theorem col_apply (x : Vec Ideal S4x512x2 .f32) (o : Nat) (c : Fin 2) (hc : c.val = o)
    (h : S4x512x2.Slices ![0, 0, o] S4x512x1) (b : Fin 4) (n : Fin 512) :
    shapeCast S4x512 (extractStridedSlice S4x512x1 ![0, 0, o] x h) shapeCasts_S4x512x1_S4x512 (ix2 b n)
      = x (ix3 b n c) :=
  (shapeCast_ab1_ab_apply _ _ b n).trans (slice3_axis2_apply o x h b n (0 : Fin 1) c (by rw [hc]; rfl))

/-- A `4 × 512` array laid along the tile's first point axis and repeated along the second. -/
theorem alongRows_apply (v : FVec Ideal S4x512 .f32) (b : Fin 4) (n mm : Fin 512) :
    broadcastTo S4x512x512 (shapeCast S4x512x1 v shapeCasts_S4x512_S4x512x1) broadcasts_S4x512x1_S4x512x512 (ix3 b n mm)
      = v (ix2 b n) :=
  (broadcastTo_ab1_abc_apply _ _ b n mm).trans (shapeCast_ab_ab1_apply v _ b n (0 : Fin 1))

/-- A `4 × 512` array laid along the tile's second point axis and repeated along the first. -/
theorem alongCols_apply (v : FVec Ideal S4x512 .f32) (b : Fin 4) (n mm : Fin 512) :
    broadcastTo S4x512x512 (shapeCast S4x1x512 v shapeCasts_S4x512_S4x1x512) broadcasts_S4x1x512_S4x512x512 (ix3 b n mm)
      = v (ix2 b mm) :=
  (broadcastTo_a1c_abc_apply _ _ b n mm).trans (shapeCast_ab_a1b_apply v _ b (0 : Fin 1) mm)

/-- An entry of the tile of squared distances. -/
theorem dist_apply (x0 x1 : Vec Ideal S4x512x2 .f32) (b : Fin 4) (n mm : Fin 512) :
    k0_pay8 (F := Ideal) x0 x1 (ix3 b n mm)
      = (x0 (ix3 b n 0) * x0 (ix3 b n 0) + x0 (ix3 b n 1) * x0 (ix3 b n 1))
        + (x1 (ix3 b mm 0) * x1 (ix3 b mm 0) + x1 (ix3 b mm 1) * x1 (ix3 b mm 1))
        - Cert.Chamfer.two * (x0 (ix3 b n 0) * x1 (ix3 b mm 0) + x0 (ix3 b n 1) * x1 (ix3 b mm 1)) := by
  unfold k0_pay8
  simp only [subf_apply, addf_apply, mulf_apply, broadcast_apply, alongRows_apply, alongCols_apply]
  rw [col_apply x0 0 0 rfl, col_apply x0 1 1 rfl, col_apply x1 0 0 rfl, col_apply x1 1 1 rfl]
  rfl

/-! ## A minimum along one point axis, started from +∞, is the infimum over that axis -/

/-- The bit pattern the minima start from is +∞. -/
theorem ofBits_inf_f32 : Ideal.ofBits .f32 0x7F800000#32 = (⊤ : EReal) := by simp [Ideal.ofBits, Ideal.ieee]

/-- The fold of `min` from +∞ over every index of a finite type is the infimum of the family. -/
theorem fold_min_inf_univ {ι : Type} [Fintype ι] (f : ι → EReal) :
    (Finset.univ : Finset ι).fold min (Ideal.ofBits .f32 0x7F800000#32) f = ⨅ i, f i := by
  rw [ofBits_inf_f32]
  exact Finset.inf_univ_eq_iInf f

/-- The tile index over `(b, n)` with second point coordinate `mm`. -/
theorem lift_row (b : Fin 4) (n mm : Fin 512) :
    reduces_S4x512x512_S4x512.lift (ix2 b n) mm = ix3 b n mm := by
  funext c
  match c with
  | ⟨0, _⟩ => exact Fin.ext rfl
  | ⟨1, _⟩ => exact Fin.ext rfl
  | ⟨2, _⟩ => exact Fin.ext rfl

/-- The tile index over `(b, mm)` with first point coordinate `n`. -/
theorem lift_col (b : Fin 4) (mm n : Fin 512) :
    reduces_S4x512x512_S4x512_2.lift (ix2 b mm) n = ix3 b n mm := by
  funext c
  match c with
  | ⟨0, _⟩ => exact Fin.ext rfl
  | ⟨1, _⟩ => exact Fin.ext rfl
  | ⟨2, _⟩ => exact Fin.ext rfl

/-- The row minima are lowered by the tile's least entry along its second point axis. -/
theorem rowFold_apply (d : FVec Ideal S4x512x512 .f32) (rm : Vec Ideal S4x512 .f32) (b : Fin 4) (n : Fin 512) :
    k0_pay1 (F := Ideal) d rm (ix2 b n) = min (rm (ix2 b n)) (⨅ mm : Fin 512, d (ix3 b n mm)) := by
  unfold k0_pay1
  rw [shapeCast_self]
  refine (minimumf_apply _ _ _).trans (congrArg (min (rm (ix2 b n))) ?_)
  refine (multiReduction_minimumf_eq_fold (F := Ideal) d _ reduces_S4x512x512_S4x512 _ _ (ix2 b n)).trans ?_
  refine (reduces_S4x512x512_S4x512.fold_filter_drop_single _ _ d (ix2 b n)).trans ?_
  exact (fold_min_inf_univ (ι := Fin 512) fun mm => d (reduces_S4x512x512_S4x512.lift (ix2 b n) mm)).trans
    (iInf_congr fun mm => congrArg d (lift_row b n mm))

/-- The column minima are lowered by the tile's least entry along its first point axis. -/
theorem colFold_apply (d : FVec Ideal S4x512x512 .f32) (cs : Vec Ideal S4x512 .f32) (b : Fin 4) (mm : Fin 512) :
    k0_pay2 (F := Ideal) d cs (ix2 b mm) = min (cs (ix2 b mm)) (⨅ n : Fin 512, d (ix3 b n mm)) := by
  unfold k0_pay2
  rw [shapeCast_self]
  refine (minimumf_apply _ _ _).trans (congrArg (min (cs (ix2 b mm))) ?_)
  refine (multiReduction_minimumf_eq_fold (F := Ideal) d _ reduces_S4x512x512_S4x512_2 _ _ (ix2 b mm)).trans ?_
  refine (reduces_S4x512x512_S4x512_2.fold_filter_drop_single _ _ d (ix2 b mm)).trans ?_
  exact (fold_min_inf_univ (ι := Fin 512) fun n => d (reduces_S4x512x512_S4x512_2.lift (ix2 b mm) n)).trans
    (iInf_congr fun n => congrArg d (lift_col b mm n))

/-! ## A sum over a whole array, started from 0 -/

/-- A shape cast lists the same entries, so the sum over all of them is unchanged. -/
theorem sum_shapeCast {s t : Shape} (x : s.Idx → EReal) (h : s.ShapeCasts t) :
    ∑ i : t.Idx, shapeCast t x h i = ∑ k : s.Idx, x k :=
  Equiv.sum_comp (Shape.reshapeEquiv h) x

/-- A one-entry array read through its `1 × 1 × 1` form and repeated over a `1 × 1` array is that one entry. -/
theorem single_apply {α : Type} (v : S1.Idx → α) (y : S1x1.Idx) :
    broadcast S1x1 (extractAt ![0, 0, 0] (shapeCast S1x1x1 v shapeCasts_S1_S1x1x1) inpos_S1x1x1_p0_0_0) y
      = v (ix1 (0 : Fin 1)) := by
  refine (broadcast_apply _ y).trans ?_
  unfold extractAt
  refine shapeCast_apply v _ _ _ ?_
  rw [Shape.rowMajor_val_one, Shape.rowMajor_val_three]
  rfl

/-- The sum of every entry of the `1 × 4 × 512` form of a `4 × 512` array is the double sum over its coordinates. -/
theorem total_S4x512 (rm : Vec Ideal S4x512 .f32) (j : S1.Idx) :
    multiReduction (F := Ideal) .add [1, 2] S1 (shapeCast S1x4x512 rm shapeCasts_S4x512_S1x4x512) 0x00000000#32
      reduces_S1x4x512_S1 (.inl rfl) rfl j = ∑ b : Fin 4, ∑ n : Fin 512, rm (ix2 b n) := by
  refine (Ideal.multiReduction_add_total (φ := .f32) _ _ reduces_S1x4x512_S1 (by decide) _ _ j).trans ?_
  exact (sum_shapeCast rm _).trans (sum_idx2 _)

/-- The same for a `4 × 8192` array. -/
theorem total_S4x8192 (cm : Vec Ideal S4x8192 .f32) (j : S1.Idx) :
    multiReduction (F := Ideal) .add [1, 2] S1 (shapeCast S1x4x8192 cm shapeCasts_S4x8192_S1x4x8192) 0x00000000#32
      reduces_S1x4x8192_S1 (.inl rfl) rfl j = ∑ b : Fin 4, ∑ mm : Fin 8192, cm (ix2 b mm) := by
  refine (Ideal.multiReduction_add_total (φ := .f32) _ _ reduces_S1x4x8192_S1 (by decide) _ _ j).trans ?_
  exact (sum_shapeCast cm _).trans (sum_idx2 _)

/-- The running sum grows by the sum of all row minima. -/
theorem rowSumAdd_apply (rs : Vec Ideal S1x1 .f32) (rm : Vec Ideal S4x512 .f32) (y : S1x1.Idx) :
    k0_pay3 (F := Ideal) rs rm y = rs y + ∑ b : Fin 4, ∑ n : Fin 512, rm (ix2 b n) := by
  unfold k0_pay3
  rw [shapeCast_self]
  refine (addf_apply _ _ _).trans (congrArg (rs y + ·) ?_)
  exact (single_apply _ y).trans (total_S4x512 rm _)

/-- The second result is the sum of all column minima. -/
theorem colSumAll_apply (cm : Vec Ideal S4x8192 .f32) (y : S1x1.Idx) :
    k0_pay4 (F := Ideal) cm y = ∑ b : Fin 4, ∑ mm : Fin 8192, cm (ix2 b mm) := by
  unfold k0_pay4
  exact (single_apply _ y).trans (total_S4x8192 cm _)

/-! ## The constant arrays the accumulators start from -/

theorem zero_apply (y : S1x1.Idx) : k0_pay5 (F := Ideal) y = 0 := by
  unfold k0_pay5
  exact Ideal.ofBits_zero_f32

theorem topCol_apply (y : S4x8192.Idx) : k0_pay6 (F := Ideal) y = ⊤ := by
  unfold k0_pay6
  rw [shapeCast_self]
  exact ofBits_inf_f32

theorem topRow_apply (y : S4x512.Idx) : k0_pay7 (F := Ideal) y = ⊤ := by
  unfold k0_pay7
  rw [shapeCast_self]
  exact ofBits_inf_f32

end Cert.KernelIdeal.Tile

end
-- ==== Proof.Value.TileOf.lean ====
/-
  Where a point's tile sits in the whole table.

  Point t's first input tile is rows 512·(t / 16) … +511 of the first argument's 8192 points and its second input tile
  rows 512·(t % 16) … +511 of the second argument's, in every batch and both coordinates. So the entry (b, n, mm) of
  the tile of squared distances at t is the squared distance between point 512·(t / 16) + n of the first set and point
  512·(t % 16) + mm of the second. The 512 columns of the column minima that the point names are columns
  512·(t % 16) … +511: there the fold takes the minimum of what the column held and the tile's least entry in that
  column; every other column keeps what it held.
-/
import proofs.«134979_j28595892257476_1_alg».proof.Proof.Value.Contents
import proofs.«134979_j28595892257476_1_alg».proof.Proof.Value.TileMath

set_option maxRecDepth 16384
noncomputable section

open scoped BigOperators

namespace Cert.KernelIdeal.Body

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx

variable (m : (ℓ : Loc nD τ sig) → Buf (Elt Ideal) ℓ)

/-- The two argument arrays as the region finds them. -/
abbrev predArr (c : Dev nD) : Cert.Chamfer.Pts := V m c main_arg0
abbrev gtArr (c : Dev nD) : Cert.Chamfer.Pts := V m c main_arg1

/-- The printed index maps over the grid: the first input tile moves with the row coordinate t / 16 along the point
    axis, the second with the column coordinate t % 16, and neither moves along the batch or coordinate axis. -/
theorem tileIndex_facts : ∀ t : Fin cfg0.N,
    win0_0.index t (0 : Fin 3) = 0 ∧ win0_0.index t (1 : Fin 3) = t.val / 16 ∧ win0_0.index t (2 : Fin 3) = 0
    ∧ win0_1.index t (0 : Fin 3) = 0 ∧ win0_1.index t (1 : Fin 3) = t.val % 16 ∧ win0_1.index t (2 : Fin 3) = 0 :=
  (by decide +kernel : ∀ t : Fin grid0.N, _)

/-- The columns the point names start at batch 0 and column 512·(t % 16). -/
theorem colOffset_facts : ∀ t : Fin cfg0.N,
    k0_off1 (grid0.coords t) (0 : Fin 2) = 0 ∧ k0_off1 (grid0.coords t) (1 : Fin 2) = 512 * (t.val % 16) :=
  (by decide +kernel : ∀ t : Fin grid0.N, _)

/-- Entry (b, n, k) of the first input tile at point t is point 512·(t / 16) + n of the first set. -/
theorem iblk0_apply (c : Dev nD) (t : Fin cfg0.N) (b : Fin 4) (n : Fin 512) (k : Fin 2) :
    iblk m c 0 t (ix3 b n k) = predArr m c (ix3 b (Cert.Chamfer.glob (t.val / 16) n) k) := by
  unfold iblk
  rw [View.read_apply]
  show V m c main_arg0 (((cfg0.win 0).blk t).view.emb (ix3 b n k))
    = V m c main_arg0 (ix3 b (Cert.Chamfer.glob (t.val / 16) n) k)
  congr 1
  funext a; apply Fin.ext
  obtain ⟨e0, e1, e2, e3, e4, e5⟩ := tileIndex_facts t
  have ht : t.val < 256 := t.isLt.trans_eq N_0
  match a with
  | ⟨0, _⟩ => show win0_0.index t (0 : Fin 3) * 4 + 1 * b.val = b.val; omega
  | ⟨1, _⟩ => show win0_0.index t (1 : Fin 3) * 512 + 1 * n.val = 512 * ((t.val / 16) % 16) + n.val; omega
  | ⟨2, _⟩ => show win0_0.index t (2 : Fin 3) * 2 + 1 * k.val = k.val; omega

/-- Entry (b, n, k) of the second input tile at point t is point 512·(t % 16) + n of the second set. -/
theorem iblk1_apply (c : Dev nD) (t : Fin cfg0.N) (b : Fin 4) (n : Fin 512) (k : Fin 2) :
    iblk m c 1 t (ix3 b n k) = gtArr m c (ix3 b (Cert.Chamfer.glob (t.val % 16) n) k) := by
  unfold iblk
  rw [View.read_apply]
  show V m c main_arg1 (((cfg0.win 1).blk t).view.emb (ix3 b n k))
    = V m c main_arg1 (ix3 b (Cert.Chamfer.glob (t.val % 16) n) k)
  congr 1
  funext a; apply Fin.ext
  obtain ⟨e0, e1, e2, e3, e4, e5⟩ := tileIndex_facts t
  match a with
  | ⟨0, _⟩ => show win0_1.index t (0 : Fin 3) * 4 + 1 * b.val = b.val; omega
  | ⟨1, _⟩ => show win0_1.index t (1 : Fin 3) * 512 + 1 * n.val = 512 * ((t.val % 16) % 16) + n.val; omega
  | ⟨2, _⟩ => show win0_1.index t (2 : Fin 3) * 2 + 1 * k.val = k.val; omega

/-- The tile at point `t` is the (t / 16, t % 16) tile of the table of squared distances. -/
theorem distTile_apply (c : Dev nD) (t : Fin cfg0.N) (b : Fin 4) (n mm : Fin 512) :
    distTile m c t (ix3 b n mm)
      = Cert.Chamfer.sqDist (predArr m c) (gtArr m c) b (Cert.Chamfer.glob (t.val / 16) n) (Cert.Chamfer.glob (t.val % 16) mm) := by
  show k0_pay8 (F := Ideal) (iblk m c 0 t) (iblk m c 1 t) (ix3 b n mm) = _
  rw [Cert.KernelIdeal.Tile.dist_apply]
  rw [iblk0_apply, iblk0_apply, iblk1_apply, iblk1_apply]
  rfl

/-- Column mm of the stretch the point names is column 512·(t % 16) + mm of the 8192, in the same batch. -/
theorem colRect_emb (t : Fin cfg0.N) (b : Fin 4) (mm : Fin 512) :
    (colRect (grid0.coords t)).emb (ix2 b mm) = ix2 b (Cert.Chamfer.glob (t.val % 16) mm) := by
  obtain ⟨o0, o1⟩ := colOffset_facts t
  funext a; apply Fin.ext
  match a with
  | ⟨0, _⟩ => show k0_off1 (grid0.coords t) (0 : Fin 2) + 1 * b.val = b.val; omega
  | ⟨1, _⟩ => show k0_off1 (grid0.coords t) (1 : Fin 2) + 1 * mm.val = 512 * ((t.val % 16) % 16) + mm.val; omega

/-- The fold at column 512·(t % 16) + mm: the minimum of what that column held and the tile's least entry in its
    column mm. -/
theorem colFold_apply_glob (t : Fin cfg0.N) (d : FVec Ideal S4x512x512 .f32) (cm : Vec Ideal S4x8192 .f32) (b : Fin 4) (mm : Fin 512) :
    colFold (grid0.coords t) d cm (ix2 b (Cert.Chamfer.glob (t.val % 16) mm))
      = min (cm (ix2 b (Cert.Chamfer.glob (t.val % 16) mm))) (⨅ n : Fin 512, d (ix3 b n mm)) := by
  rw [← colRect_emb]
  unfold colFold
  refine ((colRect (grid0.coords t)).overlay_emb cm _ (ix2 b mm)).trans ?_
  refine (Cert.KernelIdeal.Tile.colFold_apply d _ b mm).trans ?_
  rfl

/-- A column the point names: the minimum of what it held and the tile's least entry in it. -/
theorem colFold_apply_in (t : Fin cfg0.N) (d : FVec Ideal S4x512x512 .f32) (cm : Vec Ideal S4x8192 .f32) (b : Fin 4) (mcol : Fin 8192)
    (h : mcol.val / 512 = t.val % 16) :
    colFold (grid0.coords t) d cm (ix2 b mcol)
      = min (cm (ix2 b mcol)) (⨅ n : Fin 512, d (ix3 b n ⟨mcol.val % 512, Nat.mod_lt _ (by decide)⟩)) := by
  -- mcol = 512·(mcol / 512) + mcol % 512 and mcol / 512 = t % 16
  have hm : Cert.Chamfer.glob (t.val % 16) ⟨mcol.val % 512, Nat.mod_lt _ (by decide)⟩ = mcol :=
    Fin.ext (by show 512 * ((t.val % 16) % 16) + mcol.val % 512 = mcol.val; omega)
  have e := colFold_apply_glob t d cm b ⟨mcol.val % 512, Nat.mod_lt _ (by decide)⟩
  rw [hm] at e
  exact e

/-- Any other column keeps what it held. -/
theorem colFold_apply_out (t : Fin cfg0.N) (d : FVec Ideal S4x512x512 .f32) (cm : Vec Ideal S4x8192 .f32) (b : Fin 4) (mcol : Fin 8192)
    (h : mcol.val / 512 ≠ t.val % 16) :
    colFold (grid0.coords t) d cm (ix2 b mcol) = cm (ix2 b mcol) := by
  unfold colFold
  apply Rect.overlay_of_not_mem
  unfold colRect
  rw [Rect.mem_set_unit]
  intro hmem
  -- a column of the stretch lies in 512·(t % 16) … +511, so its quotient by 512 is t % 16
  obtain ⟨o0, o1⟩ := colOffset_facts t
  have h1 : k0_off1 (grid0.coords t) (1 : Fin 2) ≤ mcol.val ∧ mcol.val < k0_off1 (grid0.coords t) (1 : Fin 2) + 512 := hmem 1
  omega

end Cert.KernelIdeal.Body

end
-- ==== Proof.Value.GridFold.lean ====
/-
  The arithmetic of the tiled computation, with no program in sight.

  The 8192 × 8192 table of squared distances D b n m is visited in 16 × 16 tiles of 512 × 512, row-major: visit t
  handles rows 512·(t / 16) … +511 and columns 512·(t % 16) … +511. Three things are carried: a running sum, the
  row minima of the current row of tiles (reset to +∞ when a row of tiles starts), and the column minima of all
  columns (+∞ at the start). A visit lowers the row minima by the tile's minima along its columns, lowers the
  column minima of the tile's 512 columns by the tile's minima along its rows, and, when it ends a row of tiles,
  adds the sum of the row minima to the running sum.

  After all 256 visits the running sum is the sum over all rows of the row's least entry, and every column minimum
  is the column's least entry: a minimum over 8192 entries is the minimum of the minima of its 16 stretches of 512,
  and a sum over 8192 rows is the sum of the sums over its 16 stretches; only the commutative-monoid laws of + and
  the lattice laws of min on the extended reals are used, so nothing needs to be finite.
-/
import proofs.«134979_j28595892257476_1_alg».proof.Proof.Value.Spec
import Mathlib.Order.CompleteLattice.Basic
import Mathlib.Algebra.BigOperators.Fin
import Mathlib.Data.EReal.Basic

noncomputable section

open scoped BigOperators

namespace Cert.Chamfer

open Idealize.ShloMosaic

/-- What is carried from visit to visit. -/
structure Acc where
  rs : EReal
  rm : Fin 4 → Fin 512 → EReal
  cm : Fin 4 → Fin 8192 → EReal

/-- Before the first visit: nothing summed, all minima +∞. -/
def accInit : Acc := ⟨0, fun _ _ => ⊤, fun _ _ => ⊤⟩

/-- The row minima after visit `t`. -/
def accRowMin (D : Fin 4 → Fin 8192 → Fin 8192 → EReal) (t : ℕ) (s : Acc) : Fin 4 → Fin 512 → EReal :=
  fun b n => min (if t % 16 = 0 then ⊤ else s.rm b n) (⨅ mm : Fin 512, D b (glob (t / 16) n) (glob (t % 16) mm))

/-- One visit. -/
def accStep (D : Fin 4 → Fin 8192 → Fin 8192 → EReal) (t : ℕ) (s : Acc) : Acc where
  rs := if t % 16 = 15 then s.rs + ∑ b : Fin 4, ∑ n : Fin 512, accRowMin D t s b n else s.rs
  rm := accRowMin D t s
  cm := fun b m => if m.val / 512 = t % 16 then min (s.cm b m) (⨅ n : Fin 512, D b (glob (t / 16) n) m) else s.cm b m

/-- What is carried after visit `t`. -/
def accRun (D : Fin 4 → Fin 8192 → Fin 8192 → EReal) : ℕ → Acc
  | 0 => accStep D 0 accInit
  | t + 1 => accStep D (t + 1) (accRun D t)

/-- The least value over the first j + 1 stretches is the smaller of the least value over the first j stretches and
    the least value over stretch j. -/
theorem iInf_stretch_succ (f : Fin 8192 → EReal) (j : ℕ) (hj : j < 16) :
    (⨅ m : Fin 8192, ⨅ (_ : m.val < 512 * (j + 1)), f m)
      = min (⨅ m : Fin 8192, ⨅ (_ : m.val < 512 * j), f m) (⨅ mm : Fin 512, f (glob j mm)) := by
  have hg : ∀ mm : Fin 512, (glob j mm).val = 512 * j + mm.val := fun mm => by
    simp [glob, Nat.mod_eq_of_lt hj]
  apply le_antisymm
  · apply le_min
    · exact le_iInf₂ fun m hm => iInf₂_le m (by omega)
    · exact le_iInf fun mm => iInf₂_le (glob j mm) (by rw [hg]; have := mm.isLt; omega)
  · refine le_iInf₂ fun m hm => ?_
    by_cases h : m.val < 512 * j
    · exact (min_le_left _ _).trans (iInf₂_le m h)
    · have hlt : m.val - 512 * j < 512 := by omega
      have hm' : glob j ⟨m.val - 512 * j, hlt⟩ = m := Fin.ext (by rw [hg]; simp only []; omega)
      exact (min_le_right _ _).trans ((iInf_le _ ⟨m.val - 512 * j, hlt⟩).trans (le_of_eq (congrArg f hm')))

/-- A least value over no entries is +∞. -/
theorem iInf_stretch_zero (f : Fin 8192 → EReal) :
    (⨅ m : Fin 8192, ⨅ (_ : m.val < 512 * 0), f m) = ⊤ := by
  simp

/-- A least value over the first 16 stretches is the least value over everything. -/
theorem iInf_stretch_all (f : Fin 8192 → EReal) :
    (⨅ m : Fin 8192, ⨅ (_ : m.val < 512 * 16), f m) = ⨅ m : Fin 8192, f m :=
  iInf_congr fun m => iInf_pos (by have := m.isLt; omega)

/-- The sum over the first i + 1 stretches is the sum over the first i stretches plus the sum over stretch i. -/
theorem sum_stretch_succ (h : Fin 8192 → EReal) (i : ℕ) (hi : i < 16) :
    (∑ n : Fin 8192, if n.val < 512 * (i + 1) then h n else 0)
      = (∑ n : Fin 8192, if n.val < 512 * i then h n else 0) + ∑ nn : Fin 512, h (glob i nn) := by
  have hg : ∀ nn : Fin 512, (glob i nn).val = 512 * i + nn.val := fun nn => by
    simp [glob, Nat.mod_eq_of_lt hi]
  have h1 : ∀ n : Fin 8192, (if n.val < 512 * (i + 1) then h n else 0)
      = (if n.val < 512 * i then h n else 0)
        + (if 512 * i ≤ n.val ∧ n.val < 512 * (i + 1) then h n else 0) := by
    intro n
    by_cases a : n.val < 512 * i
    · have b : n.val < 512 * (i + 1) := by omega
      have c : ¬ (512 * i ≤ n.val ∧ n.val < 512 * (i + 1)) := by omega
      rw [if_pos a, if_pos b, if_neg c, add_zero]
    · by_cases b : n.val < 512 * (i + 1)
      · have c : 512 * i ≤ n.val ∧ n.val < 512 * (i + 1) := ⟨by omega, b⟩
        rw [if_neg a, if_pos b, if_pos c, zero_add]
      · have c : ¬ (512 * i ≤ n.val ∧ n.val < 512 * (i + 1)) := by omega
        rw [if_neg a, if_neg b, if_neg c, add_zero]
  rw [Finset.sum_congr rfl (fun n _ => h1 n), Finset.sum_add_distrib]
  congr 1
  rw [← Finset.sum_filter]
  symm
  apply Finset.sum_nbij (glob i)
  · intro nn _
    rw [Finset.mem_filter]
    refine ⟨Finset.mem_univ _, ?_⟩
    rw [hg]; have := nn.isLt; omega
  · intro a _ b _ hab
    have := congrArg Fin.val hab
    rw [hg, hg] at this
    exact Fin.ext (by omega)
  · intro n hn
    rw [Finset.mem_coe, Finset.mem_filter] at hn
    have hlt : n.val - 512 * i < 512 := by omega
    exact ⟨⟨n.val - 512 * i, hlt⟩, Finset.mem_coe.2 (Finset.mem_univ _), Fin.ext (by rw [hg]; simp only []; omega)⟩
  · intro nn _
    rfl

/-- What is carried before visit t. -/
def accPre (D : Fin 4 → Fin 8192 → Fin 8192 → EReal) : ℕ → Acc
  | 0 => accInit
  | t + 1 => accStep D t (accPre D t)

theorem accRun_eq_accPre (D : Fin 4 → Fin 8192 → Fin 8192 → EReal) (t : ℕ) :
    accRun D t = accPre D (t + 1) := by
  induction t with
  | zero => rfl
  | succ k ih =>
    show accStep D (k + 1) (accRun D k) = accStep D (k + 1) (accPre D (k + 1))
    rw [ih]

/-- What is carried before visit t, in closed form: the row minima cover the stretches of columns already visited in
    the current row of tiles, the column minima of a column in stretch c cover the rows of tiles that have already
    passed stretch c, and the running sum covers the finished rows of tiles. -/
structure AccInv (D : Fin 4 → Fin 8192 → Fin 8192 → EReal) (t : ℕ) (s : Acc) : Prop where
  rm : ∀ (b : Fin 4) (n : Fin 512), t % 16 ≠ 0 →
    s.rm b n = ⨅ m : Fin 8192, ⨅ (_ : m.val < 512 * (t % 16)), D b (glob (t / 16) n) m
  cm : ∀ (b : Fin 4) (m : Fin 8192),
    s.cm b m = ⨅ n : Fin 8192, ⨅ (_ : n.val < 512 * ((t + 15 - m.val / 512) / 16)), D b n m
  rs : s.rs = ∑ b : Fin 4, ∑ n : Fin 8192, if n.val < 512 * (t / 16) then ⨅ m : Fin 8192, D b n m else 0

theorem accInv_zero (D : Fin 4 → Fin 8192 → Fin 8192 → EReal) : AccInv D 0 accInit where
  rm := fun b n h => absurd rfl h
  cm := fun b m => by
    have h0 : (0 + 15 - m.val / 512) / 16 = 0 := by omega
    rw [h0, iInf_stretch_zero]; rfl
  rs := by
    show (0 : EReal) = _
    simp

/-- The row minima after visit t cover the stretches of columns up to and including stretch t % 16. -/
theorem accRowMin_eq (D : Fin 4 → Fin 8192 → Fin 8192 → EReal) (t : ℕ) (s : Acc) (hs : AccInv D t s)
    (b : Fin 4) (n : Fin 512) :
    accRowMin D t s b n = ⨅ m : Fin 8192, ⨅ (_ : m.val < 512 * (t % 16 + 1)), D b (glob (t / 16) n) m := by
  rw [iInf_stretch_succ (fun m => D b (glob (t / 16) n) m) (t % 16) (Nat.mod_lt _ (by norm_num))]
  unfold accRowMin
  congr 1
  by_cases h : t % 16 = 0
  · rw [if_pos h, h, iInf_stretch_zero]
  · rw [if_neg h, hs.rm b n h]

theorem accInv_succ (D : Fin 4 → Fin 8192 → Fin 8192 → EReal) (t : ℕ) (ht : t < 256) (s : Acc) (hs : AccInv D t s) :
    AccInv D (t + 1) (accStep D t s) where
  rm := fun b n h => by
    have h1 : (t + 1) % 16 = t % 16 + 1 := by omega
    have h2 : (t + 1) / 16 = t / 16 := by omega
    rw [h1, h2]
    exact accRowMin_eq D t s hs b n
  cm := fun b m => by
    have hm := m.isLt
    show (if m.val / 512 = t % 16 then min (s.cm b m) (⨅ n : Fin 512, D b (glob (t / 16) n) m) else s.cm b m) = _
    by_cases h : m.val / 512 = t % 16
    · have h1 : (t + 1 + 15 - m.val / 512) / 16 = t / 16 + 1 := by omega
      have h2 : (t + 15 - m.val / 512) / 16 = t / 16 := by omega
      rw [if_pos h, h1, iInf_stretch_succ (fun n => D b n m) (t / 16) (by omega), hs.cm b m, h2]
    · have h1 : (t + 1 + 15 - m.val / 512) / 16 = (t + 15 - m.val / 512) / 16 := by omega
      rw [if_neg h, h1, hs.cm b m]
  rs := by
    show (if t % 16 = 15 then s.rs + ∑ b : Fin 4, ∑ n : Fin 512, accRowMin D t s b n else s.rs) = _
    by_cases h : t % 16 = 15
    · have h1 : (t + 1) / 16 = t / 16 + 1 := by omega
      rw [if_pos h, h1, hs.rs, ← Finset.sum_add_distrib]
      refine Finset.sum_congr rfl fun b _ => ?_
      rw [sum_stretch_succ (fun n => ⨅ m : Fin 8192, D b n m) (t / 16) (by omega)]
      congr 1
      refine Finset.sum_congr rfl fun n _ => ?_
      rw [accRowMin_eq D t s hs b n, h]
      exact iInf_stretch_all _
    · have h1 : (t + 1) / 16 = t / 16 := by omega
      rw [if_neg h, h1, hs.rs]

theorem accInv_accPre (D : Fin 4 → Fin 8192 → Fin 8192 → EReal) (t : ℕ) (ht : t ≤ 256) : AccInv D t (accPre D t) := by
  induction t with
  | zero => exact accInv_zero D
  | succ k ih => exact accInv_succ D k (by omega) (accPre D k) (ih (by omega))

/-- After the last visit the running sum is the sum of every row's least entry. -/
theorem accRun_rs (D : Fin 4 → Fin 8192 → Fin 8192 → EReal) :
    (accRun D 255).rs = ∑ b : Fin 4, ∑ n : Fin 8192, ⨅ m : Fin 8192, D b n m := by
  rw [accRun_eq_accPre D 255, (accInv_accPre D 256 (le_refl _)).rs]
  refine Finset.sum_congr rfl fun b _ => Finset.sum_congr rfl fun n _ => ?_
  exact if_pos (by have := n.isLt; omega)

/-- After the last visit every column minimum is the column's least entry. -/
theorem accRun_cm (D : Fin 4 → Fin 8192 → Fin 8192 → EReal) (b : Fin 4) (m : Fin 8192) :
    (accRun D 255).cm b m = ⨅ n : Fin 8192, D b n m := by
  have hm := m.isLt
  have h1 : (256 + 15 - m.val / 512) / 16 = 16 := by omega
  rw [accRun_eq_accPre D 255, (accInv_accPre D 256 (le_refl _)).cm b m, h1]
  exact iInf_stretch_all _

end Cert.Chamfer

end
-- ==== Proof.Value.Connect.lean ====
/-
  The carried contents are the tiled computation of the squared distances of the two argument arrays.

  Point t's first input tile is rows 512·(t / 16) … +511 of the first argument and its second input tile is rows
  512·(t % 16) … +511 of the second, so the tile of squared distances at t is the (t / 16, t % 16) tile of the whole
  table, and the 512 columns the point names in the column minima are columns 512·(t % 16) … +511. Read entry by
  entry, what is carried after point t is therefore what the tile-by-tile computation of the table carries after
  visit t; after the last point the running sum is the row total and the stored sum of column minima the column
  total.
-/
import proofs.«134979_j28595892257476_1_alg».proof.Proof.Value.TileOf
import proofs.«134979_j28595892257476_1_alg».proof.Proof.Value.GridFold

set_option maxRecDepth 16384
noncomputable section

open scoped BigOperators

namespace Cert.KernelIdeal.Body

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx

variable (m : (ℓ : Loc nD τ sig) → Buf (Elt Ideal) ℓ)

/-- The carried contents read entry by entry. -/
def absAcc (p : Carried Ideal) : Cert.Chamfer.Acc :=
  ⟨p.rowSum (ix2 0 0), fun b n => p.rowMin (ix2 b n), fun b mm => p.colMin (ix2 b mm)⟩

namespace Connect

/-- Two carried states of the tiled computation agree when they agree entry by entry. -/
theorem acc_ext {a b : Cert.Chamfer.Acc} (h1 : a.rs = b.rs) (h2 : ∀ i n, a.rm i n = b.rm i n)
    (h3 : ∀ i n, a.cm i n = b.cm i n) : a = b := by
  cases a; cases b
  simp only [Cert.Chamfer.Acc.mk.injEq]
  exact ⟨h1, funext fun i => funext fun n => h2 i n, funext fun i => funext fun n => h3 i n⟩

/-! The reading's three parts, and the three parts of one point's effect, each by unfolding its definition. -/

theorem absAcc_rs (p : Carried Ideal) : (absAcc p).rs = p.rowSum (ix2 0 0) := rfl
theorem absAcc_rm (p : Carried Ideal) (b : Fin 4) (n : Fin 512) : (absAcc p).rm b n = p.rowMin (ix2 b n) := rfl
theorem absAcc_cm (p : Carried Ideal) (b : Fin 4) (mm : Fin 8192) : (absAcc p).cm b mm = p.colMin (ix2 b mm) := rfl

theorem stepAt_rowSum (c : Dev nD) (t : Fin cfg0.N) (p : Carried Ideal) :
    (stepAt m c t p).rowSum = if t.val % 16 = 15 then k0_pay3 p.rowSum (k0_pay1 (distTile m c t) (if t.val % 16 = 0 then k0_pay7 (F := Ideal) else p.rowMin)) else p.rowSum := by
  simp only [stepAt]
theorem stepAt_rowMin (c : Dev nD) (t : Fin cfg0.N) (p : Carried Ideal) :
    (stepAt m c t p).rowMin = k0_pay1 (distTile m c t) (if t.val % 16 = 0 then k0_pay7 (F := Ideal) else p.rowMin) := by
  simp only [stepAt]
theorem stepAt_colMin (c : Dev nD) (t : Fin cfg0.N) (p : Carried Ideal) :
    (stepAt m c t p).colMin = colFold (grid0.coords t) (distTile m c t) p.colMin := by
  simp only [stepAt]

/-- A column in stretch `t % 16` is entry `mcol % 512` of that stretch. -/
theorem glob_mod (t : ℕ) (mcol : Fin 8192) (h : mcol.val / 512 = t % 16) :
    Cert.Chamfer.glob (t % 16) ⟨mcol.val % 512, Nat.mod_lt _ (by decide)⟩ = mcol := by
  apply Fin.ext
  simp only [Cert.Chamfer.glob]
  have := Nat.div_add_mod mcol.val 512
  omega

/-- Every index of a one-by-one array is the index (0, 0). -/
theorem idx11_eq (y : S1x1.Idx) : y = ix2 0 0 := by
  have h0 : y 0 = (0 : Fin 1) := Fin.ext (Nat.lt_one_iff.mp (idx2_lt0 y))
  have h1 : y 1 = (0 : Fin 1) := Fin.ext (Nat.lt_one_iff.mp (idx2_lt1 y))
  rw [eq_ix2 y, h0, h1]
  rfl

/-- The new row minima at a point are the tiled computation's new row minima. -/
theorem stepRowMin_apply (c : Dev nD) (t : Fin cfg0.N) (p : Carried Ideal) (b : Fin 4) (n : Fin 512) :
    k0_pay1 (distTile m c t) (if t.val % 16 = 0 then k0_pay7 (F := Ideal) else p.rowMin) (ix2 b n)
      = Cert.Chamfer.accRowMin (Cert.Chamfer.sqDist (predArr m c) (gtArr m c)) t.val (absAcc p) b n := by
  rw [Tile.rowFold_apply]
  simp only [Cert.Chamfer.accRowMin, absAcc_rm]
  congr 1
  · by_cases h : t.val % 16 = 0
    · rw [if_pos h, if_pos h, Tile.topRow_apply]
    · rw [if_neg h, if_neg h]
  · congr 1
    funext mm
    exact distTile_apply m c t b n mm

/-- One point's effect on what is carried is one visit of the tiled computation. -/
theorem absAcc_stepAt (c : Dev nD) (t : Fin cfg0.N) (p : Carried Ideal) :
    absAcc (stepAt m c t p)
      = Cert.Chamfer.accStep (Cert.Chamfer.sqDist (predArr m c) (gtArr m c)) t.val (absAcc p) := by
  apply acc_ext
  · -- the running sum
    rw [absAcc_rs, stepAt_rowSum]
    simp only [Cert.Chamfer.accStep]
    by_cases h : t.val % 16 = 15
    · rw [if_pos h, if_pos h, Tile.rowSumAdd_apply, absAcc_rs]
      congr 1
      refine Finset.sum_congr rfl fun b _ => Finset.sum_congr rfl fun n _ => ?_
      exact stepRowMin_apply m c t p b n
    · rw [if_neg h, if_neg h, absAcc_rs]
  · -- the row minima
    intro b n
    rw [absAcc_rm, stepAt_rowMin]
    exact stepRowMin_apply m c t p b n
  · -- the column minima
    intro b mcol
    rw [absAcc_cm, stepAt_colMin]
    simp only [Cert.Chamfer.accStep]
    by_cases h : mcol.val / 512 = t.val % 16
    · rw [if_pos h, colFold_apply_in t _ _ b mcol h, absAcc_cm]
      congr 1
      congr 1
      funext n
      rw [distTile_apply m c t b n, glob_mod t.val mcol h]
    · rw [if_neg h, colFold_apply_out t _ _ b mcol h, absAcc_cm]

/-- Before the first point: nothing summed, all minima +∞. -/
theorem absAcc_init :
    absAcc (⟨k0_pay5 (F := Ideal), k0_pay7 (F := Ideal), k0_pay6 (F := Ideal)⟩ : Carried Ideal) = Cert.Chamfer.accInit := by
  apply acc_ext
  · exact Tile.zero_apply (ix2 0 0)
  · intro b n; exact Tile.topRow_apply (ix2 b n)
  · intro b n; exact Tile.topCol_apply (ix2 b n)

/-- The first point acts as a step on the initial contents. -/
theorem stepAt_first (c : Dev nD) (h : 0 < cfg0.N) :
    stepAt m c ⟨0, h⟩ (⟨k0_pay5 (F := Ideal), k0_pay7 (F := Ideal), k0_pay6 (F := Ideal)⟩ : Carried Ideal)
      = ⟨k0_pay5 (F := Ideal), k0_pay1 (distTile m c ⟨0, h⟩) (k0_pay7 (F := Ideal)), colFold (grid0.coords ⟨0, h⟩) (distTile m c ⟨0, h⟩) (k0_pay6 (F := Ideal))⟩ := by
  have e15 : ¬ ((⟨0, h⟩ : Fin cfg0.N).val % 16 = 15) := by show ¬ (0 % 16 = 15); decide
  rw [stepAt, Carried.mk.injEq]
  refine ⟨?_, ?_, ?_⟩
  · rw [if_neg e15]
  · rw [ite_self]
  · rfl

/-- The running sum of contents that read as `s` is `s`'s running sum. -/
theorem rowSum_of_abs (p : Carried Ideal) (s : Cert.Chamfer.Acc) (h : absAcc p = s) (y : S1x1.Idx) :
    p.rowSum y = s.rs := by
  rw [idx11_eq y, ← h, absAcc_rs]

/-- A column minimum of contents that read as `s` is `s`'s column minimum. -/
theorem colMin_of_abs (p : Carried Ideal) (s : Cert.Chamfer.Acc) (h : absAcc p = s) (b : Fin 4) (mm : Fin 8192) :
    p.colMin (ix2 b mm) = s.cm b mm := by
  rw [← h, absAcc_cm]

end Connect

open Connect

/-- What is carried after point `t` is what the tiled computation carries after visit `t`. -/
theorem carried_eq_accRun (c : Dev nD) (t : ℕ) (ht : t < cfg0.N) :
    absAcc (carriedAt m c t ht) = Cert.Chamfer.accRun (Cert.Chamfer.sqDist (predArr m c) (gtArr m c)) t := by
  induction t with
  | zero =>
    rw [carriedAt_zero, ← stepAt_first, absAcc_stepAt, absAcc_init, Cert.Chamfer.accRun]
  | succ n ih =>
    rw [carriedAt_succ, absAcc_stepAt, ih (Nat.lt_of_succ_lt ht), Cert.Chamfer.accRun]

/-- After the last point the running sum is the row total. -/
theorem kernel_rowTotal (c : Dev nD) (h : 255 < cfg0.N) (y : S1x1.Idx) :
    (carriedAt m c 255 h).rowSum y = Cert.Chamfer.rowTotal (predArr m c) (gtArr m c) := by
  rw [rowSum_of_abs _ _ (carried_eq_accRun m c 255 h) y, Cert.Chamfer.accRun_rs, Cert.Chamfer.rowTotal]

/-- The second result is the column total. -/
theorem kernel_colTotal (c : Dev nD) (h : 255 < cfg0.N) (y : S1x1.Idx) :
    lastColSum m c ⟨255, h⟩ rfl (carriedAt m c 254 (Nat.lt_of_succ_lt h)) y = Cert.Chamfer.colTotal (predArr m c) (gtArr m c) := by
  rw [lastColSum_eq, Tile.colSumAll_apply, Cert.Chamfer.colTotal]
  refine Finset.sum_congr rfl fun b _ => Finset.sum_congr rfl fun mm _ => ?_
  rw [colMin_of_abs _ _ (carried_eq_accRun m c 255 h) b mm, Cert.Chamfer.accRun_cm]

end Cert.KernelIdeal.Body

end
-- ==== Proof.Value.KernelResult.lean ====
/-
  The kernel program's result.

  Both result windows cover their 1 × 1 arrays with one block, written back once, after the last point. So after the
  region the first result array holds the running sum carried after point 255, which is the row total of the two
  argument arrays, and the second holds the sum of the column minima, which is the column total. The host
  operations after the region read each as a scalar, divide each by 32768 and add the quotients.
-/
import proofs.«134979_j28595892257476_1_alg».proof.Proof.BodyKernelIdeal.Sound
import proofs.«134979_j28595892257476_1_alg».proof.Proof.Value.Connect

set_option maxRecDepth 16384
noncomputable section

open scoped BigOperators

namespace Cert.KernelIdeal.Body

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx

variable (m : (ℓ : Loc nD τ sig) → Buf (Elt Ideal) ℓ) (ρ : Dev nD → PrngReg)

/-- Both result windows sit at block (0, 0) at every point. -/
theorem resultIdx : ∀ t : Fin cfg0.N, win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- What the last point writes back of the first result is the row total, -/
theorem flushed_rowSum (c : Dev nD) (t : Fin cfg0.N) (hf : (cfg0.win 2).flush t = true) :
    (dats m 0 c).flushed 2 t = ((cfg0.win 2).blk t).view.read (Elt Ideal) (fun _ => Cert.Chamfer.rowTotal (predArr m c) (gtArr m c)) := by
  have h255 : t.val = 255 := by have h1 := (flush0_2 t).mp hf; have h2 := lt256 t; omega
  show (cfg0.win 2).cut (grid0.coords t) ((dats m 0 c).after 2 t) = _
  rw [after_rowSum]
  funext y
  obtain ⟨n, hn⟩ := t
  dsimp only at h255
  subst h255
  exact kernel_rowTotal m c hn y

/-- and of the second result the column total. -/
theorem flushed_colSum (c : Dev nD) (t : Fin cfg0.N) (hf : (cfg0.win 3).flush t = true) :
    (dats m 0 c).flushed 3 t = ((cfg0.win 3).blk t).view.read (Elt Ideal) (fun _ => Cert.Chamfer.colTotal (predArr m c) (gtArr m c)) := by
  have h255 : t.val = 255 := by have h1 := (flush0_3 t).mp hf; have h2 := lt256 t; omega
  show (cfg0.win 3).cut (grid0.coords t) ((dats m 0 c).after 3 t) = _
  rw [after_colSum m c t h255]
  funext y
  obtain ⟨n, hn⟩ := t
  dsimp only at h255
  subst h255
  exact kernel_colTotal m c hn y

/-- The one block of a 1 × 1 array holds its one index. -/
theorem mem_rowSum_blk (t : Fin cfg0.N) (i : S1x1.Idx) : i ∈ ((cfg0.win 2).blk t).view.set := by
  show i ∈ ((View.whole main_v0_0).slice (win0_2.rect t)).set
  rw [View.set_slice_whole, Rect.mem_set_unit]
  obtain ⟨e0, e1, -, -⟩ := resultIdx t
  intro a
  match a with
  | ⟨0, _⟩ => show win0_2.index t (0 : Fin 2) * 1 ≤ (i 0).val ∧ (i 0).val < win0_2.index t (0 : Fin 2) * 1 + 1; have : (i 0).val < 1 := (i 0).isLt; omega
  | ⟨1, _⟩ => show win0_2.index t (1 : Fin 2) * 1 ≤ (i 1).val ∧ (i 1).val < win0_2.index t (1 : Fin 2) * 1 + 1; have : (i 1).val < 1 := (i 1).isLt; omega

theorem mem_colSum_blk (t : Fin cfg0.N) (i : S1x1.Idx) : i ∈ ((cfg0.win 3).blk t).view.set := by
  show i ∈ ((View.whole main_v0_1).slice (win0_3.rect t)).set
  rw [View.set_slice_whole, Rect.mem_set_unit]
  obtain ⟨-, -, e0, e1⟩ := resultIdx t
  intro a
  match a with
  | ⟨0, _⟩ => show win0_3.index t (0 : Fin 2) * 1 ≤ (i 0).val ∧ (i 0).val < win0_3.index t (0 : Fin 2) * 1 + 1; have : (i 0).val < 1 := (i 0).isLt; omega
  | ⟨1, _⟩ => show win0_3.index t (1 : Fin 2) * 1 ≤ (i 1).val ∧ (i 1).val < win0_3.index t (1 : Fin 2) * 1 + 1; have : (i 1).val < 1 := (i 1).isLt; omega

theorem lastPoint : (255 : ℕ) < cfg0.N := by rw [show cfg0.N = 256 from N_0]; decide

/-- The first result array after the region. -/
theorem final_rowSum (c : Dev nD) :
    (dats m 0 c).arrAt 2 cfg0.N = (fun _ => Cert.Chamfer.rowTotal (predArr m c) (gtArr m c)) :=
  (dats m 0 c).arrAt_eq_of_cover 2 _ (fun t hf => flushed_rowSum m c t hf)
    (fun i => ⟨⟨255, lastPoint⟩, (flush0_2 _).mpr rfl, mem_rowSum_blk _ i⟩)

/-- The second result array after the region. -/
theorem final_colSum (c : Dev nD) :
    (dats m 0 c).arrAt 3 cfg0.N = (fun _ => Cert.Chamfer.colTotal (predArr m c) (gtArr m c)) :=
  (dats m 0 c).arrAt_eq_of_cover 3 _ (fun t hf => flushed_colSum m c t hf)
    (fun i => ⟨⟨255, lastPoint⟩, (flush0_3 _).mpr rfl, mem_colSum_blk _ i⟩)

/-- The first result array as the host operations find it, -/
theorem arr_rowSum (c : Dev nD) :
    Pipeline.withArrays (cfgs 0).spec c (V0 m c) (fun w => (dats m 0 c).arrAt w (cfgs 0).N) (Proc.devRef .tc main_v0_0)
      = (fun _ => Cert.Chamfer.rowTotal (predArr m c) (gtArr m c)) :=
  (Pipeline.withArrays_arr spec0 launch0.win.arr_inj c _ _ 2).trans (final_rowSum m c)

/-- and the second. -/
theorem arr_colSum (c : Dev nD) :
    Pipeline.withArrays (cfgs 0).spec c (V0 m c) (fun w => (dats m 0 c).arrAt w (cfgs 0).N) (Proc.devRef .tc main_v0_1)
      = (fun _ => Cert.Chamfer.colTotal (predArr m c) (gtArr m c)) :=
  (Pipeline.withArrays_arr spec0 launch0.win.arr_inj c _ _ 3).trans (final_colSum m c)

/-- What the host operations after the region make of the two result arrays. -/
theorem tail_eq (c : Dev nD) :
    Pipeline.afterTail₀ cfgs (dats m) 0 (V0 m) [hostOps1] c main_v5
      = Cert.Chamfer.meanSum (fun _ => Cert.Chamfer.rowTotal (predArr m c) (gtArr m c)) (fun _ => Cert.Chamfer.colTotal (predArr m c) (gtArr m c)) := by
  unfold Pipeline.afterTail₀
  show StableHlo.after hostOps1 _ (Proc.devRef .tc main_v5) = _
  after_results
  rw [arr_rowSum m c, arr_colSum m c]
  rfl

/-- The kernel program's run with its result named: every weakly fair execution terminates without fault, the result is
    the two totals of the argument arrays, each divided by 32768, added; the arguments end unchanged. -/
theorem kernel_run : θ_run defs (onTc (τ := τ) (main (F := Ideal))) ⟨m, fun _ => 0, ρ⟩ (fun r => ∀ c : Dev nD,
      r.2.mem ((c.tc : Thread nD τ).loc main_v5)
        = Cert.Chamfer.meanSum (fun _ => Cert.Chamfer.rowTotal (predArr m c) (gtArr m c)) (fun _ => Cert.Chamfer.colTotal (predArr m c) (gtArr m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v5 (Pipeline.mem_restRefs_of main_v5 rfl (by intro w; fin_cases w <;> decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Body

end
-- ==== Proof.Value.RefRead.lean ====
/-
  The reference program's result, read one operation at a time: the squared norms of the points (a sum over the two
  coordinates, starting from 0), the inner products of every pair (a contraction over the two coordinates), the
  squared distances |p|² + |q|² − 2·⟨p, q⟩, their minima along each point axis (starting from +∞), the sums of the
  minima (starting from 0), and the two quotients by 32768 added. The two sums of minima are the row total and the
  column total.
-/
import proofs.«134979_j28595892257476_1_alg».proof.Proof.Gen.ReferenceIdeal.Run
import proofs.«134979_j28595892257476_1_alg».proof.Proof.Gen.ReferenceIdeal.Read
import proofs.«134979_j28595892257476_1_alg».proof.Proof.Value.Spec
import Idealize.ShloMosaic.Lib.ValueIdx
import Idealize.ShloMosaic.PureOps.Ideal.Laws
import Mathlib.Data.Fintype.Lattice

set_option maxRecDepth 16384
noncomputable section

open scoped BigOperators

namespace Cert.ReferenceIdeal.RefValue

open Cert.ReferenceIdeal Cert.ReferenceIdeal.Gen Cert.ReferenceIdeal.Read
open Idealize.ShloMosaic Idealize.ShloMosaic.ValueIdx

/-- The squared distance, as the reference evaluates it at one pair of points. -/
theorem ref_sqDist (x0 x1 : (⟨S4x8192x2, .f32⟩ : BufTy).Contents (Elt Ideal)) (b : Fin 4) (n m : Fin 8192) :
    Read.val_main_v12 (F := Ideal) x0 x1 (ix3 b n m) = Cert.Chamfer.sqDist x0 x1 b n m := by
  have e7 : idx_main_v5 (idx_main_v7 (ix3 b n m)) = ix2 b n :=
    funext fun a => Fin.ext (by match a with | ⟨0, _⟩ => rfl | ⟨1, _⟩ => rfl)
  have e8 : idx_main_v6 (idx_main_v8 (ix3 b n m)) = ix2 b m :=
    funext fun a => Fin.ext (by match a with | ⟨0, _⟩ => rfl | ⟨1, _⟩ => rfl)
  have e1 : ∀ k : Fin 2, idx_main_v1 (ix2 b n) k = ix3 b n k := fun k =>
    funext fun a => Fin.ext (by match a with | ⟨0, _⟩ => rfl | ⟨1, _⟩ => rfl | ⟨2, _⟩ => rfl)
  have e3 : ∀ k : Fin 2, idx_main_v3 (ix2 b m) k = ix3 b m k := fun k =>
    funext fun a => Fin.ext (by match a with | ⟨0, _⟩ => rfl | ⟨1, _⟩ => rfl | ⟨2, _⟩ => rfl)
  have el : ∀ k : Fin 2, lidx_main_v4 (ix3 b n m) k = ix3 b n k := fun k =>
    funext fun a => Fin.ext (by match a with | ⟨0, _⟩ => rfl | ⟨1, _⟩ => rfl | ⟨2, _⟩ => rfl)
  have er : ∀ k : Fin 2, ridx_main_v4 (ix3 b n m) k = ix3 b m k := fun k =>
    funext fun a => Fin.ext (by match a with | ⟨0, _⟩ => rfl | ⟨1, _⟩ => rfl | ⟨2, _⟩ => rfl)
  rw [val_main_v12_apply, val_main_v9_apply, val_main_v11_apply, val_main_v7_apply, val_main_v8_apply,
    val_main_v10_apply, val_main_v5_apply, val_main_v6_apply, val_main_cst_1_apply, val_main_v4_apply, e7, e8,
    val_main_v1_apply, val_main_v3_apply, val_main_cst_apply, val_main_cst_0_apply]
  simp only [Fin.sum_univ_two, e1, e3, el, er, val_main_v0_apply, val_main_v2_apply, Ideal.mulf_def, Ideal.addf_def,
    Ideal.subf_def, Ideal.ofBits_def, Ideal.ofBits_zero_f32, zero_add]
  rfl

/-- The word 0x7F800000 is +∞. -/
theorem ofBits_inf_f32 : Ideal.ofBits .f32 0x7F800000#32 = ⊤ := by simp [Ideal.ofBits, Ideal.ieee]

/-- A fold of the minimum from +∞ over all of a finite index set is the infimum over it. -/
theorem fold_minimumf_top (g : Fin 8192 → EReal) :
    (Finset.univ : Finset (Fin 8192)).fold (FloatOps.minimumf (F := Ideal) (φ := .f32)) (Ideal.ofBits .f32 0x7F800000#32) g
      = ⨅ m, g m := by
  rw [ofBits_inf_f32, ← Finset.inf_univ_eq_iInf]
  rfl

/-- The minimum along the second point axis, at one point of the first set. -/
theorem ref_rowMin (x0 x1 : (⟨S4x8192x2, .f32⟩ : BufTy).Contents (Elt Ideal)) (b : Fin 4) (n : Fin 8192) :
    Read.val_main_v13 (F := Ideal) x0 x1 (ix2 b n) = ⨅ m : Fin 8192, Cert.Chamfer.sqDist x0 x1 b n m := by
  have hR : S4x8192x8192.Reduces [(2 : Fin S4x8192x8192.rank)] S4x8192 := by decide
  unfold val_main_v13
  refine (Host.reduce_eq_fold_single (s := S4x8192x8192) (t := S4x8192) (a := (2 : Fin S4x8192x8192.rank))
    (FloatOps.minimumf (F := Ideal) (φ := .f32)) (val_main_v12 (F := Ideal) x0 x1)
    (val_main_cst_2 (F := Ideal)) reducesTo_S4x8192x8192_S4x8192_d2 hR h_S_ (ix2 b n)).trans ?_
  have hpt : ∀ m : Fin 8192, val_main_v12 (F := Ideal) x0 x1 (hR.lift (ix2 b n) m) = Cert.Chamfer.sqDist x0 x1 b n m := by
    intro m
    have hl : hR.lift (ix2 b n) m = ix3 b n m :=
      funext fun a => Fin.ext (by match a with | ⟨0, _⟩ => rfl | ⟨1, _⟩ => rfl | ⟨2, _⟩ => rfl)
    rw [hl, ref_sqDist]
  have hf : (val_main_v12 (F := Ideal) x0 x1 ∘ hR.lift (ix2 b n)) = fun m : Fin 8192 => Cert.Chamfer.sqDist x0 x1 b n m :=
    funext hpt
  rw [hf, val_main_cst_2_apply, Ideal.ofBits_def]
  exact fold_minimumf_top _

/-- The minimum along the first point axis, at one point of the second set. -/
theorem ref_colMin (x0 x1 : (⟨S4x8192x2, .f32⟩ : BufTy).Contents (Elt Ideal)) (b : Fin 4) (m : Fin 8192) :
    Read.val_main_v14 (F := Ideal) x0 x1 (ix2 b m) = ⨅ n : Fin 8192, Cert.Chamfer.sqDist x0 x1 b n m := by
  have hR : S4x8192x8192.Reduces [(1 : Fin S4x8192x8192.rank)] S4x8192 := by decide
  unfold val_main_v14
  refine (Host.reduce_eq_fold_single (s := S4x8192x8192) (t := S4x8192) (a := (1 : Fin S4x8192x8192.rank))
    (FloatOps.minimumf (F := Ideal) (φ := .f32)) (val_main_v12 (F := Ideal) x0 x1)
    (val_main_cst_3 (F := Ideal)) reducesTo_S4x8192x8192_S4x8192_d1 hR h_S_ (ix2 b m)).trans ?_
  have hpt : ∀ n : Fin 8192, val_main_v12 (F := Ideal) x0 x1 (hR.lift (ix2 b m) n) = Cert.Chamfer.sqDist x0 x1 b n m := by
    intro n
    have hl : hR.lift (ix2 b m) n = ix3 b n m :=
      funext fun a => Fin.ext (by match a with | ⟨0, _⟩ => rfl | ⟨1, _⟩ => rfl | ⟨2, _⟩ => rfl)
    rw [hl, ref_sqDist]
  have hf : (val_main_v12 (F := Ideal) x0 x1 ∘ hR.lift (ix2 b m)) = fun n : Fin 8192 => Cert.Chamfer.sqDist x0 x1 b n m :=
    funext hpt
  rw [hf, val_main_cst_3_apply, Ideal.ofBits_def]
  exact fold_minimumf_top _

/-- The sum of the minima along the second point axis is the row total. -/
theorem ref_rowTotal (x0 x1 : (⟨S4x8192x2, .f32⟩ : BufTy).Contents (Elt Ideal)) (i : S_.Idx) :
    Read.val_main_v15 (F := Ideal) x0 x1 i = Cert.Chamfer.rowTotal x0 x1 := by
  rw [val_main_v15_apply, val_main_cst_4_apply, Ideal.ofBits_def, Ideal.ofBits_zero_f32, zero_add, sum_idx2]
  unfold Cert.Chamfer.rowTotal
  exact Finset.sum_congr rfl fun b _ => Finset.sum_congr rfl fun n _ => ref_rowMin x0 x1 b n

/-- The sum of the minima along the first point axis is the column total. -/
theorem ref_colTotal (x0 x1 : (⟨S4x8192x2, .f32⟩ : BufTy).Contents (Elt Ideal)) (i : S_.Idx) :
    Read.val_main_v17 (F := Ideal) x0 x1 i = Cert.Chamfer.colTotal x0 x1 := by
  rw [val_main_v17_apply, val_main_cst_6_apply, Ideal.ofBits_def, Ideal.ofBits_zero_f32, zero_add, sum_idx2]
  unfold Cert.Chamfer.colTotal
  exact Finset.sum_congr rfl fun b _ => Finset.sum_congr rfl fun m _ => ref_colMin x0 x1 b m

/-- The reference's result: the two totals, each divided by 32768, added. -/
theorem ref_result (x0 x1 : (⟨S4x8192x2, .f32⟩ : BufTy).Contents (Elt Ideal)) :
    Read.val_main_v19 (F := Ideal) x0 x1
      = Cert.Chamfer.meanSum (fun _ => Cert.Chamfer.rowTotal x0 x1) (fun _ => Cert.Chamfer.colTotal x0 x1) := by
  have h15 : Read.val_main_v15 (F := Ideal) x0 x1 = fun _ => Cert.Chamfer.rowTotal x0 x1 :=
    funext fun i => ref_rowTotal x0 x1 i
  have h17 : Read.val_main_v17 (F := Ideal) x0 x1 = fun _ => Cert.Chamfer.colTotal x0 x1 :=
    funext fun i => ref_colTotal x0 x1 i
  unfold val_main_v19 val_main_v16 val_main_v18
  rw [h15, h17]
  rfl

end Cert.ReferenceIdeal.RefValue

end
-- ==== Proof.lean ====
/-
  The certificate of the Chamfer-distance kernel against its reference.

  Both programs take two point sets, four batches of 8192 points in the plane each, and return one number: the sum,
  over the points of the first set, of the least squared distance to a point of the second, divided by 32768, plus the
  same with the two sets exchanged. The reference forms the whole 8192 × 8192 table of squared distances
  |p|² + |q|² − 2·⟨p, q⟩ per batch and takes its minima along both axes. The kernel visits the table in 16 × 16 tiles
  of 512 × 512, carrying the row minima of the current row of tiles, the column minima of all columns and a running
  sum of finished row minima.

  Over the extended reals the two agree entry for entry in how a squared distance is formed, and a minimum over 8192
  entries is the minimum of the minima of its 16 stretches, a sum over 8192 rows the sum of the sums over its 16
  stretches: only the commutative-monoid laws of + and the lattice laws of min are used, so the inputs' finiteness is
  never needed for the values. The frames (each program runs to the end without fault and leaves its arguments
  unchanged) are proved for the kernel once, for any float instance, from the body's run at each of the five kinds of
  grid point; the idealization changed nothing in the kernel's text, so there is nothing to preserve.
-/
import proofs.«134979_j28595892257476_1_alg».proof.Defs
import proofs.«134979_j28595892257476_1_alg».proof.Proof.Gen.Kernel
import proofs.«134979_j28595892257476_1_alg».proof.Proof.Gen.KernelIdeal
import proofs.«134979_j28595892257476_1_alg».proof.Proof.Gen.ReferenceIdeal
import proofs.«134979_j28595892257476_1_alg».proof.Proof.Gen.Pre_finite_inputs
import proofs.«134979_j28595892257476_1_alg».proof.Proof.BodyKernel.Sound
import proofs.«134979_j28595892257476_1_alg».proof.Proof.BodyKernelIdeal.Sound
import proofs.«134979_j28595892257476_1_alg».proof.Proof.Value.KernelResult
import proofs.«134979_j28595892257476_1_alg».proof.Proof.Value.RefRead
import Idealize.ShloMosaic.Adequacy
import Idealize.ShloMosaic.Init

noncomputable section

namespace Cert.Proof

open Idealize.ShloMosaic Idealize.ShloMosaic.TcCoe Idealize.SL.Sem

/-- The word-level kernel runs to the end and leaves its arguments unchanged. -/
theorem frame_kernel : @Cert.frame_Kernel Cert.Kernel.Gen.facts Cert.Pre_finite_inputs.Gen.facts :=
  fun m ρ _ => Cert.Kernel.Body.frame m ρ

/-- So does the idealized kernel. -/
theorem frame_kernelIdeal : @Cert.frame_KernelIdeal Cert.KernelIdeal.Gen.facts Cert.Pre_finite_inputs.Gen.facts :=
  fun m ρ _ => Cert.KernelIdeal.Body.frame m ρ

/-- The reference is host operations only: its run, with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories that agree on the two point sets, both programs end at the two totals of those point sets, each
    divided by 32768, added. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Chamfer.meanSum
      (fun _ => Cert.Chamfer.rowTotal (Cert.KernelIdeal.Body.predArr m c) (Cert.KernelIdeal.Body.gtArr m c))
      (fun _ => Cert.Chamfer.colTotal (Cert.KernelIdeal.Body.predArr m c) (Cert.KernelIdeal.Body.gtArr m c)),
    Cert.KernelIdeal.Body.kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v19_eq _ _).trans (Cert.ReferenceIdeal.RefValue.ref_result _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
